-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.truncf_extf.Statement Cert.KernelIdeal.S1000x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S128x10 .f32) (main_arg10 : FVec F S10 .f32) (main_v33 : IVec S_ 1) : IVec S_ 1 :=
  let main_v34 : FVec F S128x10 .f32 := Host.absf main_arg9
  let main_cst_12 : FVec F S_ .f32 := constant S_ .f32 0x7F800000#32
  let main_v35 : FVec F S128x10 .f32 := broadcastInDim S128x10 ![] bcast_S_S128x10 main_cst_12
  let main_v36 : IVec S128x10 1 := cmpf .olt main_v34 main_v35
  let main_c_13 : IVec S_ 1 := constantI S_ 1 1#1
  let main_v37 : IVec S_ 1 := (fun x v => Host.reduce IntOp.andi x v reducesTo_S128x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x10 .f32) (main_arg10 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x1600000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x10 .f32) (main_arg10 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x1 : Shape := ⟨2, ![50000, 1]⟩
abbrev S5000x128 : Shape := ⟨2, ![5000, 128]⟩
abbrev S5000x1 : Shape := ⟨2, ![5000, 1]⟩
abbrev S1650000x128 : Shape := ⟨2, ![1650000, 128]⟩
abbrev S1x128 : Shape := ⟨2, ![1, 128]⟩
abbrev S1x10 : Shape := ⟨2, ![1, 10]⟩
abbrev S512x10 : Shape := ⟨2, ![512, 10]⟩
abbrev S1000x128 : Shape := ⟨2, ![1000, 128]⟩
abbrev S1000x1 : Shape := ⟨2, ![1000, 1]⟩
abbrev S512x128 : Shape := ⟨2, ![512, 128]⟩
abbrev S1x512 : Shape := ⟨2, ![1, 512]⟩
abbrev S1000x512 : Shape := ⟨2, ![1000, 512]⟩
abbrev S512 : Shape := ⟨1, ![512]⟩
abbrev S512x1 : Shape := ⟨2, ![512, 1]⟩

abbrev nBuf : Space → Nat
  | .hbm => 84
  | .vmem => 35
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x10, .f32⟩
  | .hbm, ⟨10, _⟩ => ⟨S10, .f32⟩
  | .hbm, ⟨11, _⟩ => ⟨S50000, .i32⟩
  | .hbm, ⟨12, _⟩ => ⟨S1x1600000, .i32⟩
  | .hbm, ⟨13, _⟩ => ⟨S1600000, .i32⟩
  | .hbm, ⟨14, _⟩ => ⟨S1650000, .i32⟩
  | .hbm, ⟨15, _⟩ => ⟨S1x1600000, .i32⟩
  | .hbm, ⟨16, _⟩ => ⟨S1600000, .i32⟩
  | .hbm, ⟨17, _⟩ => ⟨S1650000, .i32⟩
  | .hbm, ⟨18, _⟩ => ⟨S_, .f32⟩
  | .hbm, ⟨19, _⟩ => ⟨S1650000, .f32⟩
  | .hbm, ⟨20, _⟩ => ⟨S_, .f32⟩
  | .hbm, ⟨21, _⟩ => ⟨S50000, .f32⟩
  | .hbm, ⟨22, _⟩ => ⟨S1650000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x128, .f32⟩
  | .hbm, ⟨37, _⟩ => ⟨S_, .i32⟩
  | .hbm, ⟨38, _⟩ => ⟨S1650000, .i32⟩
  | .hbm, ⟨39, _⟩ => ⟨S1650000, .i1⟩
  | .hbm, ⟨40, _⟩ => ⟨S_, .i32⟩
  | .hbm, ⟨41, _⟩ => ⟨S1650000, .i32⟩
  | .hbm, ⟨42, _⟩ => ⟨S1650000, .i32⟩
  | .hbm, ⟨43, _⟩ => ⟨S1650000, .i32⟩
  | .hbm, ⟨44, _⟩ => ⟨S1650000x1, .i32⟩
  | .hbm, ⟨45, _⟩ => ⟨S1650000x128, .f32⟩
  | .hbm, ⟨46, _⟩ => ⟨S_, .f32⟩
  | .hbm, ⟨47, _⟩ => ⟨S50000x128, .f32⟩
  | .hbm, ⟨48, _⟩ => ⟨S1650000x1, .i32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S_, .i32⟩
  | .hbm, ⟨53, _⟩ => ⟨S1650000, .i32⟩
  | .hbm, ⟨54, _⟩ => ⟨S1650000, .i1⟩
  | .hbm, ⟨55, _⟩ => ⟨S_, .i32⟩
  | .hbm, ⟨56, _⟩ => ⟨S1650000, .i32⟩
  | .hbm, ⟨57, _⟩ => ⟨S1650000, .i32⟩
  | .hbm, ⟨58, _⟩ => ⟨S1650000, .i32⟩
  | .hbm, ⟨59, _⟩ => ⟨S1650000x1, .i32⟩
  | .hbm, ⟨60, _⟩ => ⟨S1650000x128, .f32⟩
  | .hbm, ⟨61, _⟩ => ⟨S_, .f32⟩
  | .hbm, ⟨62, _⟩ => ⟨S50000x128, .f32⟩
  | .hbm, ⟨63, _⟩ => ⟨S1650000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S_, .i32⟩
  | .hbm, ⟨68, _⟩ => ⟨S1650000, .i32⟩
  | .hbm, ⟨69, _⟩ => ⟨S1650000, .i1⟩
  | .hbm, ⟨70, _⟩ => ⟨S_, .i32⟩
  | .hbm, ⟨71, _⟩ => ⟨S1650000, .i32⟩
  | .hbm, ⟨72, _⟩ => ⟨S1650000, .i32⟩
  | .hbm, ⟨73, _⟩ => ⟨S1650000, .i32⟩
  | .hbm, ⟨74, _⟩ => ⟨S1650000x1, .i32⟩
  | .hbm, ⟨75, _⟩ => ⟨S1650000x128, .f32⟩
  | .hbm, ⟨76, _⟩ => ⟨S_, .f32⟩
  | .hbm, ⟨77, _⟩ => ⟨S50000x128, .f32⟩
  | .hbm, ⟨78, _⟩ => ⟨S1650000x1, .i32⟩
  | .hbm, ⟨79, _⟩ => ⟨S50000x128, .f32⟩
  | .hbm, ⟨80, _⟩ => ⟨S50000x1, .i32⟩
  | .hbm, ⟨81, _⟩ => ⟨S1x128, .f32⟩
  | .hbm, ⟨82, _⟩ => ⟨S1x10, .f32⟩
  | .hbm, ⟨83, _⟩ => ⟨S512x10, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S5000x1, .f32⟩
  | .local _ .vmem, ⟨11, _⟩ => ⟨S5000x1, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x1, .f32⟩
  | .local _ .vmem, ⟨19, _⟩ => ⟨S5000x1, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S1000x128, .f32⟩
  | .local _ .vmem, ⟨24, _⟩ => ⟨S1000x128, .f32⟩
  | .local _ .vmem, ⟨25, _⟩ => ⟨S1x128, .f32⟩
  | .local _ .vmem, ⟨26, _⟩ => ⟨S1000x1, .f32⟩
  | .local _ .vmem, ⟨27, _⟩ => ⟨S1000x1, .f32⟩
  | .local _ .vmem, ⟨28, _⟩ => ⟨S1000x1, .i32⟩
  | .local _ .vmem, ⟨29, _⟩ => ⟨S1000x1, .i32⟩
  | .local _ .vmem, ⟨30, _⟩ => ⟨S128x10, .f32⟩
  | .local _ .vmem, ⟨31, _⟩ => ⟨S1x10, .f32⟩
  | .local _ .vmem, ⟨32, _⟩ => ⟨S512x10, .f32⟩
  | .local _ .vmem, ⟨33, _⟩ => ⟨S512x128, .f32⟩
  | .local _ .vmem, ⟨34, _⟩ => ⟨S1x512, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_9 : Ref sig .tc := ⟨.hbm, 67, rfl⟩
abbrev main_v43 : Ref sig .tc := ⟨.hbm, 68, rfl⟩
abbrev main_v44 : Ref sig .tc := ⟨.hbm, 69, rfl⟩
abbrev main_c_10 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_11 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_scratch0 : Ref sig .tc := ⟨.vmem, 33, rfl⟩
abbrev cc3_scratch1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem2_1 : DmaSem sig := 27
abbrev cc3_sem3_0 : DmaSem sig := 28
abbrev cc3_sem3_1 : DmaSem sig := 29
abbrev cc3_sem4_0 : DmaSem sig := 30
abbrev cc3_sem5_0 : DmaSem sig := 31
abbrev cc3_sem6_0 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def k3_cond2 (i : grid3.Coords) : BitVec 1 :=
  let arg0 : BitVec 32 := BitVec.ofNat 32 (i 0).val
  let c49_i32 : BitVec 32 := 49#32
  let v36 : BitVec 1 := Scalar.cmpi .eq arg0 c49_i32
  let v37 : BitVec 32 := Scalar.extui v36
  let c0_i32_17 : BitVec 32 := 0#32
  let v38 : BitVec 1 := Scalar.cmpi .ne v37 c0_i32_17
  v38

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1000x1 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S128x10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x10 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S512x10 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S10_S1x10 : S10.ShapeCasts S1x10
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x128 : S1000x1.Broadcasts S1000x128
  broadcasts_S1x128_S1000x128 : S1x128.Broadcasts S1000x128
  iota_S1000x512_d1_w32 : S1000x512.Iotas .tc 32 [1]
  broadcasts_S1000x1_S1000x512 : S1000x1.Broadcasts S1000x512
  natLt_1_32 : 1 < 32
  reduces_S1000x512_S512 : S1000x512.Reduces [0] S512
  shapeCasts_S512_S1x512 : S512.ShapeCasts S1x512
  transposes_S1x512_p1_0_S512x1 : S1x512.Transposes [1, 0] S512x1
  broadcasts_S512x1_S512x128 : S512x1.Broadcasts S512x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  reduces_S512x10_S512 : S512x10.Reduces [1] S512
  shapeCasts_S512_S512x1 : S512.ShapeCasts S512x1
  broadcasts_S512x1_S512x10 : S512x1.Broadcasts S512x10
  inb_S512x10_S512x10_0_0 : ∀ a, (![0, 0] : Fin 2 → Nat) a + S512x10.size a ≤ S512x10.size a
  h_S512x10 : 0 < S512x10.numel
  scatter_S50000_S1650000x1_S1650000_n_0_0_1_wf : ScatterDims.WF S50000 S1650000x1 S1650000 [] [0] [0] 1
  dot_S5000x128_S128x128_S5000x128_1_0_0_1_n_n_wf : DotDims.WF S5000x128 S128x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S1000x512_S1000x128_S512x128_0_0_1_1_n_n_wf : DotDims.WF S1000x512 S1000x128 S512x128 [0] [0] [1] [1] [] []
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S50000x128.size a
  hwx3_0 : ∀ i : grid3.Coords, EltTy.bits .f32 = 32 ∨ (Rect.block (s := S50000x128) S1000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x1.size a ≤ S50000x1.size a
  hwx3_2 : ∀ i : grid3.Coords, EltTy.bits .f32 = 32 ∨ (Rect.block (s := S50000x1) S1000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x1.size a ≤ S50000x1.size a
  hwx3_3 : ∀ i : grid3.Coords, EltTy.bits .i32 = 32 ∨ (Rect.block (s := S50000x1) S1000x1.size (cc3_transform_3 i) (hinb3_3 i)).WholeWords (EltTy.packing .i32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x10.size a ≤ S128x10.size a
  hwx3_4 : ∀ i : grid3.Coords, EltTy.bits .f32 = 32 ∨ (Rect.block (s := S128x10) S128x10.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x10.size a ≤ S1x10.size a
  hwx3_5 : ∀ i : grid3.Coords, EltTy.bits .f32 = 32 ∨ (Rect.block (s := S1x10) S1x10.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S512x10.size a ≤ S512x10.size a
  hwx3_6 : ∀ i : grid3.Coords, EltTy.bits .f32 = 32 ∨ (Rect.block (s := S512x10) S512x10.size (cc3_transform_6 i) (hinb3_6 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S1000x512_S1000x128_S512x128_0_0_1_1_n_n : DotDims S1000x512 S1000x128 S512x128 where
  lhsContracting := [0]
  rhsContracting := [0]
  lhsNonContracting := [1]
  rhsNonContracting := [1]
  lhsBatch := []
  rhsBatch := []
  wf := dot_S1000x512_S1000x128_S512x128_0_0_1_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v52) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v17) S1000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v53) S1000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg9) S128x10.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v55) S1x10.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v56) S512x10.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun _ => false | 5 => fun _ => false | 6 => fun i => !(k3_cond2 i == 1#1) | ⟨_ + 7, h⟩ => absurd h (Nat.not_lt.2 (Nat.le_add_left _ _))

class Facts : Prop extends Facts₀ where

variable [Facts]
-- ==== ReferenceIdeal.lean ====
abbrev S50000x128 : Shape := ⟨2, ![50000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S512x128 : Shape := ⟨2, ![512, 128]⟩
abbrev S50000x1 : Shape := ⟨2, ![50000, 1]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 151
  | .vmem => 0
  | .smem => 0
  | _ => 0

abbrev hbmTy0_0 (i : Nat) : BufTy := match i % 128 with
  | 0 => ⟨S50000x128, .f32⟩
  | 1 => ⟨S2x1600000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x10, .f32⟩
  | 10 => ⟨S10, .f32⟩
  | 11 => ⟨S50000, .i32⟩
  | 12 => ⟨S1x1600000, .i32⟩
  | 13 => ⟨S1600000, .i32⟩
  | 14 => ⟨S1650000, .i32⟩
  | 15 => ⟨S1x1600000, .i32⟩
  | 16 => ⟨S1600000, .i32⟩
  | 17 => ⟨S1650000, .i32⟩
  | 18 => ⟨S_, .f32⟩
  | 19 => ⟨S1650000, .f32⟩
  | 20 => ⟨S_, .f32⟩
  | 21 => ⟨S50000, .f32⟩
  | 22 => ⟨S1650000x1, .i32⟩
  | 23 => ⟨S50000, .f32⟩
  | 24 => ⟨S_, .f32⟩
  | 25 => ⟨S50000, .f32⟩
  | 26 => ⟨S50000, .i1⟩
  | 27 => ⟨S_, .f32⟩
  | 28 => ⟨S50000, .f32⟩
  | 29 => ⟨S50000, .f32⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S1650000, .i32⟩
  | 37 => ⟨S1650000, .i1⟩
  | 38 => ⟨S_, .i32⟩
  | 39 => ⟨S1650000, .i32⟩
  | 40 => ⟨S1650000, .i32⟩
  | 41 => ⟨S1650000, .i32⟩
  | 42 => ⟨S1650000x1, .i32⟩
  | 43 => ⟨S1650000, .f32⟩
  | 44 => ⟨S_, .i32⟩
  | 45 => ⟨S1650000, .i32⟩
  | 46 => ⟨S1650000, .i1⟩
  | 47 => ⟨S_, .i32⟩
  | 48 => ⟨S1650000, .i32⟩
  | 49 => ⟨S1650000, .i32⟩
  | 50 => ⟨S1650000, .i32⟩
  | 51 => ⟨S1650000x1, .i32⟩
  | 52 => ⟨S1650000, .f32⟩
  | 53 => ⟨S1650000, .f32⟩
  | 54 => ⟨S50000x128, .f32⟩
  | 55 => ⟨S_, .i32⟩
  | 56 => ⟨S1650000, .i32⟩
  | 57 => ⟨S1650000, .i1⟩
  | 58 => ⟨S_, .i32⟩
  | 59 => ⟨S1650000, .i32⟩
  | 60 => ⟨S1650000, .i32⟩
  | 61 => ⟨S1650000, .i32⟩
  | 62 => ⟨S1650000x1, .i32⟩
  | 63 => ⟨S1650000x128, .f32⟩
  | 64 => ⟨S1650000x1, .f32⟩
  | 65 => ⟨S1650000x128, .f32⟩
  | 66 => ⟨S1650000x128, .f32⟩
  | 67 => ⟨S_, .f32⟩
  | 68 => ⟨S50000x128, .f32⟩
  | 69 => ⟨S1650000x1, .i32⟩
  | 70 => ⟨S50000x128, .f32⟩
  | 71 => ⟨S1x128, .f32⟩
  | 72 => ⟨S50000x128, .f32⟩
  | 73 => ⟨S50000x128, .f32⟩
  | 74 => ⟨S50000x128, .f32⟩
  | 75 => ⟨S50000x128, .f32⟩
  | 76 => ⟨S_, .i32⟩
  | 77 => ⟨S1650000, .i32⟩
  | 78 => ⟨S1650000, .i1⟩
  | 79 => ⟨S_, .i32⟩
  | 80 => ⟨S1650000, .i32⟩
  | 81 => ⟨S1650000, .i32⟩
  | 82 => ⟨S1650000, .i32⟩
  | 83 => ⟨S1650000x1, .i32⟩
  | 84 => ⟨S1650000x128, .f32⟩
  | 85 => ⟨S1650000x1, .f32⟩
  | 86 => ⟨S1650000x128, .f32⟩
  | 87 => ⟨S1650000x128, .f32⟩
  | 88 => ⟨S_, .f32⟩
  | 89 => ⟨S50000x128, .f32⟩
  | 90 => ⟨S1650000x1, .i32⟩
  | 91 => ⟨S50000x128, .f32⟩
  | 92 => ⟨S1x128, .f32⟩
  | 93 => ⟨S50000x128, .f32⟩
  | 94 => ⟨S50000x128, .f32⟩
  | 95 => ⟨S50000x128, .f32⟩
  | 96 => ⟨S50000x128, .f32⟩
  | 97 => ⟨S_, .i32⟩
  | 98 => ⟨S1650000, .i32⟩
  | 99 => ⟨S1650000, .i1⟩
  | 100 => ⟨S_, .i32⟩
  | 101 => ⟨S1650000, .i32⟩
  | 102 => ⟨S1650000, .i32⟩
  | 103 => ⟨S1650000, .i32⟩
  | 104 => ⟨S1650000x1, .i32⟩
  | 105 => ⟨S1650000x128, .f32⟩
  | 106 => ⟨S1650000x1, .f32⟩
  | 107 => ⟨S1650000x128, .f32⟩
  | 108 => ⟨S1650000x128, .f32⟩
  | 109 => ⟨S_, .f32⟩
  | 110 => ⟨S50000x128, .f32⟩
  | 111 => ⟨S1650000x1, .i32⟩
  | 112 => ⟨S50000x128, .f32⟩
  | 113 => ⟨S1x128, .f32⟩
  | 114 => ⟨S50000x128, .f32⟩
  | 115 => ⟨S50000x128, .f32⟩
  | 116 => ⟨S_, .f32⟩
  | 117 => ⟨S512x128, .f32⟩
  | 118 => ⟨S50000x1, .i32⟩
  | 119 => ⟨S512x128, .f32⟩
  | 120 => ⟨S_, .f32⟩
  | 121 => ⟨S50000, .f32⟩
  | 122 => ⟨S_, .f32⟩
  | 123 => ⟨S512, .f32⟩
  | 124 => ⟨S50000x1, .i32⟩
  | 125 => ⟨S512, .f32⟩
  | 126 => ⟨S_, .f32⟩
  | 127 => ⟨S512, .f32⟩
  | _ => ⟨S50000x128, .f32⟩

abbrev hbmTy0_1 (i : Nat) : BufTy := match i % 128 with
  | 0 => ⟨S512, .f32⟩
  | 1 => ⟨S512x1, .f32⟩
  | 2 => ⟨S512x128, .f32⟩
  | 3 => ⟨S512x128, .f32⟩
  | 4 => ⟨S512x10, .f32⟩
  | 5 => ⟨S1x10, .f32⟩
  | 6 => ⟨S512x10, .f32⟩
  | 7 => ⟨S512x10, .f32⟩
  | 8 => ⟨S_, .f32⟩
  | 9 => ⟨S512, .f32⟩
  | 10 => ⟨S_, .f32⟩
  | 11 => ⟨S512, .f32⟩
  | 12 => ⟨S512, .f32⟩
  | 13 => ⟨S512x1, .f32⟩
  | 14 => ⟨S512x10, .f32⟩
  | 15 => ⟨S512x10, .f32⟩
  | 16 => ⟨S512x10, .f32⟩
  | 17 => ⟨S_, .f32⟩
  | 18 => ⟨S512, .f32⟩
  | 19 => ⟨S512x1, .f32⟩
  | 20 => ⟨S512x1, .f32⟩
  | 21 => ⟨S512x10, .f32⟩
  | 22 => ⟨S512x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_13 : Ref sig .tc := ⟨.hbm, 97, rfl⟩
abbrev main_v69 : Ref sig .tc := ⟨.hbm, 98, rfl⟩
abbrev main_v70 : Ref sig .tc := ⟨.hbm, 99, rfl⟩
abbrev main_c_14 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_15 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_16 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_17 : Ref sig .tc := ⟨.hbm, 120, rfl⟩
abbrev main_v88 : Ref sig .tc := ⟨.hbm, 121, rfl⟩
abbrev main_cst_18 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_19 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_call1_cst : Ref sig .tc := ⟨.hbm, 136, rfl⟩
abbrev main_call1_v0 : Ref sig .tc := ⟨.hbm, 137, rfl⟩
abbrev main_call1_cst_0 : Ref sig .tc := ⟨.hbm, 138, rfl⟩
abbrev main_call1_v1 : Ref sig .tc := ⟨.hbm, 139, rfl⟩
abbrev main_call1_v2 : Ref sig .tc := ⟨.hbm, 140, rfl⟩
abbrev main_call1_v3 : Ref sig .tc := ⟨.hbm, 141, rfl⟩
abbrev main_call1_v4 : Ref sig .tc := ⟨.hbm, 142, rfl⟩
abbrev main_call1_v5 : Ref sig .tc := ⟨.hbm, 143, rfl⟩
abbrev main_call1_v6 : Ref sig .tc := ⟨.hbm, 144, rfl⟩
abbrev main_call1_cst_1 : Ref sig .tc := ⟨.hbm, 145, rfl⟩
abbrev main_call1_v7 : Ref sig .tc := ⟨.hbm, 146, rfl⟩
abbrev main_call1_v8 : Ref sig .tc := ⟨.hbm, 147, rfl⟩
abbrev main_call1_v9 : Ref sig .tc := ⟨.hbm, 148, rfl⟩
abbrev main_call1_v10 : Ref sig .tc := ⟨.hbm, 149, rfl⟩
abbrev main_v101 : Ref sig .tc := ⟨.hbm, 150, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  reducesTo_S512x10_S512_d1 : S512x10.ReducesTo [1] S512
  h_S_ : 0 < S_.numel
  bcast_S512x1_S512x10_0_1 : S512x1.BroadcastsInDim S512x10 (![0, 1] : Fin 2 → Fin S512x10.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x128_S128x128_S50000x128_1_0_0_1_n_n_wf : DotDims.WF S50000x128 S128x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x10_S512x10_1_0_0_1_n_n_wf : DotDims.WF S512x128 S128x10 S512x10 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.K.Reg0.lean ====
/-
  Region 0 of @main: the first layer's dense transform. One grid point handles 5000 rows: it reads the point's
  5000 x 128 block of the node features, the whole 128 x 128 weight matrix and the point's 5000 x 1 block of the degree
  normalisation, and stores (x W) scaled row by row by the normalisation into the point's 5000 x 128 output block, whole.
  Stated at the contents V the region is entered from and at any float family: each window's block at a point, what the
  body leaves in the output's staging buffer as a function of the three input blocks, the body's triple, the pipeline's
  proof data and the body obligation at every point.
-/
import proofs.«400023_j55559696941219_2_alg».proof.Proof.Gen.Kernel.Launch
import proofs.«400023_j55559696941219_2_alg».proof.Proof.Gen.Kernel.Skeleton
import proofs.«400023_j55559696941219_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched its block index has not moved since the previous point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_x : Rect S5000x128 := Rect.unit (s := S5000x128) ![0, 0] S5000x128.size inb_S5000x128_S5000x128_0_0
abbrev r0_w : Rect S128x128 := Rect.unit (s := S128x128) ![0, 0] S128x128.size inb_S128x128_S128x128_0_0
abbrev r0_d : Rect S5000x1 := Rect.unit (s := S5000x1) ![0, 0] S5000x1.size inb_S5000x1_S5000x1_0_0

/-- The output's staging buffer after the body: its one store, of the whole block, of the payload of the three loads. -/
def out0_3 (x0 : Vec F S5000x128 .f32) (x1 : Vec F S128x128 .f32) (x2 : Vec F S5000x1 .f32) : Vec F S5000x128 .f32 :=
  View.canon [⟨r0_x, k0_pay1 (View.ld x0 r0_x) (View.ld x1 r0_w) (View.ld x2 r0_d)⟩]

/-- The one store covers the buffer. -/
theorem cover0_3 (p0 : Vec F S5000x128 .f32) (y : S5000x128.Idx) :
    ∃ pc ∈ ([⟨r0_x, p0⟩] : List (View.Piece (Elt F) S5000x128 .f32)), y ∈ pc.1.set :=
  View.cover_of_tiled [⟨r0_x, p0⟩] S5000x128.size (by rfl) y

set_option maxHeartbeats 1000000 in
/-- The body on whole staging memrefs, the inputs' at contents x0 x1 x2 and the output's at anything, runs to the
    continuation holding the inputs' as they were and the output's at out0_3 of the inputs'. -/
theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S5000x1 .f32) (harg3 : arg3.IsWhole) (arg4 : Memref sig .tc .vmem S5000x128 .f32) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_prescale_kernel i arg1 harg1 arg2 harg2 arg3 harg3 arg4 harg4) K := by
  simp only [cc0__linear_prescale_kernel_eq_skeleton]; unfold cc0__linear_prescale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core c: the arrays as the region finds them; after the body at point t each
    input's buffer at its block and the output's at out0_3 of the input blocks; the invariant holds only what no window
    stages; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Reg1.lean ====
/-
  Region 1 of @main: the previous layer is finished and the next one started in one kernel. One grid point handles 5000
  rows: it reads the point's 5000 x 128 block of the raw aggregate, the 1 x 128 bias row, the point's 5000 x 1 block of the
  degree normalisation and the whole 128 x 128 weight matrix, forms tanh (aggregate * normalisation + bias), multiplies by
  the weights and stores the product scaled row by row by the normalisation into the point's 5000 x 128 output block, whole.
  Stated at the contents V the region is entered from and at any float family: each window's block at a point, what the
  body leaves in the output's staging buffer as a function of the four input blocks, the body's triple, the pipeline's
  proof data and the body obligation at every point.
-/
import proofs.«400023_j55559696941219_2_alg».proof.Proof.Gen.Kernel.Launch
import proofs.«400023_j55559696941219_2_alg».proof.Proof.Gen.Kernel.Skeleton
import proofs.«400023_j55559696941219_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched its block index has not moved since the previous point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_x : Rect S5000x128 := Rect.unit (s := S5000x128) ![0, 0] S5000x128.size inb_S5000x128_S5000x128_0_0
abbrev r1_b : Rect S1x128 := Rect.unit (s := S1x128) ![0, 0] S1x128.size inb_S1x128_S1x128_0_0
abbrev r1_d : Rect S5000x1 := Rect.unit (s := S5000x1) ![0, 0] S5000x1.size inb_S5000x1_S5000x1_0_0
abbrev r1_w : Rect S128x128 := Rect.unit (s := S128x128) ![0, 0] S128x128.size inb_S128x128_S128x128_0_0

/-- The output's staging buffer after the body: its one store, of the whole block, of the payload of the loads (the
    normalisation block is loaded twice). -/
def out1_4 (x0 : Vec F S5000x128 .f32) (x1 : Vec F S1x128 .f32) (x2 : Vec F S5000x1 .f32) (x3 : Vec F S128x128 .f32) : Vec F S5000x128 .f32 :=
  View.canon [⟨r1_x, k1_pay1 (View.ld x0 r1_x) (View.ld x2 r1_d) (View.ld x1 r1_b) (View.ld x3 r1_w) (View.ld x2 r1_d)⟩]

/-- The one store covers the buffer. -/
theorem cover1_4 (p0 : Vec F S5000x128 .f32) (y : S5000x128.Idx) :
    ∃ pc ∈ ([⟨r1_x, p0⟩] : List (View.Piece (Elt F) S5000x128 .f32)), y ∈ pc.1.set :=
  View.cover_of_tiled [⟨r1_x, p0⟩] S5000x128.size (by rfl) y

set_option maxHeartbeats 1000000 in
/-- The body on whole staging memrefs, the inputs' at contents x0 .. x3 and the output's at anything, runs to the
    continuation holding the inputs' as they were and the output's at out1_4 of the inputs'. -/
theorem sound_kernel1 (c : Dev nD) (E : Set ℕ) (i : grid1.Coords) (arg1 : Memref sig .tc .vmem S5000x128 .f32) (harg1 : arg1.IsWhole) (arg2 : Memref sig .tc .vmem S1x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S5000x128 .f32) (harg5 : arg5.IsWhole)
    (x0 : Vec F S5000x128 .f32) (x1 : Vec F S1x128 .f32) (x2 : Vec F S5000x1 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__bias_act_linear_kernel i arg1 harg1 arg2 harg2 arg3 harg3 arg4 harg4 arg5 harg5) K := by
  simp only [cc1__bias_act_linear_kernel_eq_skeleton]; unfold cc1__bias_act_linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data of pipeline 1 on core c: the arrays as the region finds them; after the body at point t each
    input's buffer at its block and the output's at out1_4 of the input blocks; the invariant holds only what no window
    stages; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Reg2.lean ====
/-
  Region 2 of @main: again the previous layer is finished and the next one started in one kernel. One grid point handles 5000
  rows: it reads the point's 5000 x 128 block of the raw aggregate, the 1 x 128 bias row, the point's 5000 x 1 block of the
  degree normalisation and the whole 128 x 128 weight matrix, forms tanh (aggregate * normalisation + bias), multiplies by
  the weights and stores the product scaled row by row by the normalisation into the point's 5000 x 128 output block, whole.
  Stated at the contents V the region is entered from and at any float family: each window's block at a point, what the
  body leaves in the output's staging buffer as a function of the four input blocks, the body's triple, the pipeline's
  proof data and the body obligation at every point.
-/
import proofs.«400023_j55559696941219_2_alg».proof.Proof.Gen.Kernel.Launch
import proofs.«400023_j55559696941219_2_alg».proof.Proof.Gen.Kernel.Skeleton
import proofs.«400023_j55559696941219_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: where it is not
    fetched its block index has not moved since the previous point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_x : Rect S5000x128 := Rect.unit (s := S5000x128) ![0, 0] S5000x128.size inb_S5000x128_S5000x128_0_0
abbrev r2_b : Rect S1x128 := Rect.unit (s := S1x128) ![0, 0] S1x128.size inb_S1x128_S1x128_0_0
abbrev r2_d : Rect S5000x1 := Rect.unit (s := S5000x1) ![0, 0] S5000x1.size inb_S5000x1_S5000x1_0_0
abbrev r2_w : Rect S128x128 := Rect.unit (s := S128x128) ![0, 0] S128x128.size inb_S128x128_S128x128_0_0

/-- The output's staging buffer after the body: its one store, of the whole block, of the payload of the loads (the
    normalisation block is loaded twice). -/
def out2_4 (x0 : Vec F S5000x128 .f32) (x1 : Vec F S1x128 .f32) (x2 : Vec F S5000x1 .f32) (x3 : Vec F S128x128 .f32) : Vec F S5000x128 .f32 :=
  View.canon [⟨r2_x, k2_pay1 (View.ld x0 r2_x) (View.ld x2 r2_d) (View.ld x1 r2_b) (View.ld x3 r2_w) (View.ld x2 r2_d)⟩]

/-- The one store covers the buffer. -/
theorem cover2_4 (p0 : Vec F S5000x128 .f32) (y : S5000x128.Idx) :
    ∃ pc ∈ ([⟨r2_x, p0⟩] : List (View.Piece (Elt F) S5000x128 .f32)), y ∈ pc.1.set :=
  View.cover_of_tiled [⟨r2_x, p0⟩] S5000x128.size (by rfl) y

set_option maxHeartbeats 1000000 in
/-- The body on whole staging memrefs, the inputs' at contents x0 .. x3 and the output's at anything, runs to the
    continuation holding the inputs' as they were and the output's at out2_4 of the inputs'. -/
theorem sound_kernel2 (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S5000x128 .f32) (harg5 : arg5.IsWhole)
    (x0 : Vec F S5000x128 .f32) (x1 : Vec F S1x128 .f32) (x2 : Vec F S5000x1 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__bias_act_linear_kernel i arg1 harg1 arg2 harg2 arg3 harg3 arg4 harg4 arg5 harg5) K := by
  simp only [cc2__bias_act_linear_kernel_eq_skeleton]; unfold cc2__bias_act_linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The proof data of pipeline 2 on core c: the arrays as the region finds them; after the body at point t each
    input's buffer at its block and the output's at out2_4 of the input blocks; the invariant holds only what no window
    stages; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.Reg3Runs.lean ====
/-
  Region 3 of @main, the pooling and classification call, first half: the body on any memrefs. The grid has 50 points on
  one axis. The kernel keeps two scratch buffers between points: running sums (512 x 128) and running counts (1 x 512).
  At the first point both are stored with zeros; at every point each is loaded and stored back with the point's update;
  at the last point the output buffer (512 x 10) is stored with the classifier's payload of the two scratch contents and
  two constant blocks. Every load and store is of a whole buffer. Here: the two branch conditions in closed form over
  the grid, where the output window is idle and where it is written back, and the body's triple in each of the three
  control cases (first point, middle points, last point), each stated by what it leaves in the three buffers it stores.
-/
import proofs.«400023_j55559696941219_2_alg».proof.Proof.Gen.Kernel.Launch
import proofs.«400023_j55559696941219_2_alg».proof.Proof.Gen.Kernel.Skeleton
import proofs.«400023_j55559696941219_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first conditional's condition (the grid coordinate is 0), from the grid coordinates. -/
abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val = 0 :=
  (by decide +kernel : ∀ t : Fin grid3.N, cond3_0 (grid3.coords t) ↔ t.val = 0)

/-- The second conditional's condition (the grid coordinate is 49). -/
abbrev cond3_1 (i : grid3.Coords) : Prop := k3_cond2 i = 1#1
/-- It holds at the last point only. -/
theorem hcond3_1 : ∀ t : Fin cfg3.N, cond3_1 (grid3.coords t) ↔ t.val = 49 :=
  (by decide +kernel : ∀ t : Fin grid3.N, cond3_1 (grid3.coords t) ↔ t.val = 49)

/-- The output window is idle at every point but the last, -/
theorem idleAt3_6 : ∀ t : Fin cfg3.N, t.val ≠ 49 → cfg3.idle 6 (grid3.coords t) = true :=
  (by decide +kernel : ∀ t : Fin grid3.N, t.val ≠ 49 → cfg3.idle 6 (grid3.coords t) = true)
/-- is not written back there, -/
theorem noFlush3_6 : ∀ t : Fin cfg3.N, t.val ≠ 49 → (cfg3.win 6).flush t = false :=
  (by decide +kernel : ∀ t : Fin grid3.N, t.val ≠ 49 → (cfg3.win 6).flush t = false)
/-- and is live at the last. -/
theorem liveAt3_6 : ∀ t : Fin cfg3.N, t.val = 49 → cfg3.idle 6 (grid3.coords t) = false :=
  (by decide +kernel : ∀ t : Fin grid3.N, t.val = 49 → cfg3.idle 6 (grid3.coords t) = false)

/-- The zero offsets of the whole-buffer rectangles, spelt as a function. -/
theorem hz2 : (![0, 0] : Fin 2 → ℕ) = fun _ => 0 := by funext a; fin_cases a <;> rfl

/-- A load through the whole-shape rectangle at zero offsets reads the view's contents. -/
theorem readAt_whole {sp : Space} {S : Shape} {e : EltTy} (v : View sig .tc sp S e) (f : v.ty.Contents (Elt F))
    {off : Fin S.rank → ℕ} (h : off = fun _ => 0) (inb : ∀ a, off a + S.size a ≤ S.size a) :
    View.readAt (Elt F) v (Rect.unit off S.size inb).toLoadRect f = v.read (Elt F) f :=
  (View.readAt_eq_ld v f _).trans (View.ld_unit_zero h inb _)

/-- What any view reads after a LAST store through the whole-shape rectangle at zero offsets is that store's payload,
    whatever the earlier stores and the prior contents. -/
theorem read_writes_whole {sp : Space} {S : Shape} {e : EltTy} (v : View sig .tc sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.Mem.head _, View.mem_set_unit_zero h inb y⟩)).trans
    (View.canon_cons_unit_zero h inb w L)

set_option maxHeartbeats 1000000 in
/-- The body at the first point (first conditional taken, second not), on whole memrefs — the inputs' at contents
    x0 .. x5, the output's at xo, the two scratch buffers at anything —, runs to the continuation holding the inputs'
    and the output's as they were, the sums at the update of zeros and the counts at the update of zeros. -/
theorem sound_kernel3_A (c : Dev nD) (E : Set ℕ) (i : grid3.Coords) (arg1 : Memref sig .tc .vmem S1000x128 .f32) (harg1 : arg1.IsWhole) (arg2 : Memref sig .tc .vmem S1x128 .f32) (harg2 : arg2.IsWhole) (arg3 : Memref sig .tc .vmem S1000x1 .f32) (harg3 : arg3.IsWhole) (arg4 : Memref sig .tc .vmem S1000x1 .i32) (harg4 : arg4.IsWhole) (arg5 : Memref sig .tc .vmem S128x10 .f32) (harg5 : arg5.IsWhole) (arg6 : Memref sig .tc .vmem S1x10 .f32) (harg6 : arg6.IsWhole) (arg7 : Memref sig .tc .vmem S512x10 .f32) (harg7 : arg7.IsWhole) (arg8 : Memref sig .tc .vmem S512x128 .f32) (harg8 : arg8.IsWhole) (arg9 : Memref sig .tc .vmem S1x512 .f32) (harg9 : arg9.IsWhole) (hc0 : cond3_0 i) (hc1 : ¬cond3_1 i)
    (x0 : Vec F S1000x128 .f32) (x1 : Vec F S1x128 .f32) (x2 : Vec F S1000x1 .f32) (x3 : Vec F S1000x1 .i32) (x4 : Vec F S128x10 .f32) (x5 : Vec F S1x10 .f32) (xo : Vec F S512x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo ∗ owns (c : Thread nD τ) arg8 fullShare (k3_pay5 x0 x2 x1 x3 k3_pay2) ∗ owns (c : Thread nD τ) arg9 fullShare (k3_pay6 x3 k3_pay3)) -∗ K ⟨⟩))
      ⊢ wp frame (wpE (defs₀ (F := F)) Variants.none c none) E (cc3__pool_cls_kernel i arg1 harg1 arg2 harg2 arg3 harg3 arg4 harg4 arg5 harg5 arg6 harg6 arg7 harg7 arg8 harg8 arg9 harg9) K := by
  simp only [cc3__pool_cls_kernel_eq_skeleton]; unfold cc3__pool_cls_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    refine (read_writes_whole _ _ hz2 _ _ _).trans ?_
    have e0 := readAt_whole (F := F) arg1.view f0 hz2 inb_S1000x128_S1000x128_0_0
    have e1 := readAt_whole (F := F) arg2.view f1 hz2 inb_S1x128_S1x128_0_0
    have e2 := readAt_whole (F := F) arg3.view f2 hz2 inb_S1000x1_S1000x1_0_0
    have e3 := readAt_whole (F := F) arg4.view f3 hz2 inb_S1000x1_S1000x1_0_0
    rw [e0, e1, e2, e3, View.readCov_unit_zero _ hz2]
  · iexists _; isplitr
    swap; · iexact H8
    ipureintro
    sl_unfold_words
    refine (read_writes_whole _ _ hz2 _ _ _).trans ?_
    have e0 := readAt_whole (F := F) arg1.view f0 hz2 inb_S1000x128_S1000x128_0_0
    have e1 := readAt_whole (F := F) arg2.view f1 hz2 inb_S1x128_S1x128_0_0
    have e2 := readAt_whole (F := F) arg3.view f2 hz2 inb_S1000x1_S1000x1_0_0
    have e3 := readAt_whole (F := F) arg4.view f3 hz2 inb_S1000x1_S1000x1_0_0
    rw [e3, View.readCov_unit_zero _ hz2]

set_option maxHeartbeats 1000000 in
/-- The body at a middle point (neither conditional taken), the scratch buffers at sums s and counts k: the inputs'
    and the output's as they were, the sums and the counts updated. -/
theorem sound_kernel3_B (c : Dev nD) (E : Set ℕ) (i : grid3.Coords) (arg1 : Memref sig .tc .vmem S1000x128 .f32) (harg1 : arg1.IsWhole) (arg2 : Memref sig .tc .vmem S1x128 .f32) (harg2 : arg2.IsWhole) (arg3 : Memref sig .tc .vmem S1000x1 .f32) (harg3 : arg3.IsWhole) (arg4 : Memref sig .tc .vmem S1000x1 .i32) (harg4 : arg4.IsWhole) (arg5 : Memref sig .tc .vmem S128x10 .f32) (harg5 : arg5.IsWhole) (arg6 : Memref sig .tc .vmem S1x10 .f32) (harg6 : arg6.IsWhole) (arg7 : Memref sig .tc .vmem S512x10 .f32) (harg7 : arg7.IsWhole) (arg8 : Memref sig .tc .vmem S512x128 .f32) (harg8 : arg8.IsWhole) (arg9 : Memref sig .tc .vmem S1x512 .f32) (harg9 : arg9.IsWhole) (hc0 : ¬cond3_0 i) (hc1 : ¬cond3_1 i)
    (x0 : Vec F S1000x128 .f32) (x1 : Vec F S1x128 .f32) (x2 : Vec F S1000x1 .f32) (x3 : Vec F S1000x1 .i32) (x4 : Vec F S128x10 .f32) (x5 : Vec F S1x10 .f32) (xo : Vec F S512x10 .f32) (s : Vec F S512x128 .f32) (k : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo ∗ owns (c : Thread nD τ) arg8 fullShare s ∗ owns (c : Thread nD τ) arg9 fullShare k
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo ∗ owns (c : Thread nD τ) arg8 fullShare (k3_pay5 x0 x2 x1 x3 s) ∗ owns (c : Thread nD τ) arg9 fullShare (k3_pay6 x3 k)) -∗ K ⟨⟩))
      ⊢ wp frame (wpE (defs₀ (F := F)) Variants.none c none) E (cc3__pool_cls_kernel i arg1 harg1 arg2 harg2 arg3 harg3 arg4 harg4 arg5 harg5 arg6 harg6 arg7 harg7 arg8 harg8 arg9 harg9) K := by
  simp only [cc3__pool_cls_kernel_eq_skeleton]; unfold cc3__pool_cls_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    refine (read_writes_whole _ _ hz2 _ _ _).trans ?_
    have e0 := readAt_whole (F := F) arg1.view f0 hz2 inb_S1000x128_S1000x128_0_0
    have e1 := readAt_whole (F := F) arg2.view f1 hz2 inb_S1x128_S1x128_0_0
    have e2 := readAt_whole (F := F) arg3.view f2 hz2 inb_S1000x1_S1000x1_0_0
    have e3 := readAt_whole (F := F) arg4.view f3 hz2 inb_S1000x1_S1000x1_0_0
    rw [e0, e1, e2, e3, readAt_whole (F := F) arg8.view f7 hz2 inb_S512x128_S512x128_0_0]
  · iexists _; isplitr
    swap; · iexact H8
    ipureintro
    sl_unfold_words
    refine (read_writes_whole _ _ hz2 _ _ _).trans ?_
    have e0 := readAt_whole (F := F) arg1.view f0 hz2 inb_S1000x128_S1000x128_0_0
    have e1 := readAt_whole (F := F) arg2.view f1 hz2 inb_S1x128_S1x128_0_0
    have e2 := readAt_whole (F := F) arg3.view f2 hz2 inb_S1000x1_S1000x1_0_0
    have e3 := readAt_whole (F := F) arg4.view f3 hz2 inb_S1000x1_S1000x1_0_0
    rw [e3, readAt_whole (F := F) arg9.view f8 hz2 inb_S1x512_S1x512_0_0]

set_option maxHeartbeats 1000000 in
/-- The body at the last point (second conditional taken, first not), the scratch buffers at sums s and counts k,
    the output's buffer at anything: the inputs' as they were, the sums and the counts updated, and the output's buffer
    at the classifier's payload of the updated counts, the updated sums and the two constant blocks. -/
theorem sound_kernel3_C (c : Dev nD) (E : Set ℕ) (i : grid3.Coords) (arg1 : Memref sig .tc .vmem S1000x128 .f32) (harg1 : arg1.IsWhole) (arg2 : Memref sig .tc .vmem S1x128 .f32) (harg2 : arg2.IsWhole) (arg3 : Memref sig .tc .vmem S1000x1 .f32) (harg3 : arg3.IsWhole) (arg4 : Memref sig .tc .vmem S1000x1 .i32) (harg4 : arg4.IsWhole) (arg5 : Memref sig .tc .vmem S128x10 .f32) (harg5 : arg5.IsWhole) (arg6 : Memref sig .tc .vmem S1x10 .f32) (harg6 : arg6.IsWhole) (arg7 : Memref sig .tc .vmem S512x10 .f32) (harg7 : arg7.IsWhole) (arg8 : Memref sig .tc .vmem S512x128 .f32) (harg8 : arg8.IsWhole) (arg9 : Memref sig .tc .vmem S1x512 .f32) (harg9 : arg9.IsWhole) (hc0 : ¬cond3_0 i) (hc1 : cond3_1 i)
    (x0 : Vec F S1000x128 .f32) (x1 : Vec F S1x128 .f32) (x2 : Vec F S1000x1 .f32) (x3 : Vec F S1000x1 .i32) (x4 : Vec F S128x10 .f32) (x5 : Vec F S1x10 .f32) (s : Vec F S512x128 .f32) (k : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare s ∗ owns (c : Thread nD τ) arg9 fullShare k
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k3_pay1 (k3_pay6 x3 k) (k3_pay5 x0 x2 x1 x3 s) x4 x5) ∗ owns (c : Thread nD τ) arg8 fullShare (k3_pay5 x0 x2 x1 x3 s) ∗ owns (c : Thread nD τ) arg9 fullShare (k3_pay6 x3 k)) -∗ K ⟨⟩))
      ⊢ wp frame (wpE (defs₀ (F := F)) Variants.none c none) E (cc3__pool_cls_kernel i arg1 harg1 arg2 harg2 arg3 harg3 arg4 harg4 arg5 harg5 arg6 harg6 arg7 harg7 arg8 harg8 arg9 harg9) K := by
  simp only [cc3__pool_cls_kernel_eq_skeleton]; unfold cc3__pool_cls_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  subst hf0 hf1 hf2 hf3 hf4 hf5 hf7 hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    refine (read_writes_whole _ _ hz2 _ _ _).trans ?_
    have e0 := readAt_whole (F := F) arg1.view f0 hz2 inb_S1000x128_S1000x128_0_0
    have e1 := readAt_whole (F := F) arg2.view f1 hz2 inb_S1x128_S1x128_0_0
    have e2 := readAt_whole (F := F) arg3.view f2 hz2 inb_S1000x1_S1000x1_0_0
    have e3 := readAt_whole (F := F) arg4.view f3 hz2 inb_S1000x1_S1000x1_0_0
    rw [View.readCov_unit_zero _ hz2, View.readCov_unit_zero _ hz2, e0, e1, e2, e3,
      readAt_whole (F := F) arg5.view f4 hz2 inb_S128x10_S128x10_0_0, readAt_whole (F := F) arg6.view f5 hz2 inb_S1x10_S1x10_0_0,
      readAt_whole (F := F) arg8.view f7 hz2 inb_S512x128_S512x128_0_0, readAt_whole (F := F) arg9.view f8 hz2 inb_S1x512_S1x512_0_0]
  isplitl [H7]
  · iexists _; isplitr
    swap; · iexact H7
    ipureintro
    sl_unfold_words
    refine (read_writes_whole _ _ hz2 _ _ _).trans ?_
    have e0 := readAt_whole (F := F) arg1.view f0 hz2 inb_S1000x128_S1000x128_0_0
    have e1 := readAt_whole (F := F) arg2.view f1 hz2 inb_S1x128_S1x128_0_0
    have e2 := readAt_whole (F := F) arg3.view f2 hz2 inb_S1000x1_S1000x1_0_0
    have e3 := readAt_whole (F := F) arg4.view f3 hz2 inb_S1000x1_S1000x1_0_0
    rw [e0, e1, e2, e3, readAt_whole (F := F) arg8.view f7 hz2 inb_S512x128_S512x128_0_0]
  · iexists _; isplitr
    swap; · iexact H8
    ipureintro
    sl_unfold_words
    refine (read_writes_whole _ _ hz2 _ _ _).trans ?_
    have e0 := readAt_whole (F := F) arg1.view f0 hz2 inb_S1000x128_S1000x128_0_0
    have e1 := readAt_whole (F := F) arg2.view f1 hz2 inb_S1x128_S1x128_0_0
    have e2 := readAt_whole (F := F) arg3.view f2 hz2 inb_S1000x1_S1000x1_0_0
    have e3 := readAt_whole (F := F) arg4.view f3 hz2 inb_S1000x1_S1000x1_0_0
    rw [e3, readAt_whole (F := F) arg9.view f8 hz2 inb_S1x512_S1x512_0_0]

end Cert.Kernel.Fr

end
-- ==== Proof.K.Reg3.lean ====
/-
  Region 3 of @main, the pooling and classification call, second half: the pipeline's proof data and the body obligation.
  Stated at the contents V the region is entered from and at any float family. The two scratch buffers (running sums,
  running counts) are carried between the 50 grid points by the invariant: before the first point they are anything;
  after point n they hold the n-fold update of zeros by the blocks of points 0 .. n. The output window's block index is
  constant, the window is idle at every point but the last, where the body stores into it the classifier's payload of
  the final sums and counts and the pipeline writes it back.
-/
import proofs.«400023_j55559696941219_2_alg».proof.Proof.K.Reg3Runs
import proofs.«400023_j55559696941219_2_alg».proof.Proof.Gen.Kernel.Launch
import proofs.«400023_j55559696941219_2_alg».proof.Proof.Gen.Kernel.Skeleton
import proofs.«400023_j55559696941219_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not: where it is not
    fetched its block index has not moved since the previous point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Window 0's block at point t at its literal type: the aggregated features' block (1000 x 128). -/
abbrev agg3 (c : Dev nD) (t : Fin cfg3.N) : Vec F S1000x128 .f32 := iblk3 V c 0 t
/-- Window 1's block at point t at its literal type: the bias row (1 x 128). -/
abbrev bias3 (c : Dev nD) (t : Fin cfg3.N) : Vec F S1x128 .f32 := iblk3 V c 1 t
/-- Window 2's block at point t at its literal type: the degree normalisation's block (1000 x 1). -/
abbrev dis3 (c : Dev nD) (t : Fin cfg3.N) : Vec F S1000x1 .f32 := iblk3 V c 2 t
/-- Window 3's block at point t at its literal type: the graph ids' block (1000 x 1, integers). -/
abbrev ids3 (c : Dev nD) (t : Fin cfg3.N) : Vec F S1000x1 .i32 := iblk3 V c 3 t
/-- Window 4's block at point t at its literal type: the classifier's weights (128 x 10). -/
abbrev wout3 (c : Dev nD) (t : Fin cfg3.N) : Vec F S128x10 .f32 := iblk3 V c 4 t
/-- Window 5's block at point t at its literal type: the classifier's bias (1 x 10). -/
abbrev bout3 (c : Dev nD) (t : Fin cfg3.N) : Vec F S1x10 .f32 := iblk3 V c 5 t

/-- The scratch operands: whole scoped buffers of the kernel's own, passed beside the windows. -/
abbrev scM3_0 : Memref sig .tc .vmem S512x128 .f32 := Memref.whole cc3_scratch0
abbrev scM3_1 : Memref sig .tc .vmem S1x512 .f32 := Memref.whole cc3_scratch1

/-! ## What the scratch buffers and the output's buffer hold after each point -/

/-- The running sums and the running counts after point n: at the first point the update of zeros, afterwards the
    update of what the point before left. -/
def scrAt3 (c : Dev nD) : (n : ℕ) → n < cfg3.N → Vec F S512x128 .f32 × Vec F S1x512 .f32
  | 0, hn => (k3_pay5 (agg3 V c ⟨0, hn⟩) (dis3 V c ⟨0, hn⟩) (bias3 V c ⟨0, hn⟩) (ids3 V c ⟨0, hn⟩) k3_pay2,
      k3_pay6 (ids3 V c ⟨0, hn⟩) k3_pay3)
  | n + 1, hn => (k3_pay5 (agg3 V c ⟨n + 1, hn⟩) (dis3 V c ⟨n + 1, hn⟩) (bias3 V c ⟨n + 1, hn⟩) (ids3 V c ⟨n + 1, hn⟩) (scrAt3 c n (Nat.lt_of_succ_lt hn)).1,
      k3_pay6 (ids3 V c ⟨n + 1, hn⟩) (scrAt3 c n (Nat.lt_of_succ_lt hn)).2)

/-- After point n: what the last point's store puts in the output's staging buffer when computed from this point's
    sums and counts (at the last point, what the buffer holds; at the other points the window is idle, not written back
    and read by nothing, and the component is not consulted), the sums, the counts. -/
def outsAt3 (c : Dev nD) (n : ℕ) (hn : n < cfg3.N) : Vec F S512x10 .f32 × Vec F S512x128 .f32 × Vec F S1x512 .f32 :=
  (k3_pay1 (scrAt3 V c n hn).2 (scrAt3 V c n hn).1 (wout3 V c ⟨n, hn⟩) (bout3 V c ⟨n, hn⟩), (scrAt3 V c n hn).1, (scrAt3 V c n hn).2)

theorem outsAt3_sums (c : Dev nD) (n : ℕ) (hn : n < cfg3.N) : (outsAt3 V c n hn).2.1 = (scrAt3 V c n hn).1 := rfl
theorem outsAt3_counts (c : Dev nD) (n : ℕ) (hn : n < cfg3.N) : (outsAt3 V c n hn).2.2 = (scrAt3 V c n hn).2 := rfl
theorem outsAt3_out (c : Dev nD) (n : ℕ) (hn : n < cfg3.N) :
    (outsAt3 V c n hn).1 = k3_pay1 (outsAt3 V c n hn).2.2 (outsAt3 V c n hn).2.1 (wout3 V c ⟨n, hn⟩) (bout3 V c ⟨n, hn⟩) := rfl

/-- The sums and counts at the first point: the update of zeros. -/
theorem scrAt3_zero (c : Dev nD) (t : Fin cfg3.N) (h : t.val = 0) :
    scrAt3 V c t.val t.isLt = (k3_pay5 (agg3 V c t) (dis3 V c t) (bias3 V c t) (ids3 V c t) k3_pay2, k3_pay6 (ids3 V c t) k3_pay3) := by
  obtain ⟨n, hn⟩ := t
  cases n with
  | zero => rfl
  | succ n => exact absurd h (Nat.succ_ne_zero n)

/-- The sums and counts at a later point: the update of what the point before left. -/
theorem scrAt3_pos (c : Dev nD) (t : Fin cfg3.N) (h : 0 < t.val) :
    scrAt3 V c t.val t.isLt = (k3_pay5 (agg3 V c t) (dis3 V c t) (bias3 V c t) (ids3 V c t) (scrAt3 V c (t.val - 1) (Nat.lt_of_le_of_lt (Nat.sub_le _ _) t.isLt)).1,
      k3_pay6 (ids3 V c t) (scrAt3 V c (t.val - 1) (Nat.lt_of_le_of_lt (Nat.sub_le _ _) t.isLt)).2) := by
  obtain ⟨n, hn⟩ := t
  cases n with
  | zero => exact absurd h (Nat.lt_irrefl 0)
  | succ n => rfl

/-- outsAt3 at the first point: the sums and the counts are the update of zeros. -/
theorem outsAt3_A (c : Dev nD) (t : Fin cfg3.N) (h : t.val = 0) :
    outsAt3 V c t.val t.isLt
      = (k3_pay1 (k3_pay6 (ids3 V c t) k3_pay3) (k3_pay5 (agg3 V c t) (dis3 V c t) (bias3 V c t) (ids3 V c t) k3_pay2) (wout3 V c t) (bout3 V c t),
         k3_pay5 (agg3 V c t) (dis3 V c t) (bias3 V c t) (ids3 V c t) k3_pay2, k3_pay6 (ids3 V c t) k3_pay3) := by
  unfold outsAt3; rw [scrAt3_zero V c t h]

/-- outsAt3 at a later point: the sums and the counts are the update of the previous point's; the first component is
    the classifier's payload of them (what the output's buffer holds when the point is the last). -/
theorem outsAt3_pos (c : Dev nD) (t : Fin cfg3.N) (h : 0 < t.val) :
    outsAt3 V c t.val t.isLt
      = (k3_pay1 (k3_pay6 (ids3 V c t) (outsAt3 V c (t.val - 1) (Nat.lt_of_le_of_lt (Nat.sub_le _ _) t.isLt)).2.2)
            (k3_pay5 (agg3 V c t) (dis3 V c t) (bias3 V c t) (ids3 V c t) (outsAt3 V c (t.val - 1) (Nat.lt_of_le_of_lt (Nat.sub_le _ _) t.isLt)).2.1) (wout3 V c t) (bout3 V c t),
         k3_pay5 (agg3 V c t) (dis3 V c t) (bias3 V c t) (ids3 V c t) (outsAt3 V c (t.val - 1) (Nat.lt_of_le_of_lt (Nat.sub_le _ _) t.isLt)).2.1,
         k3_pay6 (ids3 V c t) (outsAt3 V c (t.val - 1) (Nat.lt_of_le_of_lt (Nat.sub_le _ _) t.isLt)).2.2) := by
  unfold outsAt3; rw [scrAt3_pos V c t h]

/-- outsAt3 at a middle point. -/
theorem outsAt3_B (c : Dev nD) (t : Fin cfg3.N) (h0 : 0 < t.val) (h1 : t.val < 49) :
    outsAt3 V c t.val t.isLt
      = (k3_pay1 (k3_pay6 (ids3 V c t) (outsAt3 V c (t.val - 1) (Nat.lt_of_le_of_lt (Nat.sub_le _ _) t.isLt)).2.2)
            (k3_pay5 (agg3 V c t) (dis3 V c t) (bias3 V c t) (ids3 V c t) (outsAt3 V c (t.val - 1) (Nat.lt_of_le_of_lt (Nat.sub_le _ _) t.isLt)).2.1) (wout3 V c t) (bout3 V c t),
         k3_pay5 (agg3 V c t) (dis3 V c t) (bias3 V c t) (ids3 V c t) (outsAt3 V c (t.val - 1) (Nat.lt_of_le_of_lt (Nat.sub_le _ _) t.isLt)).2.1,
         k3_pay6 (ids3 V c t) (outsAt3 V c (t.val - 1) (Nat.lt_of_le_of_lt (Nat.sub_le _ _) t.isLt)).2.2) :=
  outsAt3_pos V c t h0

/-- outsAt3 at the last point: the output's buffer holds the classifier's payload of the updated counts, the updated
    sums and the two constant blocks. -/
theorem outsAt3_C (c : Dev nD) (t : Fin cfg3.N) (h : t.val = 49) :
    outsAt3 V c t.val t.isLt
      = (k3_pay1 (k3_pay6 (ids3 V c t) (outsAt3 V c (t.val - 1) (Nat.lt_of_le_of_lt (Nat.sub_le _ _) t.isLt)).2.2)
            (k3_pay5 (agg3 V c t) (dis3 V c t) (bias3 V c t) (ids3 V c t) (outsAt3 V c (t.val - 1) (Nat.lt_of_le_of_lt (Nat.sub_le _ _) t.isLt)).2.1) (wout3 V c t) (bout3 V c t),
         k3_pay5 (agg3 V c t) (dis3 V c t) (bias3 V c t) (ids3 V c t) (outsAt3 V c (t.val - 1) (Nat.lt_of_le_of_lt (Nat.sub_le _ _) t.isLt)).2.1,
         k3_pay6 (ids3 V c t) (outsAt3 V c (t.val - 1) (Nat.lt_of_le_of_lt (Nat.sub_le _ _) t.isLt)).2.2) :=
  outsAt3_pos V c t (by omega)

/-! ## The invariant: the scratch buffers carried between points -/

/-- What the launch hands the region with the two scratch operands taken out of the scoped rest, as memrefs owned at
    some contents; the remainder of the scoped rest is carried unopened. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1])
          ∗ (∃ r, prngReg c r)) := by
  unfold Pipeline.ΦA; rw [scopedRest3_split]; simp only [scM3_0, scM3_1, owns_whole]; try rfl

/-- The region invariant before position n: before the first point what the launch hands over (every scratch at
    anything); afterwards the two scratch buffers at what the point before left in them, the rest of the scoped rest
    unopened, and the generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2.1) ∗ owns (c : Thread nD τ) scM3_1 fullShare ((outsAt3 V c n hn).2.2))
          ∗ Pipeline.scopedRestBut (Ix := Unit) (Name := ℕ) (U := UR sig nD τ) (Lvl := ℕ) (Val := Elt F) spec3 c [cc3_scratch0, cc3_scratch1])
          ∗ (∃ r, prngReg c r))

theorem PhiS3_zero (c : Dev nD) (n : ℕ) (h : n ≤ cfg3.N) (hz : n = 0) : PhiS3 V c n h = Pipeline.ΦA spec3 c := by
  subst hz; rfl

/-- After point n (before point n + 1): the scratch buffers at that point's contents. -/
theorem PhiS3_succ (c : Dev nD) (n : ℕ) (hn : n < cfg3.N) :
    PhiS3 V c (n + 1) hn = iprop(iprop(iprop(owns (c : Thread nD τ) scM3_0 fullShare ((outsAt3 V c n hn).2.1) ∗ owns (c : Thread nD τ) scM3_1 fullShare ((outsAt3 V c n hn).2.2))
          ∗ Pipeline.scopedRestBut (Ix := Unit) (Name := ℕ) (U := UR sig nD τ) (Lvl := ℕ) (Val := Elt F) spec3 c [cc3_scratch0, cc3_scratch1])
          ∗ (∃ r, prngReg c r)) := rfl

/-- Before a point that is not the first: the scratch buffers at what the point before left. -/
theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2.1) ∗ owns (c : Thread nD τ) scM3_1 fullShare ((outsAt3 V c (n - 1) (by omega)).2.2))
          ∗ Pipeline.scopedRestBut (Ix := Unit) (Name := ℕ) (U := UR sig nD τ) (Lvl := ℕ) (Val := Elt F) spec3 c [cc3_scratch0, cc3_scratch1])
          ∗ (∃ r, prngReg c r)) := by
  cases n with
  | zero => exact absurd rfl hz
  | succ n => rfl

/-! ## The pipeline's proof data -/

/-- The proof data of pipeline 3 on core c: the arrays as the region finds them; after the body at point t each
    input's buffer at its block and the output's at outsAt3's first component; the invariant carries the two scratch
    buffers at outsAt3's other components; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

/-- The invariant at a point's start, restated at t.val. -/
theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-- The input windows are never idle. -/
theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
theorem liveAt3_4 : ∀ t : Fin cfg3.N, cfg3.idle 4 (grid3.coords t) = false := fun _ => rfl
theorem liveAt3_5 : ∀ t : Fin cfg3.N, cfg3.idle 5 (grid3.coords t) = false := fun _ => rfl

/-! ## The body obligation, at a generic point -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

set_option maxHeartbeats 4800000 in
/-- The body at any point: the inputs' memrefs hold their blocks; the point's position says which control case it is
    in; the invariant hands the body the two scratch buffers at what the point before left (at anything at the first
    point) and takes them back at this point's contents; at every point but the last the output's buffer is handed back
    as found; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  rw [show (dat3 V c).leavesExact 3 t = owns (c : Thread nD τ) (st3_3 t) fullShare ((dat3 V c).after 3 t) from by
    unfold Dat.leavesExact; rw [liveAt3_3 t], after3_3]
  rw [show (dat3 V c).leavesExact 4 t = owns (c : Thread nD τ) (st3_4 t) fullShare ((dat3 V c).after 4 t) from by
    unfold Dat.leavesExact; rw [liveAt3_4 t], after3_4]
  rw [show (dat3 V c).leavesExact 5 t = owns (c : Thread nD τ) (st3_5 t) fullShare ((dat3 V c).after 5 t) from by
    unfold Dat.leavesExact; rw [liveAt3_5 t], after3_5]
  have hN : t.val < 50 := lt_of_lt_of_eq t.isLt (show cfg3.N = 50 from N_3)
  by_cases h0 : t.val = 0
  · have h1 : t.val ≠ 49 := by omega
    rw [Dat.leavesExact_idle (dat3 V c) 6 t (idleAt3_6 t h1) (noFlush3_6 t h1)]
    rw [outsAt3_A V c t h0]; dsimp only
    rw [PhiS3_castSucc V c t, PhiS3_zero V c _ _ h0, PhiA3_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel3_A c Set.univ (grid3.coords t) _ _ _ _ _ _ _ _ _ _ _ _ _ _ _ _ _ _ ((hcond3_0 t).mpr h0) (fun h => h1 ((hcond3_1 t).mp h))
      (agg3 V c t) (bias3 V c t) (dis3 V c t) (ids3 V c t) (wout3 V c t) (bout3 V c t) ((dat3 V c).before 6 t d6) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hpos : 0 < t.val := Nat.pos_of_ne_zero h0
    by_cases h1 : t.val = 49
    · rw [show (dat3 V c).leavesExact 6 t = owns (c : Thread nD τ) (st3_6 t) fullShare ((dat3 V c).after 6 t) from by
        unfold Dat.leavesExact; rw [liveAt3_6 t h1], after3_6]
      rw [outsAt3_C V c t h1]; dsimp only
      rw [PhiS3_castSucc V c t, PhiS3_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel3_C c Set.univ (grid3.coords t) _ _ _ _ _ _ _ _ _ _ _ _ _ _ _ _ _ _ (fun h => h0 ((hcond3_0 t).mp h)) ((hcond3_1 t).mpr h1)
        (agg3 V c t) (bias3 V c t) (dis3 V c t) (ids3 V c t) (wout3 V c t) (bout3 V c t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, H6, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have h1' : t.val < 49 := by omega
      rw [Dat.leavesExact_idle (dat3 V c) 6 t (idleAt3_6 t h1) (noFlush3_6 t h1)]
      rw [outsAt3_B V c t hpos h1']; dsimp only
      rw [PhiS3_castSucc V c t, PhiS3_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel3_B c Set.univ (grid3.coords t) _ _ _ _ _ _ _ _ _ _ _ _ _ _ _ _ _ _ (fun h => h0 ((hcond3_0 t).mp h)) (fun h => h1 ((hcond3_1 t).mp h))
        (agg3 V c t) (bias3 V c t) (dis3 V c t) (ids3 V c t) (wout3 V c t) (bout3 V c t) ((dat3 V c).before 6 t d6) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives back what the launch handed over: the scratch buffers' named
    contents are forgotten. -/
theorem Phi3_out (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout3 (c : Dev nD) : (dat3 V c).Φ (Fin.last cfg3.N) ⊢ Pipeline.ΦA spec3 c :=
  Phi3_out V c _ (by rw [Fin.val_last]; have : cfg3.N = 50 := N_3; omega)

end Cert.Kernel.Fr

end
-- ==== Proof.K.Run.lean ====
/-
  The run of @main: ten segments, six stretches of host operations and four kernel regions. The buffer contents at every
  segment boundary are a fold from the launch memory: a host stretch applies its operations, a region leaves its
  arrays at what its write-backs leave and every other buffer as entered. Over the thread state "every unscoped buffer at
  the boundary's contents, the generator register at some state, nothing owed" each stretch is a host segment and each
  region a region segment built from its body obligation; the launch then gives: every weakly fair execution terminates
  with every unscoped buffer at the last boundary's contents. No host operation and no region writes an argument array,
  so each argument ends as launched; the result array ends at what region 3's write-back leaves.
-/
import proofs.«400023_j55559696941219_2_alg».proof.Proof.Gen.Kernel.Regions
import proofs.«400023_j55559696941219_2_alg».proof.Proof.K.Reg0
import proofs.«400023_j55559696941219_2_alg».proof.Proof.K.Reg1
import proofs.«400023_j55559696941219_2_alg».proof.Proof.K.Reg2
import proofs.«400023_j55559696941219_2_alg».proof.Proof.K.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
/-- After the first three host stretches: region 0's entry. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b

/-- At region 0's exit: its arrays at what the pipeline leaves (the inputs as entered, the output's write-backs
    folded), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the stretch between regions 0 and 1: region 1's entry. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b

/-- At region 1's exit: its arrays at what the pipeline leaves (the inputs as entered, the output's write-backs
    folded), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After the stretch between regions 1 and 2: region 2's entry. -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b

/-- At region 2's exit: its arrays at what the pipeline leaves (the inputs as entered, the output's write-backs
    folded), every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-- After the stretch between regions 2 and 3: region 3's entry. -/
abbrev W9 : Dev nD → Valuation τ sig (Elt F) := fun c => StableHlo.after hostOps3 (W8 m ρ c)
abbrev V9 : (c : Dev nD) → (b : Ref sig .tc) → Buf (Elt F) ((c : Thread nD τ).loc b) := fun c b => W9 m ρ c b

/-- At region 3's exit: its arrays at what the pipeline leaves (the inputs as entered, the output's write-backs
    folded), every other buffer as entered. -/
def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
abbrev V10 : (c : Dev nD) → (b : Ref sig .tc) → Buf (Elt F) ((c : Thread nD τ).loc b) := fun c b => W10 m ρ c b
theorem hF3 (c : Dev nD) (w : Fin cfg3.W) : (dat3 (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of_ne m ρ c b fun w e => hb (Finset.mem_image.mpr ⟨w, Finset.mem_univ _, e⟩)

/-! ## No segment writes an argument array -/

/-- Region 0 changes no buffer but its output's array: an input window's array is left as entered, any other
    buffer is not touched. -/
theorem W4_keep (c : Dev nD) (b : Ref sig .tc) (hb : b ≠ main_v18) :
    W4 m ρ c (Proc.devRef .tc b) = W3 m ρ c (Proc.devRef .tc b) := by
  by_cases h : ∃ w, Pipeline.arrRef spec0 w = b
  · obtain ⟨w, rfl⟩ := h
    have hw : (cfg0.win w).isOut = false :=
      (by decide : ∀ w : Fin cfg0.W, Pipeline.arrRef spec0 w ≠ main_v18 → (cfg0.win w).isOut = false) w hb
    exact (W4_arr m ρ c w).trans (((dat0 (V3 m ρ) c).arrAt_in w hw _).trans (A_eq0 (V3 m ρ) c w))
  · exact W4_of_ne m ρ c b (fun w e => h ⟨w, e⟩)

/-- Region 1 changes no buffer but its output's array: an input window's array is left as entered, any other
    buffer is not touched. -/
theorem W6_keep (c : Dev nD) (b : Ref sig .tc) (hb : b ≠ main_v30) :
    W6 m ρ c (Proc.devRef .tc b) = W5 m ρ c (Proc.devRef .tc b) := by
  by_cases h : ∃ w, Pipeline.arrRef spec1 w = b
  · obtain ⟨w, rfl⟩ := h
    have hw : (cfg1.win w).isOut = false :=
      (by decide : ∀ w : Fin cfg1.W, Pipeline.arrRef spec1 w ≠ main_v30 → (cfg1.win w).isOut = false) w hb
    exact (W6_arr m ρ c w).trans (((dat1 (V5 m ρ) c).arrAt_in w hw _).trans (A_eq1 (V5 m ρ) c w))
  · exact W6_of_ne m ρ c b (fun w e => h ⟨w, e⟩)

/-- Region 2 changes no buffer but its output's array: an input window's array is left as entered, any other
    buffer is not touched. -/
theorem W8_keep (c : Dev nD) (b : Ref sig .tc) (hb : b ≠ main_v42) :
    W8 m ρ c (Proc.devRef .tc b) = W7 m ρ c (Proc.devRef .tc b) := by
  by_cases h : ∃ w, Pipeline.arrRef spec2 w = b
  · obtain ⟨w, rfl⟩ := h
    have hw : (cfg2.win w).isOut = false :=
      (by decide : ∀ w : Fin cfg2.W, Pipeline.arrRef spec2 w ≠ main_v42 → (cfg2.win w).isOut = false) w hb
    exact (W8_arr m ρ c w).trans (((dat2 (V7 m ρ) c).arrAt_in w hw _).trans (A_eq2 (V7 m ρ) c w))
  · exact W8_of_ne m ρ c b (fun w e => h ⟨w, e⟩)

/-- Region 3 changes no buffer but its output's array: an input window's array is left as entered, any other
    buffer is not touched. -/
theorem W10_keepR (c : Dev nD) (b : Ref sig .tc) (hb : b ≠ main_v56) :
    W10 m ρ c (Proc.devRef .tc b) = W9 m ρ c (Proc.devRef .tc b) := by
  by_cases h : ∃ w, Pipeline.arrRef spec3 w = b
  · obtain ⟨w, rfl⟩ := h
    have hw : (cfg3.win w).isOut = false :=
      (by decide : ∀ w : Fin cfg3.W, Pipeline.arrRef spec3 w ≠ main_v56 → (cfg3.win w).isOut = false) w hb
    exact (W10_arr m ρ c w).trans (((dat3 (V9 m ρ) c).arrAt_in w hw _).trans (A_eq3 (V9 m ρ) c w))
  · exact W10_of_ne m ρ c b (fun w e => h ⟨w, e⟩)

/-- A buffer that no host stretch writes and that is no region's output ends as launched. -/
theorem W10_keep (c : Dev nD) (b : Ref sig .tc) (h0 : b ∉ hostOps0_W) (h01 : b ∉ hostOps0_1_W) (h02 : b ∉ hostOps0_2_W)
    (h1 : b ∉ hostOps1_W) (h2 : b ∉ hostOps2_W) (h3 : b ∉ hostOps3_W)
    (ho : b ∉ ([main_v18, main_v30, main_v42, main_v56] : List (Ref sig .tc))) :
    W10 m ρ c (Proc.devRef .tc b) = m ((c : Thread nD τ).loc b) := by
  have e18 : b ≠ main_v18 := fun e => ho (by rw [e]; decide)
  have e30 : b ≠ main_v30 := fun e => ho (by rw [e]; decide)
  have e42 : b ≠ main_v42 := fun e => ho (by rw [e]; decide)
  have e56 : b ≠ main_v56 := fun e => ho (by rw [e]; decide)
  calc W10 m ρ c (Proc.devRef .tc b)
    _ = W9 m ρ c (Proc.devRef .tc b) := W10_keepR m ρ c b e56
    _ = W8 m ρ c (Proc.devRef .tc b) := StableHlo.after_of_writes_sub hostOps3 _ hostOps3_writes h3
    _ = W7 m ρ c (Proc.devRef .tc b) := W8_keep m ρ c b e42
    _ = W6 m ρ c (Proc.devRef .tc b) := StableHlo.after_of_writes_sub hostOps2 _ hostOps2_writes h2
    _ = W5 m ρ c (Proc.devRef .tc b) := W6_keep m ρ c b e30
    _ = W4 m ρ c (Proc.devRef .tc b) := StableHlo.after_of_writes_sub hostOps1 _ hostOps1_writes h1
    _ = W3 m ρ c (Proc.devRef .tc b) := W4_keep m ρ c b e18
    _ = W2 m ρ c (Proc.devRef .tc b) := StableHlo.after_of_writes_sub hostOps0_2 _ hostOps0_2_writes h02
    _ = W1 m ρ c (Proc.devRef .tc b) := StableHlo.after_of_writes_sub hostOps0_1 _ hostOps0_1_writes h01
    _ = W0 m ρ c (Proc.devRef .tc b) := StableHlo.after_of_writes_sub hostOps0 _ hostOps0_writes h0
    _ = m ((c : Thread nD τ).loc b) := rfl

/-- The result array ends at what region 3's write-back leaves. -/
theorem W10_out (c : Dev nD) : W10 m ρ c (Proc.devRef .tc main_v56) = (dat3 (V9 m ρ) c).arrAt 6 cfg3.N :=
  W10_arr m ρ c 6

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- Region 0 over the thread state: entered from every unscoped buffer at W3, left at W4. Its arrays are split
    out of the unscoped buffers and put back at the exit contents; the generator register goes into the invariant and
    comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W5, left at W6. Its arrays are split
    out of the unscoped buffers and put back at the exit contents; the generator register goes into the invariant and
    comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W7, left at W8. Its arrays are split
    out of the unscoped buffers and put back at the exit contents; the generator register goes into the invariant and
    comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at W9, left at W10. Its arrays are split
    out of the unscoped buffers and put back at the exit contents; the generator register goes into the invariant and
    comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V9 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec3 c).trans (hin3 (V9 m ρ) c)
    unfold Pipeline.ΦA
    iintro ⟨Hp, -, Hr⟩
    isplitl [Hr]; · iexact Hr
    iexact Hp
  hout c := by
    rw [Pipeline.ownSems0_none]
    refine (hout3 (V9 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V9 m ρ c) (V10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ) ]
/-- @main is the run of the segments. -/
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-- Read at a buffer that nothing writes: it ends as launched. -/
theorem run_keep {r : MemSt nD τ sig (Elt F)} (h : ∀ c : Dev nD, ∀ b ∈ Pipeline.ucRefs τ sig, r.mem (((c : Thread nD τ)).1, b) = W10 m ρ c b) (c : Dev nD) (b : Ref sig .tc)
    (hs : ¬ (Proc.devRef .tc b : DevRef τ sig).isScoped) (h0 : b ∉ hostOps0_W) (h01 : b ∉ hostOps0_1_W) (h02 : b ∉ hostOps0_2_W)
    (h1 : b ∉ hostOps1_W) (h2 : b ∉ hostOps2_W) (h3 : b ∉ hostOps3_W)
    (ho : b ∉ ([main_v18, main_v30, main_v42, main_v56] : List (Ref sig .tc))) :
    r.mem ((c.tc : Thread nD τ).loc b) = m ((c.tc : Thread nD τ).loc b) :=
  (h c _ (mem_uc b hs)).trans (W10_keep m ρ c b h0 h01 h02 h1 h2 h3 ho)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨run_keep m ρ h c main_arg0 (by decide) (by decide) (by decide) (by decide) (by decide) (by decide) (by decide) (by decide),
     run_keep m ρ h c main_arg1 (by decide) (by decide) (by decide) (by decide) (by decide) (by decide) (by decide) (by decide),
     run_keep m ρ h c main_arg2 (by decide) (by decide) (by decide) (by decide) (by decide) (by decide) (by decide) (by decide),
     run_keep m ρ h c main_arg3 (by decide) (by decide) (by decide) (by decide) (by decide) (by decide) (by decide) (by decide),
     run_keep m ρ h c main_arg4 (by decide) (by decide) (by decide) (by decide) (by decide) (by decide) (by decide) (by decide),
     run_keep m ρ h c main_arg5 (by decide) (by decide) (by decide) (by decide) (by decide) (by decide) (by decide) (by decide),
     run_keep m ρ h c main_arg6 (by decide) (by decide) (by decide) (by decide) (by decide) (by decide) (by decide) (by decide),
     run_keep m ρ h c main_arg7 (by decide) (by decide) (by decide) (by decide) (by decide) (by decide) (by decide) (by decide),
     run_keep m ρ h c main_arg8 (by decide) (by decide) (by decide) (by decide) (by decide) (by decide) (by decide) (by decide),
     run_keep m ρ h c main_arg9 (by decide) (by decide) (by decide) (by decide) (by decide) (by decide) (by decide) (by decide),
     run_keep m ρ h c main_arg10 (by decide) (by decide) (by decide) (by decide) (by decide) (by decide) (by decide) (by decide)⟩)
    (run_all m ρ)

end Cert.Kernel.Fr

end
-- ==== Proof.KI.Reg0.lean ====
/-
  Region 0 of @main: the first layer's dense transform. One grid point handles 5000 rows: it reads the point's
  5000 x 128 block of the node features, the whole 128 x 128 weight matrix and the point's 5000 x 1 block of the degree
  normalisation, and stores (x W) scaled row by row by the normalisation into the point's 5000 x 128 output block, whole.
  Stated at the contents V the region is entered from and at any float family: each window's block at a point, what the
  body leaves in the output's staging buffer as a function of the three input blocks, the body's triple, the pipeline's
  proof data and the body obligation at every point.
-/
import proofs.«400023_j55559696941219_2_alg».proof.Proof.Gen.KernelIdeal.Launch
import proofs.«400023_j55559696941219_2_alg».proof.Proof.Gen.KernelIdeal.Skeleton
import proofs.«400023_j55559696941219_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched its block index has not moved since the previous point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_x : Rect S5000x128 := Rect.unit (s := S5000x128) ![0, 0] S5000x128.size inb_S5000x128_S5000x128_0_0
abbrev r0_w : Rect S128x128 := Rect.unit (s := S128x128) ![0, 0] S128x128.size inb_S128x128_S128x128_0_0
abbrev r0_d : Rect S5000x1 := Rect.unit (s := S5000x1) ![0, 0] S5000x1.size inb_S5000x1_S5000x1_0_0

/-- The output's staging buffer after the body: its one store, of the whole block, of the payload of the three loads. -/
def out0_3 (x0 : Vec F S5000x128 .f32) (x1 : Vec F S128x128 .f32) (x2 : Vec F S5000x1 .f32) : Vec F S5000x128 .f32 :=
  View.canon [⟨r0_x, k0_pay1 (View.ld x0 r0_x) (View.ld x1 r0_w) (View.ld x2 r0_d)⟩]

/-- The one store covers the buffer. -/
theorem cover0_3 (p0 : Vec F S5000x128 .f32) (y : S5000x128.Idx) :
    ∃ pc ∈ ([⟨r0_x, p0⟩] : List (View.Piece (Elt F) S5000x128 .f32)), y ∈ pc.1.set :=
  View.cover_of_tiled [⟨r0_x, p0⟩] S5000x128.size (by rfl) y

set_option maxHeartbeats 1000000 in
/-- The body on whole staging memrefs, the inputs' at contents x0 x1 x2 and the output's at anything, runs to the
    continuation holding the inputs' as they were and the output's at out0_3 of the inputs'. -/
theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S5000x1 .f32) (harg3 : arg3.IsWhole) (arg4 : Memref sig .tc .vmem S5000x128 .f32) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_prescale_kernel i arg1 harg1 arg2 harg2 arg3 harg3 arg4 harg4) K := by
  simp only [cc0__linear_prescale_kernel_eq_skeleton]; unfold cc0__linear_prescale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core c: the arrays as the region finds them; after the body at point t each
    input's buffer at its block and the output's at out0_3 of the input blocks; the invariant holds only what no window
    stages; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Reg1.lean ====
/-
  Region 1 of @main: the previous layer is finished and the next one started in one kernel. One grid point handles 5000
  rows: it reads the point's 5000 x 128 block of the raw aggregate, the 1 x 128 bias row, the point's 5000 x 1 block of the
  degree normalisation and the whole 128 x 128 weight matrix, forms tanh (aggregate * normalisation + bias), multiplies by
  the weights and stores the product scaled row by row by the normalisation into the point's 5000 x 128 output block, whole.
  Stated at the contents V the region is entered from and at any float family: each window's block at a point, what the
  body leaves in the output's staging buffer as a function of the four input blocks, the body's triple, the pipeline's
  proof data and the body obligation at every point.
-/
import proofs.«400023_j55559696941219_2_alg».proof.Proof.Gen.KernelIdeal.Launch
import proofs.«400023_j55559696941219_2_alg».proof.Proof.Gen.KernelIdeal.Skeleton
import proofs.«400023_j55559696941219_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched its block index has not moved since the previous point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_x : Rect S5000x128 := Rect.unit (s := S5000x128) ![0, 0] S5000x128.size inb_S5000x128_S5000x128_0_0
abbrev r1_b : Rect S1x128 := Rect.unit (s := S1x128) ![0, 0] S1x128.size inb_S1x128_S1x128_0_0
abbrev r1_d : Rect S5000x1 := Rect.unit (s := S5000x1) ![0, 0] S5000x1.size inb_S5000x1_S5000x1_0_0
abbrev r1_w : Rect S128x128 := Rect.unit (s := S128x128) ![0, 0] S128x128.size inb_S128x128_S128x128_0_0

/-- The output's staging buffer after the body: its one store, of the whole block, of the payload of the loads (the
    normalisation block is loaded twice). -/
def out1_4 (x0 : Vec F S5000x128 .f32) (x1 : Vec F S1x128 .f32) (x2 : Vec F S5000x1 .f32) (x3 : Vec F S128x128 .f32) : Vec F S5000x128 .f32 :=
  View.canon [⟨r1_x, k1_pay1 (View.ld x0 r1_x) (View.ld x2 r1_d) (View.ld x1 r1_b) (View.ld x3 r1_w) (View.ld x2 r1_d)⟩]

/-- The one store covers the buffer. -/
theorem cover1_4 (p0 : Vec F S5000x128 .f32) (y : S5000x128.Idx) :
    ∃ pc ∈ ([⟨r1_x, p0⟩] : List (View.Piece (Elt F) S5000x128 .f32)), y ∈ pc.1.set :=
  View.cover_of_tiled [⟨r1_x, p0⟩] S5000x128.size (by rfl) y

set_option maxHeartbeats 1000000 in
/-- The body on whole staging memrefs, the inputs' at contents x0 .. x3 and the output's at anything, runs to the
    continuation holding the inputs' as they were and the output's at out1_4 of the inputs'. -/
theorem sound_kernel1 (c : Dev nD) (E : Set ℕ) (i : grid1.Coords) (arg1 : Memref sig .tc .vmem S5000x128 .f32) (harg1 : arg1.IsWhole) (arg2 : Memref sig .tc .vmem S1x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S5000x128 .f32) (harg5 : arg5.IsWhole)
    (x0 : Vec F S5000x128 .f32) (x1 : Vec F S1x128 .f32) (x2 : Vec F S5000x1 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__bias_act_linear_kernel i arg1 harg1 arg2 harg2 arg3 harg3 arg4 harg4 arg5 harg5) K := by
  simp only [cc1__bias_act_linear_kernel_eq_skeleton]; unfold cc1__bias_act_linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data of pipeline 1 on core c: the arrays as the region finds them; after the body at point t each
    input's buffer at its block and the output's at out1_4 of the input blocks; the invariant holds only what no window
    stages; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Reg2.lean ====
/-
  Region 2 of @main: again the previous layer is finished and the next one started in one kernel. One grid point handles 5000
  rows: it reads the point's 5000 x 128 block of the raw aggregate, the 1 x 128 bias row, the point's 5000 x 1 block of the
  degree normalisation and the whole 128 x 128 weight matrix, forms tanh (aggregate * normalisation + bias), multiplies by
  the weights and stores the product scaled row by row by the normalisation into the point's 5000 x 128 output block, whole.
  Stated at the contents V the region is entered from and at any float family: each window's block at a point, what the
  body leaves in the output's staging buffer as a function of the four input blocks, the body's triple, the pipeline's
  proof data and the body obligation at every point.
-/
import proofs.«400023_j55559696941219_2_alg».proof.Proof.Gen.KernelIdeal.Launch
import proofs.«400023_j55559696941219_2_alg».proof.Proof.Gen.KernelIdeal.Skeleton
import proofs.«400023_j55559696941219_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: where it is not
    fetched its block index has not moved since the previous point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_x : Rect S5000x128 := Rect.unit (s := S5000x128) ![0, 0] S5000x128.size inb_S5000x128_S5000x128_0_0
abbrev r2_b : Rect S1x128 := Rect.unit (s := S1x128) ![0, 0] S1x128.size inb_S1x128_S1x128_0_0
abbrev r2_d : Rect S5000x1 := Rect.unit (s := S5000x1) ![0, 0] S5000x1.size inb_S5000x1_S5000x1_0_0
abbrev r2_w : Rect S128x128 := Rect.unit (s := S128x128) ![0, 0] S128x128.size inb_S128x128_S128x128_0_0

/-- The output's staging buffer after the body: its one store, of the whole block, of the payload of the loads (the
    normalisation block is loaded twice). -/
def out2_4 (x0 : Vec F S5000x128 .f32) (x1 : Vec F S1x128 .f32) (x2 : Vec F S5000x1 .f32) (x3 : Vec F S128x128 .f32) : Vec F S5000x128 .f32 :=
  View.canon [⟨r2_x, k2_pay1 (View.ld x0 r2_x) (View.ld x2 r2_d) (View.ld x1 r2_b) (View.ld x3 r2_w) (View.ld x2 r2_d)⟩]

/-- The one store covers the buffer. -/
theorem cover2_4 (p0 : Vec F S5000x128 .f32) (y : S5000x128.Idx) :
    ∃ pc ∈ ([⟨r2_x, p0⟩] : List (View.Piece (Elt F) S5000x128 .f32)), y ∈ pc.1.set :=
  View.cover_of_tiled [⟨r2_x, p0⟩] S5000x128.size (by rfl) y

set_option maxHeartbeats 1000000 in
/-- The body on whole staging memrefs, the inputs' at contents x0 .. x3 and the output's at anything, runs to the
    continuation holding the inputs' as they were and the output's at out2_4 of the inputs'. -/
theorem sound_kernel2 (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S5000x128 .f32) (harg5 : arg5.IsWhole)
    (x0 : Vec F S5000x128 .f32) (x1 : Vec F S1x128 .f32) (x2 : Vec F S5000x1 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__bias_act_linear_kernel i arg1 harg1 arg2 harg2 arg3 harg3 arg4 harg4 arg5 harg5) K := by
  simp only [cc2__bias_act_linear_kernel_eq_skeleton]; unfold cc2__bias_act_linear_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The proof data of pipeline 2 on core c: the arrays as the region finds them; after the body at point t each
    input's buffer at its block and the output's at out2_4 of the input blocks; the invariant holds only what no window
    stages; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Reg3Runs.lean ====
/-
  Region 3 of @main, the pooling and classification call, first half: the body on any memrefs. The grid has 50 points on
  one axis. The kernel keeps two scratch buffers between points: running sums (512 x 128) and running counts (1 x 512).
  At the first point both are stored with zeros; at every point each is loaded and stored back with the point's update;
  at the last point the output buffer (512 x 10) is stored with the classifier's payload of the two scratch contents and
  two constant blocks. Every load and store is of a whole buffer. Here: the two branch conditions in closed form over
  the grid, where the output window is idle and where it is written back, and the body's triple in each of the three
  control cases (first point, middle points, last point), each stated by what it leaves in the three buffers it stores.
-/
import proofs.«400023_j55559696941219_2_alg».proof.Proof.Gen.KernelIdeal.Launch
import proofs.«400023_j55559696941219_2_alg».proof.Proof.Gen.KernelIdeal.Skeleton
import proofs.«400023_j55559696941219_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first conditional's condition (the grid coordinate is 0), from the grid coordinates. -/
abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val = 0 :=
  (by decide +kernel : ∀ t : Fin grid3.N, cond3_0 (grid3.coords t) ↔ t.val = 0)

/-- The second conditional's condition (the grid coordinate is 49). -/
abbrev cond3_1 (i : grid3.Coords) : Prop := k3_cond2 i = 1#1
/-- It holds at the last point only. -/
theorem hcond3_1 : ∀ t : Fin cfg3.N, cond3_1 (grid3.coords t) ↔ t.val = 49 :=
  (by decide +kernel : ∀ t : Fin grid3.N, cond3_1 (grid3.coords t) ↔ t.val = 49)

/-- The output window is idle at every point but the last, -/
theorem idleAt3_6 : ∀ t : Fin cfg3.N, t.val ≠ 49 → cfg3.idle 6 (grid3.coords t) = true :=
  (by decide +kernel : ∀ t : Fin grid3.N, t.val ≠ 49 → cfg3.idle 6 (grid3.coords t) = true)
/-- is not written back there, -/
theorem noFlush3_6 : ∀ t : Fin cfg3.N, t.val ≠ 49 → (cfg3.win 6).flush t = false :=
  (by decide +kernel : ∀ t : Fin grid3.N, t.val ≠ 49 → (cfg3.win 6).flush t = false)
/-- and is live at the last. -/
theorem liveAt3_6 : ∀ t : Fin cfg3.N, t.val = 49 → cfg3.idle 6 (grid3.coords t) = false :=
  (by decide +kernel : ∀ t : Fin grid3.N, t.val = 49 → cfg3.idle 6 (grid3.coords t) = false)

/-- The zero offsets of the whole-buffer rectangles, spelt as a function. -/
theorem hz2 : (![0, 0] : Fin 2 → ℕ) = fun _ => 0 := by funext a; fin_cases a <;> rfl

/-- A load through the whole-shape rectangle at zero offsets reads the view's contents. -/
theorem readAt_whole {sp : Space} {S : Shape} {e : EltTy} (v : View sig .tc sp S e) (f : v.ty.Contents (Elt F))
    {off : Fin S.rank → ℕ} (h : off = fun _ => 0) (inb : ∀ a, off a + S.size a ≤ S.size a) :
    View.readAt (Elt F) v (Rect.unit off S.size inb).toLoadRect f = v.read (Elt F) f :=
  (View.readAt_eq_ld v f _).trans (View.ld_unit_zero h inb _)

/-- What any view reads after a LAST store through the whole-shape rectangle at zero offsets is that store's payload,
    whatever the earlier stores and the prior contents. -/
theorem read_writes_whole {sp : Space} {S : Shape} {e : EltTy} (v : View sig .tc sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.Mem.head _, View.mem_set_unit_zero h inb y⟩)).trans
    (View.canon_cons_unit_zero h inb w L)

set_option maxHeartbeats 1000000 in
/-- The body at the first point (first conditional taken, second not), on whole memrefs — the inputs' at contents
    x0 .. x5, the output's at xo, the two scratch buffers at anything —, runs to the continuation holding the inputs'
    and the output's as they were, the sums at the update of zeros and the counts at the update of zeros. -/
theorem sound_kernel3_A (c : Dev nD) (E : Set ℕ) (i : grid3.Coords) (arg1 : Memref sig .tc .vmem S1000x128 .f32) (harg1 : arg1.IsWhole) (arg2 : Memref sig .tc .vmem S1x128 .f32) (harg2 : arg2.IsWhole) (arg3 : Memref sig .tc .vmem S1000x1 .f32) (harg3 : arg3.IsWhole) (arg4 : Memref sig .tc .vmem S1000x1 .i32) (harg4 : arg4.IsWhole) (arg5 : Memref sig .tc .vmem S128x10 .f32) (harg5 : arg5.IsWhole) (arg6 : Memref sig .tc .vmem S1x10 .f32) (harg6 : arg6.IsWhole) (arg7 : Memref sig .tc .vmem S512x10 .f32) (harg7 : arg7.IsWhole) (arg8 : Memref sig .tc .vmem S512x128 .f32) (harg8 : arg8.IsWhole) (arg9 : Memref sig .tc .vmem S1x512 .f32) (harg9 : arg9.IsWhole) (hc0 : cond3_0 i) (hc1 : ¬cond3_1 i)
    (x0 : Vec F S1000x128 .f32) (x1 : Vec F S1x128 .f32) (x2 : Vec F S1000x1 .f32) (x3 : Vec F S1000x1 .i32) (x4 : Vec F S128x10 .f32) (x5 : Vec F S1x10 .f32) (xo : Vec F S512x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo ∗ owns (c : Thread nD τ) arg8 fullShare (k3_pay5 x0 x2 x1 x3 k3_pay2) ∗ owns (c : Thread nD τ) arg9 fullShare (k3_pay6 x3 k3_pay3)) -∗ K ⟨⟩))
      ⊢ wp frame (wpE (defs₀ (F := F)) Variants.none c none) E (cc3__pool_cls_kernel i arg1 harg1 arg2 harg2 arg3 harg3 arg4 harg4 arg5 harg5 arg6 harg6 arg7 harg7 arg8 harg8 arg9 harg9) K := by
  simp only [cc3__pool_cls_kernel_eq_skeleton]; unfold cc3__pool_cls_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    refine (read_writes_whole _ _ hz2 _ _ _).trans ?_
    have e0 := readAt_whole (F := F) arg1.view f0 hz2 inb_S1000x128_S1000x128_0_0
    have e1 := readAt_whole (F := F) arg2.view f1 hz2 inb_S1x128_S1x128_0_0
    have e2 := readAt_whole (F := F) arg3.view f2 hz2 inb_S1000x1_S1000x1_0_0
    have e3 := readAt_whole (F := F) arg4.view f3 hz2 inb_S1000x1_S1000x1_0_0
    rw [e0, e1, e2, e3, View.readCov_unit_zero _ hz2]
  · iexists _; isplitr
    swap; · iexact H8
    ipureintro
    sl_unfold_words
    refine (read_writes_whole _ _ hz2 _ _ _).trans ?_
    have e0 := readAt_whole (F := F) arg1.view f0 hz2 inb_S1000x128_S1000x128_0_0
    have e1 := readAt_whole (F := F) arg2.view f1 hz2 inb_S1x128_S1x128_0_0
    have e2 := readAt_whole (F := F) arg3.view f2 hz2 inb_S1000x1_S1000x1_0_0
    have e3 := readAt_whole (F := F) arg4.view f3 hz2 inb_S1000x1_S1000x1_0_0
    rw [e3, View.readCov_unit_zero _ hz2]

set_option maxHeartbeats 1000000 in
/-- The body at a middle point (neither conditional taken), the scratch buffers at sums s and counts k: the inputs'
    and the output's as they were, the sums and the counts updated. -/
theorem sound_kernel3_B (c : Dev nD) (E : Set ℕ) (i : grid3.Coords) (arg1 : Memref sig .tc .vmem S1000x128 .f32) (harg1 : arg1.IsWhole) (arg2 : Memref sig .tc .vmem S1x128 .f32) (harg2 : arg2.IsWhole) (arg3 : Memref sig .tc .vmem S1000x1 .f32) (harg3 : arg3.IsWhole) (arg4 : Memref sig .tc .vmem S1000x1 .i32) (harg4 : arg4.IsWhole) (arg5 : Memref sig .tc .vmem S128x10 .f32) (harg5 : arg5.IsWhole) (arg6 : Memref sig .tc .vmem S1x10 .f32) (harg6 : arg6.IsWhole) (arg7 : Memref sig .tc .vmem S512x10 .f32) (harg7 : arg7.IsWhole) (arg8 : Memref sig .tc .vmem S512x128 .f32) (harg8 : arg8.IsWhole) (arg9 : Memref sig .tc .vmem S1x512 .f32) (harg9 : arg9.IsWhole) (hc0 : ¬cond3_0 i) (hc1 : ¬cond3_1 i)
    (x0 : Vec F S1000x128 .f32) (x1 : Vec F S1x128 .f32) (x2 : Vec F S1000x1 .f32) (x3 : Vec F S1000x1 .i32) (x4 : Vec F S128x10 .f32) (x5 : Vec F S1x10 .f32) (xo : Vec F S512x10 .f32) (s : Vec F S512x128 .f32) (k : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo ∗ owns (c : Thread nD τ) arg8 fullShare s ∗ owns (c : Thread nD τ) arg9 fullShare k
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo ∗ owns (c : Thread nD τ) arg8 fullShare (k3_pay5 x0 x2 x1 x3 s) ∗ owns (c : Thread nD τ) arg9 fullShare (k3_pay6 x3 k)) -∗ K ⟨⟩))
      ⊢ wp frame (wpE (defs₀ (F := F)) Variants.none c none) E (cc3__pool_cls_kernel i arg1 harg1 arg2 harg2 arg3 harg3 arg4 harg4 arg5 harg5 arg6 harg6 arg7 harg7 arg8 harg8 arg9 harg9) K := by
  simp only [cc3__pool_cls_kernel_eq_skeleton]; unfold cc3__pool_cls_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_words
    refine (read_writes_whole _ _ hz2 _ _ _).trans ?_
    have e0 := readAt_whole (F := F) arg1.view f0 hz2 inb_S1000x128_S1000x128_0_0
    have e1 := readAt_whole (F := F) arg2.view f1 hz2 inb_S1x128_S1x128_0_0
    have e2 := readAt_whole (F := F) arg3.view f2 hz2 inb_S1000x1_S1000x1_0_0
    have e3 := readAt_whole (F := F) arg4.view f3 hz2 inb_S1000x1_S1000x1_0_0
    rw [e0, e1, e2, e3, readAt_whole (F := F) arg8.view f7 hz2 inb_S512x128_S512x128_0_0]
  · iexists _; isplitr
    swap; · iexact H8
    ipureintro
    sl_unfold_words
    refine (read_writes_whole _ _ hz2 _ _ _).trans ?_
    have e0 := readAt_whole (F := F) arg1.view f0 hz2 inb_S1000x128_S1000x128_0_0
    have e1 := readAt_whole (F := F) arg2.view f1 hz2 inb_S1x128_S1x128_0_0
    have e2 := readAt_whole (F := F) arg3.view f2 hz2 inb_S1000x1_S1000x1_0_0
    have e3 := readAt_whole (F := F) arg4.view f3 hz2 inb_S1000x1_S1000x1_0_0
    rw [e3, readAt_whole (F := F) arg9.view f8 hz2 inb_S1x512_S1x512_0_0]

set_option maxHeartbeats 1000000 in
/-- The body at the last point (second conditional taken, first not), the scratch buffers at sums s and counts k,
    the output's buffer at anything: the inputs' as they were, the sums and the counts updated, and the output's buffer
    at the classifier's payload of the updated counts, the updated sums and the two constant blocks. -/
theorem sound_kernel3_C (c : Dev nD) (E : Set ℕ) (i : grid3.Coords) (arg1 : Memref sig .tc .vmem S1000x128 .f32) (harg1 : arg1.IsWhole) (arg2 : Memref sig .tc .vmem S1x128 .f32) (harg2 : arg2.IsWhole) (arg3 : Memref sig .tc .vmem S1000x1 .f32) (harg3 : arg3.IsWhole) (arg4 : Memref sig .tc .vmem S1000x1 .i32) (harg4 : arg4.IsWhole) (arg5 : Memref sig .tc .vmem S128x10 .f32) (harg5 : arg5.IsWhole) (arg6 : Memref sig .tc .vmem S1x10 .f32) (harg6 : arg6.IsWhole) (arg7 : Memref sig .tc .vmem S512x10 .f32) (harg7 : arg7.IsWhole) (arg8 : Memref sig .tc .vmem S512x128 .f32) (harg8 : arg8.IsWhole) (arg9 : Memref sig .tc .vmem S1x512 .f32) (harg9 : arg9.IsWhole) (hc0 : ¬cond3_0 i) (hc1 : cond3_1 i)
    (x0 : Vec F S1000x128 .f32) (x1 : Vec F S1x128 .f32) (x2 : Vec F S1000x1 .f32) (x3 : Vec F S1000x1 .i32) (x4 : Vec F S128x10 .f32) (x5 : Vec F S1x10 .f32) (s : Vec F S512x128 .f32) (k : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare s ∗ owns (c : Thread nD τ) arg9 fullShare k
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k3_pay1 (k3_pay6 x3 k) (k3_pay5 x0 x2 x1 x3 s) x4 x5) ∗ owns (c : Thread nD τ) arg8 fullShare (k3_pay5 x0 x2 x1 x3 s) ∗ owns (c : Thread nD τ) arg9 fullShare (k3_pay6 x3 k)) -∗ K ⟨⟩))
      ⊢ wp frame (wpE (defs₀ (F := F)) Variants.none c none) E (cc3__pool_cls_kernel i arg1 harg1 arg2 harg2 arg3 harg3 arg4 harg4 arg5 harg5 arg6 harg6 arg7 harg7 arg8 harg8 arg9 harg9) K := by
  simp only [cc3__pool_cls_kernel_eq_skeleton]; unfold cc3__pool_cls_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  subst hf0 hf1 hf2 hf3 hf4 hf5 hf7 hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    refine (read_writes_whole _ _ hz2 _ _ _).trans ?_
    have e0 := readAt_whole (F := F) arg1.view f0 hz2 inb_S1000x128_S1000x128_0_0
    have e1 := readAt_whole (F := F) arg2.view f1 hz2 inb_S1x128_S1x128_0_0
    have e2 := readAt_whole (F := F) arg3.view f2 hz2 inb_S1000x1_S1000x1_0_0
    have e3 := readAt_whole (F := F) arg4.view f3 hz2 inb_S1000x1_S1000x1_0_0
    rw [View.readCov_unit_zero _ hz2, View.readCov_unit_zero _ hz2, e0, e1, e2, e3,
      readAt_whole (F := F) arg5.view f4 hz2 inb_S128x10_S128x10_0_0, readAt_whole (F := F) arg6.view f5 hz2 inb_S1x10_S1x10_0_0,
      readAt_whole (F := F) arg8.view f7 hz2 inb_S512x128_S512x128_0_0, readAt_whole (F := F) arg9.view f8 hz2 inb_S1x512_S1x512_0_0]
  isplitl [H7]
  · iexists _; isplitr
    swap; · iexact H7
    ipureintro
    sl_unfold_words
    refine (read_writes_whole _ _ hz2 _ _ _).trans ?_
    have e0 := readAt_whole (F := F) arg1.view f0 hz2 inb_S1000x128_S1000x128_0_0
    have e1 := readAt_whole (F := F) arg2.view f1 hz2 inb_S1x128_S1x128_0_0
    have e2 := readAt_whole (F := F) arg3.view f2 hz2 inb_S1000x1_S1000x1_0_0
    have e3 := readAt_whole (F := F) arg4.view f3 hz2 inb_S1000x1_S1000x1_0_0
    rw [e0, e1, e2, e3, readAt_whole (F := F) arg8.view f7 hz2 inb_S512x128_S512x128_0_0]
  · iexists _; isplitr
    swap; · iexact H8
    ipureintro
    sl_unfold_words
    refine (read_writes_whole _ _ hz2 _ _ _).trans ?_
    have e0 := readAt_whole (F := F) arg1.view f0 hz2 inb_S1000x128_S1000x128_0_0
    have e1 := readAt_whole (F := F) arg2.view f1 hz2 inb_S1x128_S1x128_0_0
    have e2 := readAt_whole (F := F) arg3.view f2 hz2 inb_S1000x1_S1000x1_0_0
    have e3 := readAt_whole (F := F) arg4.view f3 hz2 inb_S1000x1_S1000x1_0_0
    rw [e3, readAt_whole (F := F) arg9.view f8 hz2 inb_S1x512_S1x512_0_0]

end Cert.KernelIdeal.Fr

end
-- ==== Proof.KI.Reg3.lean ====
/-
  Region 3 of @main, the pooling and classification call, second half: the pipeline's proof data and the body obligation.
  Stated at the contents V the region is entered from and at any float family. The two scratch buffers (running sums,
  running counts) are carried between the 50 grid points by the invariant: before the first point they are anything;
  after point n they hold the n-fold update of zeros by the blocks of points 0 .. n. The output window's block index is
  constant, the window is idle at every point but the last, where the body stores into it the classifier's payload of
  the final sums and counts and the pipeline writes it back.
-/
import proofs.«400023_j55559696941219_2_alg».proof.Proof.KI.Reg3Runs
import proofs.«400023_j55559696941219_2_alg».proof.Proof.Gen.KernelIdeal.Launch
import proofs.«400023_j55559696941219_2_alg».proof.Proof.Gen.KernelIdeal.Skeleton
import proofs.«400023_j55559696941219_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not: where it is not
    fetched its block index has not moved since the previous point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Window 0's block at point t at its literal type: the aggregated features' block (1000 x 128). -/
abbrev agg3 (c : Dev nD) (t : Fin cfg3.N) : Vec F S1000x128 .f32 := iblk3 V c 0 t
/-- Window 1's block at point t at its literal type: the bias row (1 x 128). -/
abbrev bias3 (c : Dev nD) (t : Fin cfg3.N) : Vec F S1x128 .f32 := iblk3 V c 1 t
/-- Window 2's block at point t at its literal type: the degree normalisation's block (1000 x 1). -/
abbrev dis3 (c : Dev nD) (t : Fin cfg3.N) : Vec F S1000x1 .f32 := iblk3 V c 2 t
/-- Window 3's block at point t at its literal type: the graph ids' block (1000 x 1, integers). -/
abbrev ids3 (c : Dev nD) (t : Fin cfg3.N) : Vec F S1000x1 .i32 := iblk3 V c 3 t
/-- Window 4's block at point t at its literal type: the classifier's weights (128 x 10). -/
abbrev wout3 (c : Dev nD) (t : Fin cfg3.N) : Vec F S128x10 .f32 := iblk3 V c 4 t
/-- Window 5's block at point t at its literal type: the classifier's bias (1 x 10). -/
abbrev bout3 (c : Dev nD) (t : Fin cfg3.N) : Vec F S1x10 .f32 := iblk3 V c 5 t

/-- The scratch operands: whole scoped buffers of the kernel's own, passed beside the windows. -/
abbrev scM3_0 : Memref sig .tc .vmem S512x128 .f32 := Memref.whole cc3_scratch0
abbrev scM3_1 : Memref sig .tc .vmem S1x512 .f32 := Memref.whole cc3_scratch1

/-! ## What the scratch buffers and the output's buffer hold after each point -/

/-- The running sums and the running counts after point n: at the first point the update of zeros, afterwards the
    update of what the point before left. -/
def scrAt3 (c : Dev nD) : (n : ℕ) → n < cfg3.N → Vec F S512x128 .f32 × Vec F S1x512 .f32
  | 0, hn => (k3_pay5 (agg3 V c ⟨0, hn⟩) (dis3 V c ⟨0, hn⟩) (bias3 V c ⟨0, hn⟩) (ids3 V c ⟨0, hn⟩) k3_pay2,
      k3_pay6 (ids3 V c ⟨0, hn⟩) k3_pay3)
  | n + 1, hn => (k3_pay5 (agg3 V c ⟨n + 1, hn⟩) (dis3 V c ⟨n + 1, hn⟩) (bias3 V c ⟨n + 1, hn⟩) (ids3 V c ⟨n + 1, hn⟩) (scrAt3 c n (Nat.lt_of_succ_lt hn)).1,
      k3_pay6 (ids3 V c ⟨n + 1, hn⟩) (scrAt3 c n (Nat.lt_of_succ_lt hn)).2)

/-- After point n: what the last point's store puts in the output's staging buffer when computed from this point's
    sums and counts (at the last point, what the buffer holds; at the other points the window is idle, not written back
    and read by nothing, and the component is not consulted), the sums, the counts. -/
def outsAt3 (c : Dev nD) (n : ℕ) (hn : n < cfg3.N) : Vec F S512x10 .f32 × Vec F S512x128 .f32 × Vec F S1x512 .f32 :=
  (k3_pay1 (scrAt3 V c n hn).2 (scrAt3 V c n hn).1 (wout3 V c ⟨n, hn⟩) (bout3 V c ⟨n, hn⟩), (scrAt3 V c n hn).1, (scrAt3 V c n hn).2)

theorem outsAt3_sums (c : Dev nD) (n : ℕ) (hn : n < cfg3.N) : (outsAt3 V c n hn).2.1 = (scrAt3 V c n hn).1 := rfl
theorem outsAt3_counts (c : Dev nD) (n : ℕ) (hn : n < cfg3.N) : (outsAt3 V c n hn).2.2 = (scrAt3 V c n hn).2 := rfl
theorem outsAt3_out (c : Dev nD) (n : ℕ) (hn : n < cfg3.N) :
    (outsAt3 V c n hn).1 = k3_pay1 (outsAt3 V c n hn).2.2 (outsAt3 V c n hn).2.1 (wout3 V c ⟨n, hn⟩) (bout3 V c ⟨n, hn⟩) := rfl

/-- The sums and counts at the first point: the update of zeros. -/
theorem scrAt3_zero (c : Dev nD) (t : Fin cfg3.N) (h : t.val = 0) :
    scrAt3 V c t.val t.isLt = (k3_pay5 (agg3 V c t) (dis3 V c t) (bias3 V c t) (ids3 V c t) k3_pay2, k3_pay6 (ids3 V c t) k3_pay3) := by
  obtain ⟨n, hn⟩ := t
  cases n with
  | zero => rfl
  | succ n => exact absurd h (Nat.succ_ne_zero n)

/-- The sums and counts at a later point: the update of what the point before left. -/
theorem scrAt3_pos (c : Dev nD) (t : Fin cfg3.N) (h : 0 < t.val) :
    scrAt3 V c t.val t.isLt = (k3_pay5 (agg3 V c t) (dis3 V c t) (bias3 V c t) (ids3 V c t) (scrAt3 V c (t.val - 1) (Nat.lt_of_le_of_lt (Nat.sub_le _ _) t.isLt)).1,
      k3_pay6 (ids3 V c t) (scrAt3 V c (t.val - 1) (Nat.lt_of_le_of_lt (Nat.sub_le _ _) t.isLt)).2) := by
  obtain ⟨n, hn⟩ := t
  cases n with
  | zero => exact absurd h (Nat.lt_irrefl 0)
  | succ n => rfl

/-- outsAt3 at the first point: the sums and the counts are the update of zeros. -/
theorem outsAt3_A (c : Dev nD) (t : Fin cfg3.N) (h : t.val = 0) :
    outsAt3 V c t.val t.isLt
      = (k3_pay1 (k3_pay6 (ids3 V c t) k3_pay3) (k3_pay5 (agg3 V c t) (dis3 V c t) (bias3 V c t) (ids3 V c t) k3_pay2) (wout3 V c t) (bout3 V c t),
         k3_pay5 (agg3 V c t) (dis3 V c t) (bias3 V c t) (ids3 V c t) k3_pay2, k3_pay6 (ids3 V c t) k3_pay3) := by
  unfold outsAt3; rw [scrAt3_zero V c t h]

/-- outsAt3 at a later point: the sums and the counts are the update of the previous point's; the first component is
    the classifier's payload of them (what the output's buffer holds when the point is the last). -/
theorem outsAt3_pos (c : Dev nD) (t : Fin cfg3.N) (h : 0 < t.val) :
    outsAt3 V c t.val t.isLt
      = (k3_pay1 (k3_pay6 (ids3 V c t) (outsAt3 V c (t.val - 1) (Nat.lt_of_le_of_lt (Nat.sub_le _ _) t.isLt)).2.2)
            (k3_pay5 (agg3 V c t) (dis3 V c t) (bias3 V c t) (ids3 V c t) (outsAt3 V c (t.val - 1) (Nat.lt_of_le_of_lt (Nat.sub_le _ _) t.isLt)).2.1) (wout3 V c t) (bout3 V c t),
         k3_pay5 (agg3 V c t) (dis3 V c t) (bias3 V c t) (ids3 V c t) (outsAt3 V c (t.val - 1) (Nat.lt_of_le_of_lt (Nat.sub_le _ _) t.isLt)).2.1,
         k3_pay6 (ids3 V c t) (outsAt3 V c (t.val - 1) (Nat.lt_of_le_of_lt (Nat.sub_le _ _) t.isLt)).2.2) := by
  unfold outsAt3; rw [scrAt3_pos V c t h]

/-- outsAt3 at a middle point. -/
theorem outsAt3_B (c : Dev nD) (t : Fin cfg3.N) (h0 : 0 < t.val) (h1 : t.val < 49) :
    outsAt3 V c t.val t.isLt
      = (k3_pay1 (k3_pay6 (ids3 V c t) (outsAt3 V c (t.val - 1) (Nat.lt_of_le_of_lt (Nat.sub_le _ _) t.isLt)).2.2)
            (k3_pay5 (agg3 V c t) (dis3 V c t) (bias3 V c t) (ids3 V c t) (outsAt3 V c (t.val - 1) (Nat.lt_of_le_of_lt (Nat.sub_le _ _) t.isLt)).2.1) (wout3 V c t) (bout3 V c t),
         k3_pay5 (agg3 V c t) (dis3 V c t) (bias3 V c t) (ids3 V c t) (outsAt3 V c (t.val - 1) (Nat.lt_of_le_of_lt (Nat.sub_le _ _) t.isLt)).2.1,
         k3_pay6 (ids3 V c t) (outsAt3 V c (t.val - 1) (Nat.lt_of_le_of_lt (Nat.sub_le _ _) t.isLt)).2.2) :=
  outsAt3_pos V c t h0

/-- outsAt3 at the last point: the output's buffer holds the classifier's payload of the updated counts, the updated
    sums and the two constant blocks. -/
theorem outsAt3_C (c : Dev nD) (t : Fin cfg3.N) (h : t.val = 49) :
    outsAt3 V c t.val t.isLt
      = (k3_pay1 (k3_pay6 (ids3 V c t) (outsAt3 V c (t.val - 1) (Nat.lt_of_le_of_lt (Nat.sub_le _ _) t.isLt)).2.2)
            (k3_pay5 (agg3 V c t) (dis3 V c t) (bias3 V c t) (ids3 V c t) (outsAt3 V c (t.val - 1) (Nat.lt_of_le_of_lt (Nat.sub_le _ _) t.isLt)).2.1) (wout3 V c t) (bout3 V c t),
         k3_pay5 (agg3 V c t) (dis3 V c t) (bias3 V c t) (ids3 V c t) (outsAt3 V c (t.val - 1) (Nat.lt_of_le_of_lt (Nat.sub_le _ _) t.isLt)).2.1,
         k3_pay6 (ids3 V c t) (outsAt3 V c (t.val - 1) (Nat.lt_of_le_of_lt (Nat.sub_le _ _) t.isLt)).2.2) :=
  outsAt3_pos V c t (by omega)

/-! ## The invariant: the scratch buffers carried between points -/

/-- What the launch hands the region with the two scratch operands taken out of the scoped rest, as memrefs owned at
    some contents; the remainder of the scoped rest is carried unopened. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1])
          ∗ (∃ r, prngReg c r)) := by
  unfold Pipeline.ΦA; rw [scopedRest3_split]; simp only [scM3_0, scM3_1, owns_whole]; try rfl

/-- The region invariant before position n: before the first point what the launch hands over (every scratch at
    anything); afterwards the two scratch buffers at what the point before left in them, the rest of the scoped rest
    unopened, and the generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2.1) ∗ owns (c : Thread nD τ) scM3_1 fullShare ((outsAt3 V c n hn).2.2))
          ∗ Pipeline.scopedRestBut (Ix := Unit) (Name := ℕ) (U := UR sig nD τ) (Lvl := ℕ) (Val := Elt F) spec3 c [cc3_scratch0, cc3_scratch1])
          ∗ (∃ r, prngReg c r))

theorem PhiS3_zero (c : Dev nD) (n : ℕ) (h : n ≤ cfg3.N) (hz : n = 0) : PhiS3 V c n h = Pipeline.ΦA spec3 c := by
  subst hz; rfl

/-- After point n (before point n + 1): the scratch buffers at that point's contents. -/
theorem PhiS3_succ (c : Dev nD) (n : ℕ) (hn : n < cfg3.N) :
    PhiS3 V c (n + 1) hn = iprop(iprop(iprop(owns (c : Thread nD τ) scM3_0 fullShare ((outsAt3 V c n hn).2.1) ∗ owns (c : Thread nD τ) scM3_1 fullShare ((outsAt3 V c n hn).2.2))
          ∗ Pipeline.scopedRestBut (Ix := Unit) (Name := ℕ) (U := UR sig nD τ) (Lvl := ℕ) (Val := Elt F) spec3 c [cc3_scratch0, cc3_scratch1])
          ∗ (∃ r, prngReg c r)) := rfl

/-- Before a point that is not the first: the scratch buffers at what the point before left. -/
theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2.1) ∗ owns (c : Thread nD τ) scM3_1 fullShare ((outsAt3 V c (n - 1) (by omega)).2.2))
          ∗ Pipeline.scopedRestBut (Ix := Unit) (Name := ℕ) (U := UR sig nD τ) (Lvl := ℕ) (Val := Elt F) spec3 c [cc3_scratch0, cc3_scratch1])
          ∗ (∃ r, prngReg c r)) := by
  cases n with
  | zero => exact absurd rfl hz
  | succ n => rfl

/-! ## The pipeline's proof data -/

/-- The proof data of pipeline 3 on core c: the arrays as the region finds them; after the body at point t each
    input's buffer at its block and the output's at outsAt3's first component; the invariant carries the two scratch
    buffers at outsAt3's other components; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

/-- The invariant at a point's start, restated at t.val. -/
theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-- The input windows are never idle. -/
theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
theorem liveAt3_4 : ∀ t : Fin cfg3.N, cfg3.idle 4 (grid3.coords t) = false := fun _ => rfl
theorem liveAt3_5 : ∀ t : Fin cfg3.N, cfg3.idle 5 (grid3.coords t) = false := fun _ => rfl

/-! ## The body obligation, at a generic point -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

set_option maxHeartbeats 4800000 in
/-- The body at any point: the inputs' memrefs hold their blocks; the point's position says which control case it is
    in; the invariant hands the body the two scratch buffers at what the point before left (at anything at the first
    point) and takes them back at this point's contents; at every point but the last the output's buffer is handed back
    as found; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  rw [show (dat3 V c).leavesExact 3 t = owns (c : Thread nD τ) (st3_3 t) fullShare ((dat3 V c).after 3 t) from by
    unfold Dat.leavesExact; rw [liveAt3_3 t], after3_3]
  rw [show (dat3 V c).leavesExact 4 t = owns (c : Thread nD τ) (st3_4 t) fullShare ((dat3 V c).after 4 t) from by
    unfold Dat.leavesExact; rw [liveAt3_4 t], after3_4]
  rw [show (dat3 V c).leavesExact 5 t = owns (c : Thread nD τ) (st3_5 t) fullShare ((dat3 V c).after 5 t) from by
    unfold Dat.leavesExact; rw [liveAt3_5 t], after3_5]
  have hN : t.val < 50 := lt_of_lt_of_eq t.isLt (show cfg3.N = 50 from N_3)
  by_cases h0 : t.val = 0
  · have h1 : t.val ≠ 49 := by omega
    rw [Dat.leavesExact_idle (dat3 V c) 6 t (idleAt3_6 t h1) (noFlush3_6 t h1)]
    rw [outsAt3_A V c t h0]; dsimp only
    rw [PhiS3_castSucc V c t, PhiS3_zero V c _ _ h0, PhiA3_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel3_A c Set.univ (grid3.coords t) _ _ _ _ _ _ _ _ _ _ _ _ _ _ _ _ _ _ ((hcond3_0 t).mpr h0) (fun h => h1 ((hcond3_1 t).mp h))
      (agg3 V c t) (bias3 V c t) (dis3 V c t) (ids3 V c t) (wout3 V c t) (bout3 V c t) ((dat3 V c).before 6 t d6) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hpos : 0 < t.val := Nat.pos_of_ne_zero h0
    by_cases h1 : t.val = 49
    · rw [show (dat3 V c).leavesExact 6 t = owns (c : Thread nD τ) (st3_6 t) fullShare ((dat3 V c).after 6 t) from by
        unfold Dat.leavesExact; rw [liveAt3_6 t h1], after3_6]
      rw [outsAt3_C V c t h1]; dsimp only
      rw [PhiS3_castSucc V c t, PhiS3_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel3_C c Set.univ (grid3.coords t) _ _ _ _ _ _ _ _ _ _ _ _ _ _ _ _ _ _ (fun h => h0 ((hcond3_0 t).mp h)) ((hcond3_1 t).mpr h1)
        (agg3 V c t) (bias3 V c t) (dis3 V c t) (ids3 V c t) (wout3 V c t) (bout3 V c t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, H6, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have h1' : t.val < 49 := by omega
      rw [Dat.leavesExact_idle (dat3 V c) 6 t (idleAt3_6 t h1) (noFlush3_6 t h1)]
      rw [outsAt3_B V c t hpos h1']; dsimp only
      rw [PhiS3_castSucc V c t, PhiS3_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel3_B c Set.univ (grid3.coords t) _ _ _ _ _ _ _ _ _ _ _ _ _ _ _ _ _ _ (fun h => h0 ((hcond3_0 t).mp h)) (fun h => h1 ((hcond3_1 t).mp h))
        (agg3 V c t) (bias3 V c t) (dis3 V c t) (ids3 V c t) (wout3 V c t) (bout3 V c t) ((dat3 V c).before 6 t d6) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives back what the launch handed over: the scratch buffers' named
    contents are forgotten. -/
theorem Phi3_out (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout3 (c : Dev nD) : (dat3 V c).Φ (Fin.last cfg3.N) ⊢ Pipeline.ΦA spec3 c :=
  Phi3_out V c _ (by rw [Fin.val_last]; have : cfg3.N = 50 := N_3; omega)

end Cert.KernelIdeal.Fr

end
-- ==== Proof.KI.Run.lean ====
/-
  The run of @main: ten segments, six stretches of host operations and four kernel regions. The buffer contents at every
  segment boundary are a fold from the launch memory: a host stretch applies its operations, a region leaves its
  arrays at what its write-backs leave and every other buffer as entered. Over the thread state "every unscoped buffer at
  the boundary's contents, the generator register at some state, nothing owed" each stretch is a host segment and each
  region a region segment built from its body obligation; the launch then gives: every weakly fair execution terminates
  with every unscoped buffer at the last boundary's contents. No host operation and no region writes an argument array,
  so each argument ends as launched; the result array ends at what region 3's write-back leaves.
-/
import proofs.«400023_j55559696941219_2_alg».proof.Proof.Gen.KernelIdeal.Regions
import proofs.«400023_j55559696941219_2_alg».proof.Proof.KI.Reg0
import proofs.«400023_j55559696941219_2_alg».proof.Proof.KI.Reg1
import proofs.«400023_j55559696941219_2_alg».proof.Proof.KI.Reg2
import proofs.«400023_j55559696941219_2_alg».proof.Proof.KI.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
/-- After the first three host stretches: region 0's entry. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b

/-- At region 0's exit: its arrays at what the pipeline leaves (the inputs as entered, the output's write-backs
    folded), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the stretch between regions 0 and 1: region 1's entry. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b

/-- At region 1's exit: its arrays at what the pipeline leaves (the inputs as entered, the output's write-backs
    folded), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After the stretch between regions 1 and 2: region 2's entry. -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b

/-- At region 2's exit: its arrays at what the pipeline leaves (the inputs as entered, the output's write-backs
    folded), every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-- After the stretch between regions 2 and 3: region 3's entry. -/
abbrev W9 : Dev nD → Valuation τ sig (Elt F) := fun c => StableHlo.after hostOps3 (W8 m ρ c)
abbrev V9 : (c : Dev nD) → (b : Ref sig .tc) → Buf (Elt F) ((c : Thread nD τ).loc b) := fun c b => W9 m ρ c b

/-- At region 3's exit: its arrays at what the pipeline leaves (the inputs as entered, the output's write-backs
    folded), every other buffer as entered. -/
def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
abbrev V10 : (c : Dev nD) → (b : Ref sig .tc) → Buf (Elt F) ((c : Thread nD τ).loc b) := fun c b => W10 m ρ c b
theorem hF3 (c : Dev nD) (w : Fin cfg3.W) : (dat3 (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of_ne m ρ c b fun w e => hb (Finset.mem_image.mpr ⟨w, Finset.mem_univ _, e⟩)

/-! ## No segment writes an argument array -/

/-- Region 0 changes no buffer but its output's array: an input window's array is left as entered, any other
    buffer is not touched. -/
theorem W4_keep (c : Dev nD) (b : Ref sig .tc) (hb : b ≠ main_v18) :
    W4 m ρ c (Proc.devRef .tc b) = W3 m ρ c (Proc.devRef .tc b) := by
  by_cases h : ∃ w, Pipeline.arrRef spec0 w = b
  · obtain ⟨w, rfl⟩ := h
    have hw : (cfg0.win w).isOut = false :=
      (by decide : ∀ w : Fin cfg0.W, Pipeline.arrRef spec0 w ≠ main_v18 → (cfg0.win w).isOut = false) w hb
    exact (W4_arr m ρ c w).trans (((dat0 (V3 m ρ) c).arrAt_in w hw _).trans (A_eq0 (V3 m ρ) c w))
  · exact W4_of_ne m ρ c b (fun w e => h ⟨w, e⟩)

/-- Region 1 changes no buffer but its output's array: an input window's array is left as entered, any other
    buffer is not touched. -/
theorem W6_keep (c : Dev nD) (b : Ref sig .tc) (hb : b ≠ main_v30) :
    W6 m ρ c (Proc.devRef .tc b) = W5 m ρ c (Proc.devRef .tc b) := by
  by_cases h : ∃ w, Pipeline.arrRef spec1 w = b
  · obtain ⟨w, rfl⟩ := h
    have hw : (cfg1.win w).isOut = false :=
      (by decide : ∀ w : Fin cfg1.W, Pipeline.arrRef spec1 w ≠ main_v30 → (cfg1.win w).isOut = false) w hb
    exact (W6_arr m ρ c w).trans (((dat1 (V5 m ρ) c).arrAt_in w hw _).trans (A_eq1 (V5 m ρ) c w))
  · exact W6_of_ne m ρ c b (fun w e => h ⟨w, e⟩)

/-- Region 2 changes no buffer but its output's array: an input window's array is left as entered, any other
    buffer is not touched. -/
theorem W8_keep (c : Dev nD) (b : Ref sig .tc) (hb : b ≠ main_v42) :
    W8 m ρ c (Proc.devRef .tc b) = W7 m ρ c (Proc.devRef .tc b) := by
  by_cases h : ∃ w, Pipeline.arrRef spec2 w = b
  · obtain ⟨w, rfl⟩ := h
    have hw : (cfg2.win w).isOut = false :=
      (by decide : ∀ w : Fin cfg2.W, Pipeline.arrRef spec2 w ≠ main_v42 → (cfg2.win w).isOut = false) w hb
    exact (W8_arr m ρ c w).trans (((dat2 (V7 m ρ) c).arrAt_in w hw _).trans (A_eq2 (V7 m ρ) c w))
  · exact W8_of_ne m ρ c b (fun w e => h ⟨w, e⟩)

/-- Region 3 changes no buffer but its output's array: an input window's array is left as entered, any other
    buffer is not touched. -/
theorem W10_keepR (c : Dev nD) (b : Ref sig .tc) (hb : b ≠ main_v56) :
    W10 m ρ c (Proc.devRef .tc b) = W9 m ρ c (Proc.devRef .tc b) := by
  by_cases h : ∃ w, Pipeline.arrRef spec3 w = b
  · obtain ⟨w, rfl⟩ := h
    have hw : (cfg3.win w).isOut = false :=
      (by decide : ∀ w : Fin cfg3.W, Pipeline.arrRef spec3 w ≠ main_v56 → (cfg3.win w).isOut = false) w hb
    exact (W10_arr m ρ c w).trans (((dat3 (V9 m ρ) c).arrAt_in w hw _).trans (A_eq3 (V9 m ρ) c w))
  · exact W10_of_ne m ρ c b (fun w e => h ⟨w, e⟩)

/-- A buffer that no host stretch writes and that is no region's output ends as launched. -/
theorem W10_keep (c : Dev nD) (b : Ref sig .tc) (h0 : b ∉ hostOps0_W) (h01 : b ∉ hostOps0_1_W) (h02 : b ∉ hostOps0_2_W)
    (h1 : b ∉ hostOps1_W) (h2 : b ∉ hostOps2_W) (h3 : b ∉ hostOps3_W)
    (ho : b ∉ ([main_v18, main_v30, main_v42, main_v56] : List (Ref sig .tc))) :
    W10 m ρ c (Proc.devRef .tc b) = m ((c : Thread nD τ).loc b) := by
  have e18 : b ≠ main_v18 := fun e => ho (by rw [e]; decide)
  have e30 : b ≠ main_v30 := fun e => ho (by rw [e]; decide)
  have e42 : b ≠ main_v42 := fun e => ho (by rw [e]; decide)
  have e56 : b ≠ main_v56 := fun e => ho (by rw [e]; decide)
  calc W10 m ρ c (Proc.devRef .tc b)
    _ = W9 m ρ c (Proc.devRef .tc b) := W10_keepR m ρ c b e56
    _ = W8 m ρ c (Proc.devRef .tc b) := StableHlo.after_of_writes_sub hostOps3 _ hostOps3_writes h3
    _ = W7 m ρ c (Proc.devRef .tc b) := W8_keep m ρ c b e42
    _ = W6 m ρ c (Proc.devRef .tc b) := StableHlo.after_of_writes_sub hostOps2 _ hostOps2_writes h2
    _ = W5 m ρ c (Proc.devRef .tc b) := W6_keep m ρ c b e30
    _ = W4 m ρ c (Proc.devRef .tc b) := StableHlo.after_of_writes_sub hostOps1 _ hostOps1_writes h1
    _ = W3 m ρ c (Proc.devRef .tc b) := W4_keep m ρ c b e18
    _ = W2 m ρ c (Proc.devRef .tc b) := StableHlo.after_of_writes_sub hostOps0_2 _ hostOps0_2_writes h02
    _ = W1 m ρ c (Proc.devRef .tc b) := StableHlo.after_of_writes_sub hostOps0_1 _ hostOps0_1_writes h01
    _ = W0 m ρ c (Proc.devRef .tc b) := StableHlo.after_of_writes_sub hostOps0 _ hostOps0_writes h0
    _ = m ((c : Thread nD τ).loc b) := rfl

/-- The result array ends at what region 3's write-back leaves. -/
theorem W10_out (c : Dev nD) : W10 m ρ c (Proc.devRef .tc main_v56) = (dat3 (V9 m ρ) c).arrAt 6 cfg3.N :=
  W10_arr m ρ c 6

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- Region 0 over the thread state: entered from every unscoped buffer at W3, left at W4. Its arrays are split
    out of the unscoped buffers and put back at the exit contents; the generator register goes into the invariant and
    comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W5, left at W6. Its arrays are split
    out of the unscoped buffers and put back at the exit contents; the generator register goes into the invariant and
    comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W7, left at W8. Its arrays are split
    out of the unscoped buffers and put back at the exit contents; the generator register goes into the invariant and
    comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at W9, left at W10. Its arrays are split
    out of the unscoped buffers and put back at the exit contents; the generator register goes into the invariant and
    comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V9 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec3 c).trans (hin3 (V9 m ρ) c)
    unfold Pipeline.ΦA
    iintro ⟨Hp, -, Hr⟩
    isplitl [Hr]; · iexact Hr
    iexact Hp
  hout c := by
    rw [Pipeline.ownSems0_none]
    refine (hout3 (V9 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V9 m ρ c) (V10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ) ]
/-- @main is the run of the segments. -/
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-- Read at a buffer that nothing writes: it ends as launched. -/
theorem run_keep {r : MemSt nD τ sig (Elt F)} (h : ∀ c : Dev nD, ∀ b ∈ Pipeline.ucRefs τ sig, r.mem (((c : Thread nD τ)).1, b) = W10 m ρ c b) (c : Dev nD) (b : Ref sig .tc)
    (hs : ¬ (Proc.devRef .tc b : DevRef τ sig).isScoped) (h0 : b ∉ hostOps0_W) (h01 : b ∉ hostOps0_1_W) (h02 : b ∉ hostOps0_2_W)
    (h1 : b ∉ hostOps1_W) (h2 : b ∉ hostOps2_W) (h3 : b ∉ hostOps3_W)
    (ho : b ∉ ([main_v18, main_v30, main_v42, main_v56] : List (Ref sig .tc))) :
    r.mem ((c.tc : Thread nD τ).loc b) = m ((c.tc : Thread nD τ).loc b) :=
  (h c _ (mem_uc b hs)).trans (W10_keep m ρ c b h0 h01 h02 h1 h2 h3 ho)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨run_keep m ρ h c main_arg0 (by decide) (by decide) (by decide) (by decide) (by decide) (by decide) (by decide) (by decide),
     run_keep m ρ h c main_arg1 (by decide) (by decide) (by decide) (by decide) (by decide) (by decide) (by decide) (by decide),
     run_keep m ρ h c main_arg2 (by decide) (by decide) (by decide) (by decide) (by decide) (by decide) (by decide) (by decide),
     run_keep m ρ h c main_arg3 (by decide) (by decide) (by decide) (by decide) (by decide) (by decide) (by decide) (by decide),
     run_keep m ρ h c main_arg4 (by decide) (by decide) (by decide) (by decide) (by decide) (by decide) (by decide) (by decide),
     run_keep m ρ h c main_arg5 (by decide) (by decide) (by decide) (by decide) (by decide) (by decide) (by decide) (by decide),
     run_keep m ρ h c main_arg6 (by decide) (by decide) (by decide) (by decide) (by decide) (by decide) (by decide) (by decide),
     run_keep m ρ h c main_arg7 (by decide) (by decide) (by decide) (by decide) (by decide) (by decide) (by decide) (by decide),
     run_keep m ρ h c main_arg8 (by decide) (by decide) (by decide) (by decide) (by decide) (by decide) (by decide) (by decide),
     run_keep m ρ h c main_arg9 (by decide) (by decide) (by decide) (by decide) (by decide) (by decide) (by decide) (by decide),
     run_keep m ρ h c main_arg10 (by decide) (by decide) (by decide) (by decide) (by decide) (by decide) (by decide) (by decide)⟩)
    (run_all m ρ)

end Cert.KernelIdeal.Fr

end
-- ==== Proof.KPay.lean ====
import proofs.«400023_j55559696941219_2_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

/-!
The arithmetic of the four kernels, read at an index, at the ideal values (floats are extended reals, a change
of float format is the identity, a product into a zero accumulator is the plain sum of products, a lane sum is a
plain sum).
-/

noncomputable section

open Idealize.ShloMosaic Idealize.ShloMosaic.TcCoe Idealize.SL.Sem
open Idealize.ShloMosaic.ValueIdx
open scoped BigOperators

namespace Cert.KernelIdeal.Pay

open Cert.KernelIdeal Cert.KernelIdeal.Gen

/-! ## Layout: one column broadcast over many -/

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product of a `[5000, 128]` block with a `[128, 128]` matrix -/

theorem lhs_dotA_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_dotA_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_dotA_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_dotA_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into the zero accumulator, at `(r, f)`: the sum over `k` of the left operand's row `r` times the
    right operand's column `f`. -/
theorem matmulA_apply {φ₁ φ₂ : FTy} (x : FVec Ideal S5000x128 φ₁) (y : FVec Ideal S128x128 φ₂) (r : Fin 5000) (f : Fin 128) :
    matmul dot_S5000x128_S128x128_S5000x128_1_0_0_1_n_n none x y (constant S5000x128 .f32 0x00000000#32) (ix2 r f)
      = ∑ k : Fin 128, x (ix2 r k) * y (ix2 k f) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r f) ((ValueIdx.contrEquiv1 dot_S5000x128_S128x128_S5000x128_1_0_0_1_n_n 128 rfl rfl).symm k) = ix2 r k := funext fun a => Fin.ext (by
    match a with
    | ⟨0, _⟩ => exact lhs_dotA_0 _ _
    | ⟨1, _⟩ => exact (lhs_dotA_1 _ _).trans hk)
  have er : dot_S5000x128_S128x128_S5000x128_1_0_0_1_n_n.rhsIdx (ix2 r f) ((ValueIdx.contrEquiv1 dot_S5000x128_S128x128_S5000x128_1_0_0_1_n_n 128 rfl rfl).symm k) = ix2 k f := funext fun a => Fin.ext (by
    match a with
    | ⟨0, _⟩ => exact (rhs_dotA_0 _ _).trans hk
    | ⟨1, _⟩ => exact rhs_dotA_1 _ _)
  rw [el, er]

/-! ## The first kernel: a row-scaled product -/

theorem k0_pay1_apply (v0 : Vec Ideal S5000x128 .f32) (v2 : Vec Ideal S128x128 .f32) (v5 : Vec Ideal S5000x1 .f32)
    (r : Fin 5000) (f : Fin 128) :
    k0_pay1 (F := Ideal) v0 v2 v5 (ix2 r f)
      = (∑ k : Fin 128, v0 (ix2 r k) * v2 (ix2 k f)) * v5 (ix2 r (0 : Fin 1)) := by
  unfold k0_pay1
  rw [mulf_apply, matmulA_apply, broadcastTo_a1_ab_apply, shapeCast_self]
  rfl

/-! ## The second and third kernels: bias, `tanh`, product, row scale -/

/-- `math.tanh` at an index, at the ideal values: the extended reals' `Ideal.tanh` of the element. -/
theorem tanh_apply {s : Shape} {φ : FTy} (x : FVec Ideal s φ) (i : s.Idx) : tanh x i = Ideal.tanh (x i) := rfl

/-- The host's `tanh` is the same function `Ideal.tanh` of the element. -/
theorem hostTanh_apply {s : Shape} {φ : FTy} (x : FVec Ideal s φ) (i : s.Idx) : Host.tanh (F := Ideal) x i = Ideal.tanh (x i) := rfl

theorem k1_pay1_apply (v0 : Vec Ideal S5000x128 .f32) (v2 : Vec Ideal S5000x1 .f32) (v6 : Vec Ideal S1x128 .f32)
    (v12 : Vec Ideal S128x128 .f32) (v15 : Vec Ideal S5000x1 .f32) (r : Fin 5000) (f : Fin 128) :
    k1_pay1 (F := Ideal) v0 v2 v6 v12 v15 (ix2 r f)
      = (∑ k : Fin 128, Ideal.tanh (v0 (ix2 r k) * v2 (ix2 r (0 : Fin 1)) + v6 (ix2 (0 : Fin 1) k)) * v12 (ix2 k f))
          * v15 (ix2 r (0 : Fin 1)) := by
  unfold k1_pay1
  simp only [shapeCast_self]
  rw [mulf_apply, matmulA_apply, broadcastTo_a1_ab_apply]
  refine congrArg (· * v15 (ix2 r (0 : Fin 1))) (Finset.sum_congr rfl fun k _ => ?_)
  rw [truncf_apply, truncf_apply, tanh_apply, addf_apply, mulf_apply, broadcastTo_a1_ab_apply, broadcastTo_1b_ab_apply]

theorem k2_pay1_apply (v0 : Vec Ideal S5000x128 .f32) (v2 : Vec Ideal S5000x1 .f32) (v6 : Vec Ideal S1x128 .f32)
    (v12 : Vec Ideal S128x128 .f32) (v15 : Vec Ideal S5000x1 .f32) (r : Fin 5000) (f : Fin 128) :
    k2_pay1 (F := Ideal) v0 v2 v6 v12 v15 (ix2 r f)
      = (∑ k : Fin 128, Ideal.tanh (v0 (ix2 r k) * v2 (ix2 r (0 : Fin 1)) + v6 (ix2 (0 : Fin 1) k)) * v12 (ix2 k f))
          * v15 (ix2 r (0 : Fin 1)) :=
  k1_pay1_apply v0 v2 v6 v12 v15 r f

/-! ## The pooling kernel: the one-hot membership matrix -/

/-- The membership indicator: `1` when the word `b` is the word of the group `g`, else `0`. -/
def oh (b : BitVec 32) (g : Fin 512) : EReal := if b = BitVec.ofNat 32 g.val then 1 else 0

/-- An integer comparison at an index compares the elements. -/
theorem cmpi_apply {s : Shape} {w : ℕ} (p : CmpIPredicate) (x y : IVec s w) (i : s.Idx) :
    cmpi p x y i = IntOp.cmpi p (x i) (y i) := rfl

/-- A one-bit word widened to 32 bits and read as a signed integer is `1` or `0`. -/
theorem toInt_setWidth_ofBool (c : Bool) : (((BitVec.ofBool c).setWidth 32).toInt : ℝ) = if c then 1 else 0 := by
  cases c
  · have h : ((BitVec.ofBool false).setWidth 32).toInt = 0 := by decide
    rw [h]; simp
  · have h : ((BitVec.ofBool true).setWidth 32).toInt = 1 := by decide
    rw [h]; simp

theorem k3_pay4_apply (v13 : Vec Ideal S1000x1 .i32) (r : Fin 1000) (g : Fin 512) :
    k3_pay4 (F := Ideal) v13 (ix2 r g) = oh (v13 (ix2 r (0 : Fin 1))) g := by
  unfold k3_pay4
  rw [sitofp_apply, extui_apply, cmpi_apply, broadcastTo_a1_ab_apply, shapeCast_self, iota_single_apply]
  show ((((IntOp.cmpi .eq (v13 (ix2 r (0 : Fin 1))) (BitVec.ofNat 32 g.val)).setWidth 32).toInt : ℝ) : EReal) = _
  unfold IntOp.cmpi oh
  rw [toInt_setWidth_ofBool]
  by_cases h : v13 (ix2 r (0 : Fin 1)) = BitVec.ofNat 32 g.val
  · rw [if_pos h, h]; simp
  · rw [if_neg h]; simp [h]

/-! ## The pooling product: both operands contracted on their rows -/

theorem lhs_dotB_0 (i : S512x128.Idx) (q : dot_S1000x512_S1000x128_S512x128_0_0_1_1_n_n.contr.Idx) :
    (dot_S1000x512_S1000x128_S512x128_0_0_1_1_n_n.lhsIdx i q 0).val = (q ⟨0, by decide⟩).val :=
  dot_S1000x512_S1000x128_S512x128_0_0_1_1_n_n.lhsIdx_val_of_single rfl i q
theorem lhs_dotB_1 (i : S512x128.Idx) (q : dot_S1000x512_S1000x128_S512x128_0_0_1_1_n_n.contr.Idx) :
    (dot_S1000x512_S1000x128_S512x128_0_0_1_1_n_n.lhsIdx i q 1).val = (i 0).val := by
  unfold DotDims.lhsIdx
  rw [dif_neg (show ¬(1 : Fin S1000x512.rank) ∈ dot_S1000x512_S1000x128_S512x128_0_0_1_1_n_n.lhsBatch by decide), dif_pos (show (1 : Fin S1000x512.rank) ∈ dot_S1000x512_S1000x128_S512x128_0_0_1_1_n_n.lhsNonContracting by decide)]
  rfl
theorem rhs_dotB_0 (i : S512x128.Idx) (q : dot_S1000x512_S1000x128_S512x128_0_0_1_1_n_n.contr.Idx) :
    (dot_S1000x512_S1000x128_S512x128_0_0_1_1_n_n.rhsIdx i q 0).val = (q ⟨0, by decide⟩).val :=
  dot_S1000x512_S1000x128_S512x128_0_0_1_1_n_n.rhsIdx_val_of_single rfl i q
theorem rhs_dotB_1 (i : S512x128.Idx) (q : dot_S1000x512_S1000x128_S512x128_0_0_1_1_n_n.contr.Idx) :
    (dot_S1000x512_S1000x128_S512x128_0_0_1_1_n_n.rhsIdx i q 1).val = (i 1).val := by
  unfold DotDims.rhsIdx
  rw [dif_neg (show ¬(1 : Fin S1000x128.rank) ∈ dot_S1000x512_S1000x128_S512x128_0_0_1_1_n_n.rhsBatch by decide), dif_pos (show (1 : Fin S1000x128.rank) ∈ dot_S1000x512_S1000x128_S512x128_0_0_1_1_n_n.rhsNonContracting by decide)]
  rfl

/-- The product into the zero accumulator, at `(g, e)`: the sum over the rows `r` of the left operand's column `g`
    times the right operand's column `e`. -/
theorem matmulB_apply {φ₁ φ₂ : FTy} (x : FVec Ideal S1000x512 φ₁) (y : FVec Ideal S1000x128 φ₂) (g : Fin 512) (e : Fin 128) :
    matmul dot_S1000x512_S1000x128_S512x128_0_0_1_1_n_n none x y (constant S512x128 .f32 0x00000000#32) (ix2 g e)
      = ∑ r : Fin 1000, x (ix2 r g) * y (ix2 r e) := by
  simp only [matmul]
  rw [Ideal.matmul_constant_zero_apply, ← Equiv.sum_comp (ValueIdx.contrEquiv1 dot_S1000x512_S1000x128_S512x128_0_0_1_1_n_n 1000 rfl rfl).symm]
  refine Finset.sum_congr rfl fun k _ => ?_
  have hk := ValueIdx.contrEquiv1_symm_val dot_S1000x512_S1000x128_S512x128_0_0_1_1_n_n 1000 rfl rfl k
  have el : dot_S1000x512_S1000x128_S512x128_0_0_1_1_n_n.lhsIdx (ix2 g e) ((ValueIdx.contrEquiv1 dot_S1000x512_S1000x128_S512x128_0_0_1_1_n_n 1000 rfl rfl).symm k) = ix2 k g := funext fun a => Fin.ext (by
    match a with
    | ⟨0, _⟩ => exact (lhs_dotB_0 _ _).trans hk
    | ⟨1, _⟩ => exact lhs_dotB_1 _ _)
  have er : dot_S1000x512_S1000x128_S512x128_0_0_1_1_n_n.rhsIdx (ix2 g e) ((ValueIdx.contrEquiv1 dot_S1000x512_S1000x128_S512x128_0_0_1_1_n_n 1000 rfl rfl).symm k) = ix2 k e := funext fun a => Fin.ext (by
    match a with
    | ⟨0, _⟩ => exact (rhs_dotB_0 _ _).trans hk
    | ⟨1, _⟩ => exact rhs_dotB_1 _ _)
  rw [el, er]

theorem k3_pay5_apply (v3 : Vec Ideal S1000x128 .f32) (v5 : Vec Ideal S1000x1 .f32) (v9 : Vec Ideal S1x128 .f32)
    (v13 : Vec Ideal S1000x1 .i32) (v22 : Vec Ideal S512x128 .f32) (g : Fin 512) (e : Fin 128) :
    k3_pay5 (F := Ideal) v3 v5 v9 v13 v22 (ix2 g e)
      = v22 (ix2 g e) + ∑ r : Fin 1000, oh (v13 (ix2 r (0 : Fin 1))) g
          * (v3 (ix2 r e) * v5 (ix2 r (0 : Fin 1)) + v9 (ix2 (0 : Fin 1) e)) := by
  unfold k3_pay5
  simp only [shapeCast_self]
  rw [addf_apply, matmulB_apply]
  refine congrArg (v22 (ix2 g e) + ·) (Finset.sum_congr rfl fun r _ => ?_)
  rw [truncf_apply, truncf_apply, k3_pay4_apply, addf_apply, mulf_apply, broadcastTo_a1_ab_apply, broadcastTo_1b_ab_apply]

/-! ## The group counts: a column sum of the membership matrix -/

/-- The index the row sum inserts: row `k` of column `g`. -/
theorem lift_rows (g : Fin 512) (k : Fin 1000) :
    reduces_S1000x512_S512.lift (ix1 g) k = ix2 k g := by
  funext a; refine Fin.ext ?_
  match a with
  | ⟨0, _⟩ => rfl
  | ⟨1, _⟩ => rfl

/-- A sum over the rows of a `[1000, 512]` array, at column `g`. -/
theorem sumRows_apply (x : FVec Ideal S1000x512 .f32) (hφ : FKind.Formats .f32)
    (hacc : (0x00000000#32 : BitVec 32) = 0x00000000#32) (g : Fin 512) :
    multiReduction .add [0] S512 x 0x00000000#32 reduces_S1000x512_S512 hφ hacc (ix1 g) = ∑ r : Fin 1000, x (ix2 r g) := by
  refine (Ideal.multiReduction_add_single x 0x00000000#32 reduces_S1000x512_S512 hφ hacc (ix1 g)).trans ?_
  exact Finset.sum_congr rfl fun k _ => congrArg x (lift_rows g k)

theorem k3_pay6_apply (v13 : Vec Ideal S1000x1 .i32) (v28 : Vec Ideal S1x512 .f32) (g : Fin 512) :
    k3_pay6 (F := Ideal) v13 v28 (ix2 (0 : Fin 1) g)
      = v28 (ix2 (0 : Fin 1) g) + ∑ r : Fin 1000, oh (v13 (ix2 r (0 : Fin 1))) g := by
  unfold k3_pay6
  simp only [shapeCast_self]
  rw [addf_apply, shapeCast_a_1a_apply, sumRows_apply]
  exact congrArg (v28 (ix2 (0 : Fin 1) g) + ·) (Finset.sum_congr rfl fun r _ => k3_pay4_apply v13 r g)

/-! ## The two zero initial values -/

theorem k3_pay2_apply (j : S512x128.Idx) : k3_pay2 (F := Ideal) j = 0 := by
  unfold k3_pay2
  rw [shapeCast_self, broadcast_apply]
  exact Ideal.ofBits_zero_f32

theorem k3_pay3_apply (j : S1x512.Idx) : k3_pay3 (F := Ideal) j = 0 := by
  unfold k3_pay3
  rw [shapeCast_self, broadcast_apply]
  exact Ideal.ofBits_zero_f32

/-! ## The classifier: mean, product with the weights, bias; then the log-softmax tail -/

theorem lhs_dotC_0 (i : S512x10.Idx) (q : dot_S512x128_S128x10_S512x10_1_0_0_1_n_n.contr.Idx) :
    (dot_S512x128_S128x10_S512x10_1_0_0_1_n_n.lhsIdx i q 0).val = (i 0).val := by
  unfold DotDims.lhsIdx
  rw [dif_neg (show ¬(0 : Fin S512x128.rank) ∈ dot_S512x128_S128x10_S512x10_1_0_0_1_n_n.lhsBatch by decide), dif_pos (show (0 : Fin S512x128.rank) ∈ dot_S512x128_S128x10_S512x10_1_0_0_1_n_n.lhsNonContracting by decide)]
  rfl
theorem lhs_dotC_1 (i : S512x10.Idx) (q : dot_S512x128_S128x10_S512x10_1_0_0_1_n_n.contr.Idx) :
    (dot_S512x128_S128x10_S512x10_1_0_0_1_n_n.lhsIdx i q 1).val = (q ⟨0, by decide⟩).val :=
  dot_S512x128_S128x10_S512x10_1_0_0_1_n_n.lhsIdx_val_of_single rfl i q
theorem rhs_dotC_0 (i : S512x10.Idx) (q : dot_S512x128_S128x10_S512x10_1_0_0_1_n_n.contr.Idx) :
    (dot_S512x128_S128x10_S512x10_1_0_0_1_n_n.rhsIdx i q 0).val = (q ⟨0, by decide⟩).val :=
  dot_S512x128_S128x10_S512x10_1_0_0_1_n_n.rhsIdx_val_of_single rfl i q
theorem rhs_dotC_1 (i : S512x10.Idx) (q : dot_S512x128_S128x10_S512x10_1_0_0_1_n_n.contr.Idx) :
    (dot_S512x128_S128x10_S512x10_1_0_0_1_n_n.rhsIdx i q 1).val = (i 1).val := by
  unfold DotDims.rhsIdx
  rw [dif_neg (show ¬(1 : Fin S128x10.rank) ∈ dot_S512x128_S128x10_S512x10_1_0_0_1_n_n.rhsBatch by decide), dif_pos (show (1 : Fin S128x10.rank) ∈ dot_S512x128_S128x10_S512x10_1_0_0_1_n_n.rhsNonContracting by decide)]
  rfl

/-- The product into the zero accumulator, at `(g, c)`: the sum over `e` of the left operand's row `g` times the
    right operand's column `c`. -/
theorem matmulC_apply {φ₁ φ₂ : FTy} (x : FVec Ideal S512x128 φ₁) (y : FVec Ideal S128x10 φ₂) (g : Fin 512) (c : Fin 10) :
    matmul dot_S512x128_S128x10_S512x10_1_0_0_1_n_n none x y (constant S512x10 .f32 0x00000000#32) (ix2 g c)
      = ∑ e : Fin 128, x (ix2 g e) * y (ix2 e c) := by
  simp only [matmul]
  rw [Ideal.matmul_constant_zero_apply, ← Equiv.sum_comp (ValueIdx.contrEquiv1 dot_S512x128_S128x10_S512x10_1_0_0_1_n_n 128 rfl rfl).symm]
  refine Finset.sum_congr rfl fun k _ => ?_
  have hk := ValueIdx.contrEquiv1_symm_val dot_S512x128_S128x10_S512x10_1_0_0_1_n_n 128 rfl rfl k
  have el : dot_S512x128_S128x10_S512x10_1_0_0_1_n_n.lhsIdx (ix2 g c) ((ValueIdx.contrEquiv1 dot_S512x128_S128x10_S512x10_1_0_0_1_n_n 128 rfl rfl).symm k) = ix2 g k := funext fun a => Fin.ext (by
    match a with
    | ⟨0, _⟩ => exact lhs_dotC_0 _ _
    | ⟨1, _⟩ => exact (lhs_dotC_1 _ _).trans hk)
  have er : dot_S512x128_S128x10_S512x10_1_0_0_1_n_n.rhsIdx (ix2 g c) ((ValueIdx.contrEquiv1 dot_S512x128_S128x10_S512x10_1_0_0_1_n_n 128 rfl rfl).symm k) = ix2 k c := funext fun a => Fin.ext (by
    match a with
    | ⟨0, _⟩ => exact (rhs_dotC_0 _ _).trans hk
    | ⟨1, _⟩ => exact rhs_dotC_1 _ _)
  rw [el, er]

/-- The classifier's logits: the pooled sums divided by the group counts (at least one), times the weights, plus
    the bias. -/
def kerLogits (v39 : Vec Ideal S1x512 .f32) (v43 : Vec Ideal S512x128 .f32) (v47 : Vec Ideal S128x10 .f32)
    (v50 : Vec Ideal S1x10 .f32) : FVec Ideal S512x10 .f32 :=
  have v40 : FVec Ideal S512x1 .f32 := transpose S512x1 [1, 0] v39 transposes_S1x512_p1_0_S512x1
  have cst_20 : Ideal .f32 := Scalar.ofBits .f32 0x3F800000#32
  have v41 : FVec Ideal S512x1 .f32 := broadcast S512x1 cst_20
  have v42 : FVec Ideal S512x1 .f32 := maximumf v40 v41
  have v44 : FVec Ideal S512x128 .f32 := broadcastTo S512x128 v42 broadcasts_S512x1_S512x128
  have v45 : FVec Ideal S512x128 .f32 := divf v43 v44
  have v46 : FVec Ideal S512x128 .bf16 := truncf .bf16 v45 bitsLt_bf16_f32
  have v48 : FVec Ideal S128x10 .bf16 := truncf .bf16 v47 bitsLt_bf16_f32
  have cst_25 : FVec Ideal S512x10 .f32 := constant S512x10 .f32 0x00000000#32
  have v49 : FVec Ideal S512x10 .f32 := matmul dot_S512x128_S128x10_S512x10_1_0_0_1_n_n none v46 v48 cst_25
  have v51 : FVec Ideal S1x10 .f32 := shapeCast S1x10 v50 shapeCasts_S1x10_S1x10
  have v52 : FVec Ideal S512x10 .f32 := broadcastTo S512x10 v51 broadcasts_S1x10_S512x10
  have v53 : FVec Ideal S512x10 .f32 := addf v49 v52
  v53

/-- The tail from the logits on: subtract the row maximum, exponentiate, sum the row, take the logarithm, subtract. -/
def kerLsm (z : FVec Ideal S512x10 .f32) : FVec Ideal S512x10 .f32 :=
  have v54 : FVec Ideal S512 .f32 := multiReduction .maximumf [1] S512 z 0xFF800000#32 reduces_S512x10_S512 (.inl rfl) rfl
  have v55 : FVec Ideal S512x1 .f32 := shapeCast S512x1 v54 shapeCasts_S512_S512x1
  have v56 : FVec Ideal S512x10 .f32 := broadcastTo S512x10 v55 broadcasts_S512x1_S512x10
  have v57 : FVec Ideal S512x10 .f32 := subf z v56
  have v58 : FVec Ideal S512x10 .f32 := exp v57
  have v59 : FVec Ideal S512 .f32 := multiReduction .add [1] S512 v58 0x00000000#32 reduces_S512x10_S512 (.inl rfl) rfl
  have v60 : FVec Ideal S512x1 .f32 := shapeCast S512x1 v59 shapeCasts_S512_S512x1
  have v61 : FVec Ideal S512x1 .f32 := log v60
  have v62 : FVec Ideal S512x10 .f32 := broadcastTo S512x10 v61 broadcasts_S512x1_S512x10
  have v63 : FVec Ideal S512x10 .f32 := subf v57 v62
  v63

/-- The fourth kernel's last payload is the tail applied to the logits. -/
theorem k3_pay1_eq (v39 : Vec Ideal S1x512 .f32) (v43 : Vec Ideal S512x128 .f32) (v47 : Vec Ideal S128x10 .f32)
    (v50 : Vec Ideal S1x10 .f32) :
    k3_pay1 (F := Ideal) v39 v43 v47 v50 = kerLsm (kerLogits v39 v43 v47 v50) := rfl

/-- The float literal `1.0` is the extended real `1`. -/
theorem ofBits_one_f32 : Ideal.ofBits .f32 0x3F800000#32 = 1 := IdealRules.sign_bit.ideal_onePat .f32

/-- The logits at `(g, c)`. The quotient `Ideal.div` is the one function both the kernel's and the host's float
    division are at the ideal values. -/
theorem kerLogits_apply (v39 : Vec Ideal S1x512 .f32) (v43 : Vec Ideal S512x128 .f32) (v47 : Vec Ideal S128x10 .f32)
    (v50 : Vec Ideal S1x10 .f32) (g : Fin 512) (c : Fin 10) :
    kerLogits v39 v43 v47 v50 (ix2 g c)
      = (∑ e : Fin 128, Ideal.div (v43 (ix2 g e)) (max (v39 (ix2 (0 : Fin 1) g)) 1) * v47 (ix2 e c))
          + v50 (ix2 (0 : Fin 1) c) := by
  unfold kerLogits
  simp only [shapeCast_self]
  rw [addf_apply, matmulC_apply, broadcastTo_1b_ab_apply]
  refine congrArg (· + v50 (ix2 (0 : Fin 1) c)) (Finset.sum_congr rfl fun e _ => ?_)
  rw [truncf_apply, truncf_apply, divf_apply, broadcastTo_a1_ab_apply, maximumf_apply, transpose_ix2_apply, broadcast_apply]
  show Ideal.div (v43 (ix2 g e)) (max (v39 (ix2 (0 : Fin 1) g)) (Ideal.ofBits .f32 0x3F800000#32)) * v47 (ix2 e c) = _
  rw [ofBits_one_f32]

/-- The host's float division at an index is the same `Ideal.div` of the elements. -/
theorem hostDivf_apply {s : Shape} {φ : FTy} (x y : FVec Ideal s φ) (i : s.Idx) :
    Host.divf (F := Ideal) x y i = Ideal.div (x i) (y i) := rfl

/-! ## The log-softmax tail read at an index -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index a row reduction inserts: column `k` of row `g`. -/
theorem lift_cols (g : Fin 512) (k : Fin 10) :
    reduces_S512x10_S512.lift (ix1 g) k = ix2 g k := by
  funext a; refine Fin.ext ?_
  match a with
  | ⟨0, _⟩ => rfl
  | ⟨1, _⟩ => rfl

/-- The float literal `-∞` is the extended real `⊥`. -/
theorem ofBits_neginf_f32 : Ideal.ofBits .f32 0xFF800000#32 = ⊥ := by
  simp [Ideal.ofBits, Ideal.ieee]

/-- The maximum of row `g` of a `[512, 10]` array: the fold of `max` from `⊥` over the row. -/
def rowMax (z : FVec Ideal S512x10 .f32) (g : Fin 512) : EReal :=
  (Finset.univ : Finset (Fin 10)).fold max ⊥ fun c => z (ix2 g c)

theorem maxCols_apply (x : FVec Ideal S512x10 .f32) (hφ : FKind.Formats .f32)
    (hacc : (0xFF800000#32 : BitVec 32) = 0xFF800000#32) (g : Fin 512) :
    multiReduction .maximumf [1] S512 x 0xFF800000#32 reduces_S512x10_S512 hφ hacc (ix1 g) = rowMax x g := by
  refine (Ideal.multiReduction_maximumf_single x 0xFF800000#32 reduces_S512x10_S512 hφ hacc (ix1 g)).trans ?_
  unfold rowMax
  have e : (x ∘ reduces_S512x10_S512.lift (ix1 g)) = fun c : Fin 10 => x (ix2 g c) :=
    funext fun k => congrArg x (lift_cols g k)
  rw [e]
  show Finset.fold max (Ideal.ofBits .f32 0xFF800000#32) _ _ = _
  rw [ofBits_neginf_f32]
  rfl

theorem sumCols_apply (x : FVec Ideal S512x10 .f32) (hφ : FKind.Formats .f32)
    (hacc : (0x00000000#32 : BitVec 32) = 0x00000000#32) (g : Fin 512) :
    multiReduction .add [1] S512 x 0x00000000#32 reduces_S512x10_S512 hφ hacc (ix1 g) = ∑ c : Fin 10, x (ix2 g c) := by
  refine (Ideal.multiReduction_add_single x 0x00000000#32 reduces_S512x10_S512 hφ hacc (ix1 g)).trans ?_
  exact Finset.sum_congr rfl fun k _ => congrArg x (lift_cols g k)

/-- `math.exp` and `math.log` at an index, at the ideal values. -/
theorem exp_apply {s : Shape} {φ : FTy} (x : FVec Ideal s φ) (i : s.Idx) : exp x i = Ideal.exp (x i) := rfl
theorem log_apply {s : Shape} {φ : FTy} (x : FVec Ideal s φ) (i : s.Idx) : log x i = Ideal.log (x i) := rfl

/-- The tail at `(g, c)`: the entry less the row maximum, less the logarithm of the row's sum of exponentials of
    the same differences. -/
theorem kerLsm_apply (z : FVec Ideal S512x10 .f32) (g : Fin 512) (c : Fin 10) :
    kerLsm z (ix2 g c)
      = (z (ix2 g c) - rowMax z g) - Ideal.log (∑ c' : Fin 10, Ideal.exp (z (ix2 g c') - rowMax z g)) := by
  unfold kerLsm
  rw [subf_apply, subf_apply, broadcastTo_a1_ab_apply, broadcastTo_a1_ab_apply, log_apply, shapeCast_a_a1_apply,
    shapeCast_a_a1_apply, maxCols_apply, sumCols_apply]
  refine congrArg (fun t => (z (ix2 g c) - rowMax z g) - Ideal.log t) (Finset.sum_congr rfl fun c' _ => ?_)
  rw [exp_apply, subf_apply, broadcastTo_a1_ab_apply, shapeCast_a_a1_apply, maxCols_apply]

end Cert.KernelIdeal.Pay

end
-- ==== Proof.KI.Val012.lean ====
import proofs.«400023_j55559696941219_2_alg».proof.Proof.KI.Reg0
import proofs.«400023_j55559696941219_2_alg».proof.Proof.KI.Reg1
import proofs.«400023_j55559696941219_2_alg».proof.Proof.KI.Reg2
import proofs.«400023_j55559696941219_2_alg».proof.Proof.KPay
import Idealize.ShloMosaic.Lib.Pipeline.Value
import Idealize.ShloMosaic.Lib.ValueIdx
import Idealize.ShloMosaic.Lib.Decide

/-!
The three dense regions' output arrays after their runs, index by index, at the ideal values: each grid point writes
its block of 5000 rows of one function of the region's input arrays, and the ten blocks tile the array.
-/

noncomputable section

open Idealize.ShloMosaic Idealize.ShloMosaic.TcCoe Idealize.SL.Sem
open Idealize.ShloMosaic.ValueIdx
open Idealize.ShloMosaic.Pipeline (Dat)
open scoped BigOperators

namespace Cert.KernelIdeal.Val

open Cert.KernelIdeal Cert.KernelIdeal.Gen Cert.KernelIdeal.Fr Cert.KernelIdeal.Pay

variable (V : (c : Dev nD) → (b : Ref sig .tc) → Buf (Elt Ideal) ((c : Thread nD τ).loc b))

theorem hz : (![0, 0] : Fin 2 → Nat) = fun _ => 0 := funext fun a => by fin_cases a <;> rfl

/-- The arrays the regions read, as the region is entered, at their literal types. -/
abbrev a_arg0 (c : Dev nD) : Vec Ideal S50000x128 .f32 := V c main_arg0
abbrev a_arg3 (c : Dev nD) : Vec Ideal S128x128 .f32 := V c main_arg3
abbrev a_v17 (c : Dev nD) : Vec Ideal S50000x1 .f32 := V c main_v17

/-- Row `5000 T + r` of a `50000`-row array, for a block number `T` below ten. -/
abbrev row (T : ℕ) (hT : T < 10) (r : Fin 5000) : Fin 50000 := ⟨5000 * T + r.val, by have := r.isLt; omega⟩

/-! ## Region 0: the row-scaled product -/

/-- What the output array ends holding: the product of the features with the weights, each row scaled. -/
def G0 (x : Vec Ideal S50000x128 .f32) (w : Vec Ideal S128x128 .f32) (d : Vec Ideal S50000x1 .f32) :
    Vec Ideal S50000x128 .f32 :=
  fun i => (∑ k : Fin 128, x (ix2 (i 0) k) * w (ix2 k (i 1))) * d (ix2 (i 0) (0 : Fin 1))

/-- The printed index maps over the grid: the row-blocked windows sit at block `(t, 0)`, the weights at `(0, 0)`. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The payload of three blocks that are rows `5000 T ..` of the arrays is that block of `G0`. -/
theorem point0 (x : Vec Ideal S50000x128 .f32) (w : Vec Ideal S128x128 .f32) (d : Vec Ideal S50000x1 .f32)
    (b0 : Vec Ideal S5000x128 .f32) (b1 : Vec Ideal S128x128 .f32) (b2 : Vec Ideal S5000x1 .f32) (T : ℕ) (hT : T < 10)
    (h0 : ∀ (r : Fin 5000) (k : Fin 128), b0 (ix2 r k) = x (ix2 (row T hT r) k))
    (h1 : ∀ (k : Fin 128) (f : Fin 128), b1 (ix2 k f) = w (ix2 k f))
    (h2 : ∀ r : Fin 5000, b2 (ix2 r (0 : Fin 1)) = d (ix2 (row T hT r) (0 : Fin 1)))
    (r : Fin 5000) (f : Fin 128) :
    k0_pay1 (F := Ideal) b0 b1 b2 (ix2 r f) = G0 x w d (ix2 (row T hT r) f) := by
  rw [k0_pay1_apply, h2]
  unfold G0
  refine congrArg (· * d (ix2 (row T hT r) (0 : Fin 1))) (Finset.sum_congr rfl fun k _ => ?_)
  rw [h0, h1]

/-- Window 0's block at point `t` is rows `5000 t ..` of the features. -/
theorem iblk0_0_apply (c : Dev nD) (t : Fin cfg0.N) (ht : t.val < 10) (r : Fin 5000) (k : Fin 128) :
    (iblk0 V c 0 t : Vec Ideal S5000x128 .f32) (ix2 r k)
      = (V c main_arg0 : Vec Ideal S50000x128 .f32) (ix2 (row t.val ht r) k) := by
  obtain ⟨e0, e1, -⟩ := idx_facts0 t
  unfold iblk0
  rw [View.read_apply]
  show (V c main_arg0 : Vec Ideal S50000x128 .f32) _ = (V c main_arg0 : Vec Ideal S50000x128 .f32) _
  congr 1
  funext a
  apply Fin.ext
  match a with
  | ⟨0, _⟩ => show win0_0.index t (0 : Fin 2) * 5000 + 1 * r.val = 5000 * t.val + r.val; rw [e0]; omega
  | ⟨1, _⟩ => show win0_0.index t (1 : Fin 2) * 128 + 1 * k.val = k.val; rw [e1]; omega

/-- Window 1's block at every point is the whole weight matrix. -/
theorem iblk0_1_apply (c : Dev nD) (t : Fin cfg0.N) (k : Fin 128) (f : Fin 128) :
    (iblk0 V c 1 t : Vec Ideal S128x128 .f32) (ix2 k f) = (V c main_arg3 : Vec Ideal S128x128 .f32) (ix2 k f) := by
  obtain ⟨-, -, e0, e1, -⟩ := idx_facts0 t
  unfold iblk0
  rw [View.read_apply]
  show (V c main_arg3 : Vec Ideal S128x128 .f32) _ = (V c main_arg3 : Vec Ideal S128x128 .f32) _
  congr 1
  funext a
  apply Fin.ext
  match a with
  | ⟨0, _⟩ => show win0_1.index t (0 : Fin 2) * 128 + 1 * k.val = k.val; rw [e0]; omega
  | ⟨1, _⟩ => show win0_1.index t (1 : Fin 2) * 128 + 1 * f.val = f.val; rw [e1]; omega

/-- Window 2's block at point `t` is rows `5000 t ..` of the normalisation. -/
theorem iblk0_2_apply (c : Dev nD) (t : Fin cfg0.N) (ht : t.val < 10) (r : Fin 5000) :
    (iblk0 V c 2 t : Vec Ideal S5000x1 .f32) (ix2 r (0 : Fin 1))
      = (V c main_v17 : Vec Ideal S50000x1 .f32) (ix2 (row t.val ht r) (0 : Fin 1)) := by
  obtain ⟨-, -, -, -, e0, e1, -⟩ := idx_facts0 t
  unfold iblk0
  rw [View.read_apply]
  show (V c main_v17 : Vec Ideal S50000x1 .f32) _ = (V c main_v17 : Vec Ideal S50000x1 .f32) _
  congr 1
  funext a
  apply Fin.ext
  match a with
  | ⟨0, _⟩ => show win0_2.index t (0 : Fin 2) * 5000 + 1 * r.val = 5000 * t.val + r.val; rw [e0]; omega
  | ⟨1, _⟩ => show win0_2.index t (1 : Fin 2) * 1 + 1 * 0 = 0; rw [e1]

/-- The output block at point `t` lies on rows `5000 t ..` of the output array. -/
theorem emb0_3 (t : Fin cfg0.N) (ht : t.val < 10) (r : Fin 5000) (f : Fin 128) :
    ((cfg0.win 3).blk t).view.emb (ix2 r f) = (ix2 (row t.val ht r) f : S50000x128.Idx) := by
  obtain ⟨-, -, -, -, -, -, e0, e1⟩ := idx_facts0 t
  funext a
  apply Fin.ext
  match a with
  | ⟨0, _⟩ => show win0_3.index t (0 : Fin 2) * 5000 + 1 * r.val = 5000 * t.val + r.val; rw [e0]; omega
  | ⟨1, _⟩ => show win0_3.index t (1 : Fin 2) * 128 + 1 * f.val = f.val; rw [e1]; omega

/-- What point `t` writes back is block `t` of `G0` of the arrays as the region finds them. -/
theorem flushed0_eq (c : Dev nD) (t : Fin cfg0.N) :
    (dat0 V c).flushed 3 t
      = ((cfg0.win 3).blk t).view.read (Elt Ideal) (G0 (V c main_arg0) (V c main_arg3) (V c main_v17)) := by
  have ht : t.val < 10 := by have hN : cfg0.N = 10 := N_0; have := t.isLt; omega
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  funext j
  obtain ⟨r, f, rfl⟩ : ∃ (r : Fin 5000) (f : Fin 128), j = ix2 r f := ⟨j 0, j 1, eq_ix2 j⟩
  rw [View.read_apply]
  show k0_pay1 (F := Ideal) (iblk0 V c 0 t) (iblk0 V c 1 t) (iblk0 V c 2 t) (ix2 r f)
    = G0 (V c main_arg0) (V c main_arg3) (V c main_v17) (((cfg0.win 3).blk t).view.emb (ix2 r f))
  rw [emb0_3 t ht r f]
  exact point0 (V c main_arg0) (V c main_arg3) (V c main_v17) (iblk0 V c 0 t) (iblk0 V c 1 t) (iblk0 V c 2 t) t.val ht
    (iblk0_0_apply V c t ht) (iblk0_1_apply V c t) (iblk0_2_apply V c t ht) r f

/-- An index of the output array is in point `t`'s block iff each coordinate is in the block's range on its axis. -/
theorem mem_blk0_3 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v18).slice (win0_3.rect t)).set ↔ _
  rw [View.set_slice_whole, Rect.mem_set_unit]
  exact Iff.rfl

/-- Every row of the output array is in the block of the point its number divided by 5000 names. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  have htv : t.val = (i 0).val / 5000 := rfl
  obtain ⟨-, -, -, -, -, -, e0, e1⟩ := idx_facts0 t
  refine ⟨t, flush0_3 t, ?_⟩
  rw [mem_blk0_3]
  intro a
  match a with
  | ⟨0, _⟩ => show win0_3.index t (0 : Fin 2) * 5000 ≤ (i 0).val ∧ (i 0).val < win0_3.index t (0 : Fin 2) * 5000 + 5000; rw [e0, htv]; omega
  | ⟨1, _⟩ => show win0_3.index t (1 : Fin 2) * 128 ≤ (i 1).val ∧ (i 1).val < win0_3.index t (1 : Fin 2) * 128 + 128; rw [e1]; omega

/-- The output array after the region: `G0` of the arrays the region is entered from. -/
theorem final0 (c : Dev nD) :
    (dat0 V c).arrAt 3 cfg0.N = G0 (V c main_arg0) (V c main_arg3) (V c main_v17) :=
  (dat0 V c).arrAt_eq_of_cover 3 (G0 (V c main_arg0) (V c main_arg3) (V c main_v17)) (fun t _ => flushed0_eq V c t) cover0

theorem arr0 (c : Dev nD) (n : Fin 50000) (f : Fin 128) :
    ((dat0 V c).arrAt 3 cfg0.N : Vec Ideal S50000x128 .f32) (ix2 n f)
      = (∑ k : Fin 128, a_arg0 V c (ix2 n k) * a_arg3 V c (ix2 k f)) * a_v17 V c (ix2 n (0 : Fin 1)) := by
  rw [final0]
  rfl

/-! ## Regions 1 and 2: bias, `tanh`, product, row scale -/

/-- What the output array of such a region ends holding: `tanh` of the scaled aggregate plus the bias, times the
    weights, each row scaled. -/
def G1 (x : Vec Ideal S50000x128 .f32) (b : Vec Ideal S1x128 .f32) (d : Vec Ideal S50000x1 .f32)
    (w : Vec Ideal S128x128 .f32) : Vec Ideal S50000x128 .f32 :=
  fun i => (∑ k : Fin 128, Ideal.tanh (x (ix2 (i 0) k) * d (ix2 (i 0) (0 : Fin 1)) + b (ix2 (0 : Fin 1) k)) * w (ix2 k (i 1)))
    * d (ix2 (i 0) (0 : Fin 1))

/-- The closed form of the payload on four blocks that are rows `5000 T ..` of the row-blocked arrays, the bias row
    and the weights is that block of `G1`. -/
theorem point12 (x : Vec Ideal S50000x128 .f32) (b : Vec Ideal S1x128 .f32) (d : Vec Ideal S50000x1 .f32)
    (w : Vec Ideal S128x128 .f32)
    (b0 : Vec Ideal S5000x128 .f32) (b1 : Vec Ideal S1x128 .f32) (b2 : Vec Ideal S5000x1 .f32) (b3 : Vec Ideal S128x128 .f32)
    (T : ℕ) (hT : T < 10)
    (h0 : ∀ (r : Fin 5000) (k : Fin 128), b0 (ix2 r k) = x (ix2 (row T hT r) k))
    (h1 : ∀ k : Fin 128, b1 (ix2 (0 : Fin 1) k) = b (ix2 (0 : Fin 1) k))
    (h2 : ∀ r : Fin 5000, b2 (ix2 r (0 : Fin 1)) = d (ix2 (row T hT r) (0 : Fin 1)))
    (h3 : ∀ (k : Fin 128) (f : Fin 128), b3 (ix2 k f) = w (ix2 k f))
    (r : Fin 5000) (f : Fin 128) :
    (∑ k : Fin 128, Ideal.tanh (b0 (ix2 r k) * b2 (ix2 r (0 : Fin 1)) + b1 (ix2 (0 : Fin 1) k)) * b3 (ix2 k f))
        * b2 (ix2 r (0 : Fin 1))
      = G1 x b d w (ix2 (row T hT r) f) := by
  rw [h2]
  unfold G1
  refine congrArg (· * d (ix2 (row T hT r) (0 : Fin 1))) (Finset.sum_congr rfl fun k _ => ?_)
  rw [h0, h1, h3]

/-! ## Region 1 -/

/-- The arrays region 1 reads, as the region is entered, at their literal types. -/
abbrev a_v28 (c : Dev nD) : Vec Ideal S50000x128 .f32 := V c main_v28
abbrev a_v29 (c : Dev nD) : Vec Ideal S1x128 .f32 := V c main_v29
abbrev a_arg5 (c : Dev nD) : Vec Ideal S128x128 .f32 := V c main_arg5

/-- The printed index maps over the grid: the row-blocked windows sit at block `(t, 0)`, the bias and the weights at
    `(0, 0)`. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Window 0's block at point `t` is rows `5000 t ..` of the aggregate. -/
theorem iblk1_0_apply (c : Dev nD) (t : Fin cfg1.N) (ht : t.val < 10) (r : Fin 5000) (k : Fin 128) :
    (iblk1 V c 0 t : Vec Ideal S5000x128 .f32) (ix2 r k)
      = (V c main_v28 : Vec Ideal S50000x128 .f32) (ix2 (row t.val ht r) k) := by
  obtain ⟨e0, e1, -⟩ := idx_facts1 t
  unfold iblk1
  rw [View.read_apply]
  show (V c main_v28 : Vec Ideal S50000x128 .f32) _ = (V c main_v28 : Vec Ideal S50000x128 .f32) _
  congr 1
  funext a
  apply Fin.ext
  match a with
  | ⟨0, _⟩ => show win1_0.index t (0 : Fin 2) * 5000 + 1 * r.val = 5000 * t.val + r.val; rw [e0]; omega
  | ⟨1, _⟩ => show win1_0.index t (1 : Fin 2) * 128 + 1 * k.val = k.val; rw [e1]; omega

/-- Window 1's block at every point is the bias row. -/
theorem iblk1_1_apply (c : Dev nD) (t : Fin cfg1.N) (k : Fin 128) :
    (iblk1 V c 1 t : Vec Ideal S1x128 .f32) (ix2 (0 : Fin 1) k)
      = (V c main_v29 : Vec Ideal S1x128 .f32) (ix2 (0 : Fin 1) k) := by
  obtain ⟨-, -, e0, e1, -⟩ := idx_facts1 t
  unfold iblk1
  rw [View.read_apply]
  show (V c main_v29 : Vec Ideal S1x128 .f32) _ = (V c main_v29 : Vec Ideal S1x128 .f32) _
  congr 1
  funext a
  apply Fin.ext
  match a with
  | ⟨0, _⟩ => show win1_1.index t (0 : Fin 2) * 1 + 1 * 0 = 0; rw [e0]
  | ⟨1, _⟩ => show win1_1.index t (1 : Fin 2) * 128 + 1 * k.val = k.val; rw [e1]; omega

/-- Window 2's block at point `t` is rows `5000 t ..` of the normalisation. -/
theorem iblk1_2_apply (c : Dev nD) (t : Fin cfg1.N) (ht : t.val < 10) (r : Fin 5000) :
    (iblk1 V c 2 t : Vec Ideal S5000x1 .f32) (ix2 r (0 : Fin 1))
      = (V c main_v17 : Vec Ideal S50000x1 .f32) (ix2 (row t.val ht r) (0 : Fin 1)) := by
  obtain ⟨-, -, -, -, e0, e1, -⟩ := idx_facts1 t
  unfold iblk1
  rw [View.read_apply]
  show (V c main_v17 : Vec Ideal S50000x1 .f32) _ = (V c main_v17 : Vec Ideal S50000x1 .f32) _
  congr 1
  funext a
  apply Fin.ext
  match a with
  | ⟨0, _⟩ => show win1_2.index t (0 : Fin 2) * 5000 + 1 * r.val = 5000 * t.val + r.val; rw [e0]; omega
  | ⟨1, _⟩ => show win1_2.index t (1 : Fin 2) * 1 + 1 * 0 = 0; rw [e1]

/-- Window 3's block at every point is the whole weight matrix. -/
theorem iblk1_3_apply (c : Dev nD) (t : Fin cfg1.N) (k : Fin 128) (f : Fin 128) :
    (iblk1 V c 3 t : Vec Ideal S128x128 .f32) (ix2 k f) = (V c main_arg5 : Vec Ideal S128x128 .f32) (ix2 k f) := by
  obtain ⟨-, -, -, -, -, -, e0, e1, -⟩ := idx_facts1 t
  unfold iblk1
  rw [View.read_apply]
  show (V c main_arg5 : Vec Ideal S128x128 .f32) _ = (V c main_arg5 : Vec Ideal S128x128 .f32) _
  congr 1
  funext a
  apply Fin.ext
  match a with
  | ⟨0, _⟩ => show win1_3.index t (0 : Fin 2) * 128 + 1 * k.val = k.val; rw [e0]; omega
  | ⟨1, _⟩ => show win1_3.index t (1 : Fin 2) * 128 + 1 * f.val = f.val; rw [e1]; omega

/-- The output block at point `t` lies on rows `5000 t ..` of the output array. -/
theorem emb1_4 (t : Fin cfg1.N) (ht : t.val < 10) (r : Fin 5000) (f : Fin 128) :
    ((cfg1.win 4).blk t).view.emb (ix2 r f) = (ix2 (row t.val ht r) f : S50000x128.Idx) := by
  obtain ⟨-, -, -, -, -, -, -, -, e0, e1⟩ := idx_facts1 t
  funext a
  apply Fin.ext
  match a with
  | ⟨0, _⟩ => show win1_4.index t (0 : Fin 2) * 5000 + 1 * r.val = 5000 * t.val + r.val; rw [e0]; omega
  | ⟨1, _⟩ => show win1_4.index t (1 : Fin 2) * 128 + 1 * f.val = f.val; rw [e1]; omega

/-- What point `t` writes back is block `t` of `G1` of the arrays as the region finds them. -/
theorem flushed1_eq (c : Dev nD) (t : Fin cfg1.N) :
    (dat1 V c).flushed 4 t
      = ((cfg1.win 4).blk t).view.read (Elt Ideal)
          (G1 (V c main_v28) (V c main_v29) (V c main_v17) (V c main_arg5)) := by
  have ht : t.val < 10 := by have hN : cfg1.N = 10 := N_1; have := t.isLt; omega
  show (cfg1.win 4).cut (grid1.coords t) ((dat1 V c).after 4 t) = _
  rw [after1_4]
  unfold out1_4
  rw [View.canon_unit_zero hz]
  simp only [View.ld_unit_zero (S := S5000x128) hz, View.ld_unit_zero (S := S1x128) hz, View.ld_unit_zero (S := S128x128) hz,
    View.ld_unit_zero (S := S5000x1) hz]
  funext j
  obtain ⟨r, f, rfl⟩ : ∃ (r : Fin 5000) (f : Fin 128), j = ix2 r f := ⟨j 0, j 1, eq_ix2 j⟩
  rw [View.read_apply]
  show k1_pay1 (F := Ideal) (iblk1 V c 0 t) (iblk1 V c 2 t) (iblk1 V c 1 t) (iblk1 V c 3 t) (iblk1 V c 2 t) (ix2 r f)
    = G1 (V c main_v28) (V c main_v29) (V c main_v17) (V c main_arg5) (((cfg1.win 4).blk t).view.emb (ix2 r f))
  rw [emb1_4 t ht r f]
  exact (k1_pay1_apply (iblk1 V c 0 t) (iblk1 V c 2 t) (iblk1 V c 1 t) (iblk1 V c 3 t) (iblk1 V c 2 t) r f).trans
    (point12 (V c main_v28) (V c main_v29) (V c main_v17) (V c main_arg5)
      (iblk1 V c 0 t) (iblk1 V c 1 t) (iblk1 V c 2 t) (iblk1 V c 3 t) t.val ht
      (iblk1_0_apply V c t ht) (iblk1_1_apply V c t) (iblk1_2_apply V c t ht) (iblk1_3_apply V c t) r f)

/-- An index of the output array is in point `t`'s block iff each coordinate is in the block's range on its axis. -/
theorem mem_blk1_4 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v30).slice (win1_4.rect t)).set ↔ _
  rw [View.set_slice_whole, Rect.mem_set_unit]
  exact Iff.rfl

/-- Every row of the output array is in the block of the point its number divided by 5000 names. -/
theorem cover1 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  have htv : t.val = (i 0).val / 5000 := rfl
  obtain ⟨-, -, -, -, -, -, -, -, e0, e1⟩ := idx_facts1 t
  refine ⟨t, flush1_4 t, ?_⟩
  rw [mem_blk1_4]
  intro a
  match a with
  | ⟨0, _⟩ => show win1_4.index t (0 : Fin 2) * 5000 ≤ (i 0).val ∧ (i 0).val < win1_4.index t (0 : Fin 2) * 5000 + 5000; rw [e0, htv]; omega
  | ⟨1, _⟩ => show win1_4.index t (1 : Fin 2) * 128 ≤ (i 1).val ∧ (i 1).val < win1_4.index t (1 : Fin 2) * 128 + 128; rw [e1]; omega

/-- The output array after the region: `G1` of the arrays the region is entered from. -/
theorem final1 (c : Dev nD) :
    (dat1 V c).arrAt 4 cfg1.N = G1 (V c main_v28) (V c main_v29) (V c main_v17) (V c main_arg5) :=
  (dat1 V c).arrAt_eq_of_cover 4 (G1 (V c main_v28) (V c main_v29) (V c main_v17) (V c main_arg5))
    (fun t _ => flushed1_eq V c t) cover1

theorem arr1 (c : Dev nD) (n : Fin 50000) (f : Fin 128) :
    ((dat1 V c).arrAt 4 cfg1.N : Vec Ideal S50000x128 .f32) (ix2 n f)
      = (∑ k : Fin 128, Ideal.tanh (a_v28 V c (ix2 n k) * a_v17 V c (ix2 n (0 : Fin 1)) + a_v29 V c (ix2 (0 : Fin 1) k))
            * a_arg5 V c (ix2 k f))
          * a_v17 V c (ix2 n (0 : Fin 1)) := by
  rw [final1]
  rfl

end Cert.KernelIdeal.Val

end
-- ==== Proof.KI.Val2.lean ====
import proofs.«400023_j55559696941219_2_alg».proof.Proof.KI.Val012

noncomputable section

open Idealize.ShloMosaic Idealize.ShloMosaic.TcCoe Idealize.SL.Sem
open Idealize.ShloMosaic.ValueIdx
open Idealize.ShloMosaic.Pipeline (Dat)
open scoped BigOperators

namespace Cert.KernelIdeal.Val

open Cert.KernelIdeal Cert.KernelIdeal.Gen Cert.KernelIdeal.Fr Cert.KernelIdeal.Pay

variable (V : (c : Dev nD) → (b : Ref sig .tc) → Buf (Elt Ideal) ((c : Thread nD τ).loc b))

/-! ## Region 2 -/

/-- The arrays region 2 reads, as the region is entered, at their literal types. -/
abbrev a_v40 (c : Dev nD) : Vec Ideal S50000x128 .f32 := V c main_v40
abbrev a_v41 (c : Dev nD) : Vec Ideal S1x128 .f32 := V c main_v41
abbrev a_arg7 (c : Dev nD) : Vec Ideal S128x128 .f32 := V c main_arg7

/-- The printed index maps over the grid: the row-blocked windows sit at block `(t, 0)`, the bias and the weights at
    `(0, 0)`. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Window 0's block at point `t` is rows `5000 t ..` of the aggregate. -/
theorem iblk2_0_apply (c : Dev nD) (t : Fin cfg2.N) (ht : t.val < 10) (r : Fin 5000) (k : Fin 128) :
    (iblk2 V c 0 t : Vec Ideal S5000x128 .f32) (ix2 r k)
      = (V c main_v40 : Vec Ideal S50000x128 .f32) (ix2 (row t.val ht r) k) := by
  obtain ⟨e0, e1, -⟩ := idx_facts2 t
  unfold iblk2
  rw [View.read_apply]
  show (V c main_v40 : Vec Ideal S50000x128 .f32) _ = (V c main_v40 : Vec Ideal S50000x128 .f32) _
  congr 1
  funext a
  apply Fin.ext
  match a with
  | ⟨0, _⟩ => show win2_0.index t (0 : Fin 2) * 5000 + 1 * r.val = 5000 * t.val + r.val; rw [e0]; omega
  | ⟨1, _⟩ => show win2_0.index t (1 : Fin 2) * 128 + 1 * k.val = k.val; rw [e1]; omega

/-- Window 1's block at every point is the bias row. -/
theorem iblk2_1_apply (c : Dev nD) (t : Fin cfg2.N) (k : Fin 128) :
    (iblk2 V c 1 t : Vec Ideal S1x128 .f32) (ix2 (0 : Fin 1) k)
      = (V c main_v41 : Vec Ideal S1x128 .f32) (ix2 (0 : Fin 1) k) := by
  obtain ⟨-, -, e0, e1, -⟩ := idx_facts2 t
  unfold iblk2
  rw [View.read_apply]
  show (V c main_v41 : Vec Ideal S1x128 .f32) _ = (V c main_v41 : Vec Ideal S1x128 .f32) _
  congr 1
  funext a
  apply Fin.ext
  match a with
  | ⟨0, _⟩ => show win2_1.index t (0 : Fin 2) * 1 + 1 * 0 = 0; rw [e0]
  | ⟨1, _⟩ => show win2_1.index t (1 : Fin 2) * 128 + 1 * k.val = k.val; rw [e1]; omega

/-- Window 2's block at point `t` is rows `5000 t ..` of the normalisation. -/
theorem iblk2_2_apply (c : Dev nD) (t : Fin cfg2.N) (ht : t.val < 10) (r : Fin 5000) :
    (iblk2 V c 2 t : Vec Ideal S5000x1 .f32) (ix2 r (0 : Fin 1))
      = (V c main_v17 : Vec Ideal S50000x1 .f32) (ix2 (row t.val ht r) (0 : Fin 1)) := by
  obtain ⟨-, -, -, -, e0, e1, -⟩ := idx_facts2 t
  unfold iblk2
  rw [View.read_apply]
  show (V c main_v17 : Vec Ideal S50000x1 .f32) _ = (V c main_v17 : Vec Ideal S50000x1 .f32) _
  congr 1
  funext a
  apply Fin.ext
  match a with
  | ⟨0, _⟩ => show win2_2.index t (0 : Fin 2) * 5000 + 1 * r.val = 5000 * t.val + r.val; rw [e0]; omega
  | ⟨1, _⟩ => show win2_2.index t (1 : Fin 2) * 1 + 1 * 0 = 0; rw [e1]

/-- Window 3's block at every point is the whole weight matrix. -/
theorem iblk2_3_apply (c : Dev nD) (t : Fin cfg2.N) (k : Fin 128) (f : Fin 128) :
    (iblk2 V c 3 t : Vec Ideal S128x128 .f32) (ix2 k f) = (V c main_arg7 : Vec Ideal S128x128 .f32) (ix2 k f) := by
  obtain ⟨-, -, -, -, -, -, e0, e1, -⟩ := idx_facts2 t
  unfold iblk2
  rw [View.read_apply]
  show (V c main_arg7 : Vec Ideal S128x128 .f32) _ = (V c main_arg7 : Vec Ideal S128x128 .f32) _
  congr 1
  funext a
  apply Fin.ext
  match a with
  | ⟨0, _⟩ => show win2_3.index t (0 : Fin 2) * 128 + 1 * k.val = k.val; rw [e0]; omega
  | ⟨1, _⟩ => show win2_3.index t (1 : Fin 2) * 128 + 1 * f.val = f.val; rw [e1]; omega

/-- The output block at point `t` lies on rows `5000 t ..` of the output array. -/
theorem emb2_4 (t : Fin cfg2.N) (ht : t.val < 10) (r : Fin 5000) (f : Fin 128) :
    ((cfg2.win 4).blk t).view.emb (ix2 r f) = (ix2 (row t.val ht r) f : S50000x128.Idx) := by
  obtain ⟨-, -, -, -, -, -, -, -, e0, e1⟩ := idx_facts2 t
  funext a
  apply Fin.ext
  match a with
  | ⟨0, _⟩ => show win2_4.index t (0 : Fin 2) * 5000 + 1 * r.val = 5000 * t.val + r.val; rw [e0]; omega
  | ⟨1, _⟩ => show win2_4.index t (1 : Fin 2) * 128 + 1 * f.val = f.val; rw [e1]; omega

/-- What point `t` writes back is block `t` of `G1` of the arrays as the region finds them. -/
theorem flushed2_eq (c : Dev nD) (t : Fin cfg2.N) :
    (dat2 V c).flushed 4 t
      = ((cfg2.win 4).blk t).view.read (Elt Ideal)
          (G1 (V c main_v40) (V c main_v41) (V c main_v17) (V c main_arg7)) := by
  have ht : t.val < 10 := by have hN : cfg2.N = 10 := N_2; have := t.isLt; omega
  show (cfg2.win 4).cut (grid2.coords t) ((dat2 V c).after 4 t) = _
  rw [after2_4]
  unfold out2_4
  rw [View.canon_unit_zero hz]
  simp only [View.ld_unit_zero (S := S5000x128) hz, View.ld_unit_zero (S := S1x128) hz, View.ld_unit_zero (S := S128x128) hz,
    View.ld_unit_zero (S := S5000x1) hz]
  funext j
  obtain ⟨r, f, rfl⟩ : ∃ (r : Fin 5000) (f : Fin 128), j = ix2 r f := ⟨j 0, j 1, eq_ix2 j⟩
  rw [View.read_apply]
  show k2_pay1 (F := Ideal) (iblk2 V c 0 t) (iblk2 V c 2 t) (iblk2 V c 1 t) (iblk2 V c 3 t) (iblk2 V c 2 t) (ix2 r f)
    = G1 (V c main_v40) (V c main_v41) (V c main_v17) (V c main_arg7) (((cfg2.win 4).blk t).view.emb (ix2 r f))
  rw [emb2_4 t ht r f]
  exact (k2_pay1_apply (iblk2 V c 0 t) (iblk2 V c 2 t) (iblk2 V c 1 t) (iblk2 V c 3 t) (iblk2 V c 2 t) r f).trans
    (point12 (V c main_v40) (V c main_v41) (V c main_v17) (V c main_arg7)
      (iblk2 V c 0 t) (iblk2 V c 1 t) (iblk2 V c 2 t) (iblk2 V c 3 t) t.val ht
      (iblk2_0_apply V c t ht) (iblk2_1_apply V c t) (iblk2_2_apply V c t ht) (iblk2_3_apply V c t) r f)

/-- An index of the output array is in point `t`'s block iff each coordinate is in the block's range on its axis. -/
theorem mem_blk2_4 (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v42).slice (win2_4.rect t)).set ↔ _
  rw [View.set_slice_whole, Rect.mem_set_unit]
  exact Iff.rfl

/-- Every row of the output array is in the block of the point its number divided by 5000 names. -/
theorem cover2 (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  have htv : t.val = (i 0).val / 5000 := rfl
  obtain ⟨-, -, -, -, -, -, -, -, e0, e1⟩ := idx_facts2 t
  refine ⟨t, flush2_4 t, ?_⟩
  rw [mem_blk2_4]
  intro a
  match a with
  | ⟨0, _⟩ => show win2_4.index t (0 : Fin 2) * 5000 ≤ (i 0).val ∧ (i 0).val < win2_4.index t (0 : Fin 2) * 5000 + 5000; rw [e0, htv]; omega
  | ⟨1, _⟩ => show win2_4.index t (1 : Fin 2) * 128 ≤ (i 1).val ∧ (i 1).val < win2_4.index t (1 : Fin 2) * 128 + 128; rw [e1]; omega

/-- The output array after the region: `G1` of the arrays the region is entered from. -/
theorem final2 (c : Dev nD) :
    (dat2 V c).arrAt 4 cfg2.N = G1 (V c main_v40) (V c main_v41) (V c main_v17) (V c main_arg7) :=
  (dat2 V c).arrAt_eq_of_cover 4 (G1 (V c main_v40) (V c main_v41) (V c main_v17) (V c main_arg7))
    (fun t _ => flushed2_eq V c t) cover2

theorem arr2 (c : Dev nD) (n : Fin 50000) (f : Fin 128) :
    ((dat2 V c).arrAt 4 cfg2.N : Vec Ideal S50000x128 .f32) (ix2 n f)
      = (∑ k : Fin 128, Ideal.tanh (a_v40 V c (ix2 n k) * a_v17 V c (ix2 n (0 : Fin 1)) + a_v41 V c (ix2 (0 : Fin 1) k))
            * a_arg7 V c (ix2 k f))
          * a_v17 V c (ix2 n (0 : Fin 1)) := by
  rw [final2]
  rfl

end Cert.KernelIdeal.Val

end
-- ==== Proof.LibSumBlocks.lean ====
/- A sum over a flat row-major index is the nested sum over its coordinates. -/
import Mathlib.Data.Fintype.BigOperators
import Mathlib.Logic.Equiv.Fin.Basic

/-- The row-major position of the pair `(a, b)` in an `m × n` grid lies below `m * n`. -/
theorem Fin.rowMajor_lt {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right n a.isLt

/-- Two axes: a sum over the flat index of an `m × n` grid is the sum over the rows of the sums along each row.
    The pairs `(a, b)` are in bijection with the flat positions `a * n + b`, and a sum over pairs is an iterated sum. -/
theorem Fin.sum_rowMajor2 {M : Type*} [AddCommMonoid M] (m n : ℕ) (f : Fin (m * n) → M) :
    ∑ e, f e = ∑ a : Fin m, ∑ b : Fin n, f ⟨a.val * n + b.val, Fin.rowMajor_lt a b⟩ := by
  rw [← Fintype.sum_prod_type' (f := fun (a : Fin m) (b : Fin n) => f ⟨a.val * n + b.val, Fin.rowMajor_lt a b⟩)]
  exact (Fintype.sum_equiv finProdFinEquiv (fun p : Fin m × Fin n => f ⟨p.1.val * n + p.2.val, Fin.rowMajor_lt p.1 p.2⟩) f
    (fun p => congrArg f (Fin.ext (by simp [Nat.mul_comm, Nat.add_comm])))).symm

/-- Four axes: a sum over the flat row-major index of an `n0 × n1 × n2 × n3` grid is the nested sum over its four
    coordinates, the last axis innermost — the two-axis statement applied to the last axis, then to the third, then to
    the second. -/
theorem Fin.sum_rowMajor4 {M : Type*} [AddCommMonoid M] (n0 n1 n2 n3 : ℕ) (f : Fin (n0 * n1 * n2 * n3) → M) :
    ∑ e, f e = ∑ a : Fin n0, ∑ b : Fin n1, ∑ c : Fin n2, ∑ d : Fin n3,
      f ⟨((a.val * n1 + b.val) * n2 + c.val) * n3 + d.val,
        Fin.rowMajor_lt (⟨(a.val * n1 + b.val) * n2 + c.val,
          Fin.rowMajor_lt (⟨a.val * n1 + b.val, Fin.rowMajor_lt a b⟩ : Fin (n0 * n1)) c⟩ : Fin (n0 * n1 * n2)) d⟩ :=
  (Fin.sum_rowMajor2 (n0 * n1 * n2) n3 f).trans <|
  (Fin.sum_rowMajor2 (n0 * n1) n2 (fun x => ∑ d : Fin n3, f ⟨x.val * n3 + d.val, Fin.rowMajor_lt x d⟩)).trans <|
  Fin.sum_rowMajor2 n0 n1 (fun y => ∑ c : Fin n2, ∑ d : Fin n3,
    f ⟨(y.val * n2 + c.val) * n3 + d.val, Fin.rowMajor_lt (⟨y.val * n2 + c.val, Fin.rowMajor_lt y c⟩ : Fin (n0 * n1 * n2)) d⟩)

/-- The instance used for the edge arrays: 3200000 = 2 · 2 · 6250 · 128 entries, read as two halves of two blocks of
    6250 rows of 128 lanes. -/
theorem sum_flat_2x2x6250x128 {M : Type*} [AddCommMonoid M] (f : Fin 3200000 → M) :
    ∑ e, f e = ∑ a : Fin 2, ∑ b : Fin 2, ∑ r : Fin 6250, ∑ l : Fin 128,
      f ⟨((a.val * 2 + b.val) * 6250 + r.val) * 128 + l.val, by omega⟩ :=
  Fin.sum_rowMajor4 2 2 6250 128 f
-- ==== Proof.KI.Val3.lean ====
import proofs.«400023_j55559696941219_2_alg».proof.Proof.KI.Reg3
import proofs.«400023_j55559696941219_2_alg».proof.Proof.KPay
import proofs.«400023_j55559696941219_2_alg».proof.Proof.LibSumBlocks
import Idealize.ShloMosaic.Lib.Pipeline.Value
import Idealize.ShloMosaic.Lib.ValueIdx
import Idealize.ShloMosaic.Lib.Decide

/-!
The pooling region's output array after its run, at the ideal values. The region's 50 grid points each read 1000 rows
of the aggregate, the normalisation and the graph ids. After point n the running sums hold, for every group g and
column e, the sum over the rows below 1000 (n + 1) whose graph id is g of (aggregate x normalisation + bias), and the
running counts the number of such rows: by induction on the point. After the last point these are sums over all 50000
rows. The output window's one block is the whole output array and is written back at the last point only, so the array
ends holding the classifier's payload of the final counts and sums.
-/

noncomputable section

open Idealize.ShloMosaic Idealize.ShloMosaic.TcCoe Idealize.SL.Sem
open Idealize.ShloMosaic.ValueIdx
open Idealize.ShloMosaic.Pipeline (Dat)
open scoped BigOperators

namespace Cert.KernelIdeal.Val

open Cert.KernelIdeal Cert.KernelIdeal.Gen Cert.KernelIdeal.Fr Cert.KernelIdeal.Pay

variable (V : (c : Dev nD) → (b : Ref sig .tc) → Buf (Elt Ideal) ((c : Thread nD τ).loc b))

/-- The arrays the region reads, as the region is entered, at their literal types. -/
abbrev a3_v52 (c : Dev nD) : Vec Ideal S50000x128 .f32 := V c main_v52
abbrev a3_v54 (c : Dev nD) : Vec Ideal S1x128 .f32 := V c main_v54
abbrev a3_v17 (c : Dev nD) : Vec Ideal S50000x1 .f32 := V c main_v17
abbrev a3_v53 (c : Dev nD) : Vec Ideal S50000x1 .i32 := V c main_v53
abbrev a3_arg9 (c : Dev nD) : Vec Ideal S128x10 .f32 := V c main_arg9
abbrev a3_v55 (c : Dev nD) : Vec Ideal S1x10 .f32 := V c main_v55

/-- Row T * 1000 + r of a 50000-row array, for a block number T below fifty. -/
abbrev row3 (T : ℕ) (hT : T < 50) (r : Fin 1000) : Fin 50000 := ⟨T * 1000 + r.val, by have := r.isLt; omega⟩

/-! ## What the region computes -/

/-- The pooled sums: for group (j 0) and column (j 1), the sum over all rows whose graph id is the group of
    aggregate x normalisation + bias. -/
def sumAll (agg : Vec Ideal S50000x128 .f32) (d : Vec Ideal S50000x1 .f32) (b : Vec Ideal S1x128 .f32)
    (ids : Vec Ideal S50000x1 .i32) : Vec Ideal S512x128 .f32 :=
  fun j => ∑ n : Fin 50000, oh (ids (ix2 n (0 : Fin 1))) (j 0) * (agg (ix2 n (j 1)) * d (ix2 n (0 : Fin 1)) + b (ix2 (0 : Fin 1) (j 1)))

/-- The group sizes: for group (j 1), the number of rows whose graph id is the group. -/
def cntAll (ids : Vec Ideal S50000x1 .i32) : Vec Ideal S1x512 .f32 :=
  fun j => ∑ n : Fin 50000, oh (ids (ix2 n (0 : Fin 1))) (j 1)

/-- Row i's term of the pooled sum when i is a row of the arrays, zero otherwise. -/
def sumRow (agg : Vec Ideal S50000x128 .f32) (d : Vec Ideal S50000x1 .f32) (b : Vec Ideal S1x128 .f32)
    (ids : Vec Ideal S50000x1 .i32) (g : Fin 512) (e : Fin 128) (i : ℕ) : EReal :=
  if h : i < 50000 then
    oh (ids (ix2 (⟨i, h⟩ : Fin 50000) (0 : Fin 1))) g * (agg (ix2 (⟨i, h⟩ : Fin 50000) e) * d (ix2 (⟨i, h⟩ : Fin 50000) (0 : Fin 1)) + b (ix2 (0 : Fin 1) e))
  else 0

/-- Row i's term of the group size when i is a row of the arrays, zero otherwise. -/
def cntRow (ids : Vec Ideal S50000x1 .i32) (g : Fin 512) (i : ℕ) : EReal :=
  if h : i < 50000 then oh (ids (ix2 (⟨i, h⟩ : Fin 50000) (0 : Fin 1))) g else 0

/-! ## The windows' blocks as rows of the arrays -/

/-- The printed index maps over the grid: the row-blocked windows sit at block (t, 0), the constant ones at (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

theorem lt50 (t : Fin cfg3.N) : t.val < 50 := lt_of_lt_of_eq t.isLt (show cfg3.N = 50 from N_3)

/-- Window 0's block at point t is rows 1000 t .. of the aggregate. -/
theorem agg3_apply (c : Dev nD) (t : Fin cfg3.N) (r : Fin 1000) (e : Fin 128) :
    agg3 V c t (ix2 r e) = a3_v52 V c (ix2 (row3 t.val (lt50 t) r) e) := by
  obtain ⟨e0, e1, -⟩ := idx_facts3 t
  show (iblk3 V c 0 t : Vec Ideal S1000x128 .f32) (ix2 r e) = _
  unfold iblk3
  rw [View.read_apply]
  show (V c main_v52 : Vec Ideal S50000x128 .f32) _ = (V c main_v52 : Vec Ideal S50000x128 .f32) _
  congr 1
  funext a
  apply Fin.ext
  match a with
  | ⟨0, _⟩ => show win3_0.index t (0 : Fin 2) * 1000 + 1 * r.val = t.val * 1000 + r.val; rw [e0]; omega
  | ⟨1, _⟩ => show win3_0.index t (1 : Fin 2) * 128 + 1 * e.val = e.val; rw [e1]; omega

/-- Window 1's block at every point is the whole bias row. -/
theorem bias3_apply (c : Dev nD) (t : Fin cfg3.N) (e : Fin 128) :
    bias3 V c t (ix2 (0 : Fin 1) e) = a3_v54 V c (ix2 (0 : Fin 1) e) := by
  obtain ⟨-, -, e0, e1, -⟩ := idx_facts3 t
  show (iblk3 V c 1 t : Vec Ideal S1x128 .f32) (ix2 (0 : Fin 1) e) = _
  unfold iblk3
  rw [View.read_apply]
  show (V c main_v54 : Vec Ideal S1x128 .f32) _ = (V c main_v54 : Vec Ideal S1x128 .f32) _
  congr 1
  funext a
  apply Fin.ext
  match a with
  | ⟨0, _⟩ => show win3_1.index t (0 : Fin 2) * 1 + 1 * 0 = 0; rw [e0]
  | ⟨1, _⟩ => show win3_1.index t (1 : Fin 2) * 128 + 1 * e.val = e.val; rw [e1]; omega

/-- Window 2's block at point t is rows 1000 t .. of the normalisation. -/
theorem dis3_apply (c : Dev nD) (t : Fin cfg3.N) (r : Fin 1000) :
    dis3 V c t (ix2 r (0 : Fin 1)) = a3_v17 V c (ix2 (row3 t.val (lt50 t) r) (0 : Fin 1)) := by
  obtain ⟨-, -, -, -, e0, e1, -⟩ := idx_facts3 t
  show (iblk3 V c 2 t : Vec Ideal S1000x1 .f32) (ix2 r (0 : Fin 1)) = _
  unfold iblk3
  rw [View.read_apply]
  show (V c main_v17 : Vec Ideal S50000x1 .f32) _ = (V c main_v17 : Vec Ideal S50000x1 .f32) _
  congr 1
  funext a
  apply Fin.ext
  match a with
  | ⟨0, _⟩ => show win3_2.index t (0 : Fin 2) * 1000 + 1 * r.val = t.val * 1000 + r.val; rw [e0]; omega
  | ⟨1, _⟩ => show win3_2.index t (1 : Fin 2) * 1 + 1 * 0 = 0; rw [e1]

/-- Window 3's block at point t is rows 1000 t .. of the graph ids. -/
theorem ids3_apply (c : Dev nD) (t : Fin cfg3.N) (r : Fin 1000) :
    ids3 V c t (ix2 r (0 : Fin 1)) = a3_v53 V c (ix2 (row3 t.val (lt50 t) r) (0 : Fin 1)) := by
  obtain ⟨-, -, -, -, -, -, e0, e1, -⟩ := idx_facts3 t
  show (iblk3 V c 3 t : Vec Ideal S1000x1 .i32) (ix2 r (0 : Fin 1)) = _
  unfold iblk3
  rw [View.read_apply]
  show (V c main_v53 : Vec Ideal S50000x1 .i32) _ = (V c main_v53 : Vec Ideal S50000x1 .i32) _
  congr 1
  funext a
  apply Fin.ext
  match a with
  | ⟨0, _⟩ => show win3_3.index t (0 : Fin 2) * 1000 + 1 * r.val = t.val * 1000 + r.val; rw [e0]; omega
  | ⟨1, _⟩ => show win3_3.index t (1 : Fin 2) * 1 + 1 * 0 = 0; rw [e1]

/-- Window 4's block at every point is the whole weight matrix. -/
theorem wout3_eq (c : Dev nD) (t : Fin cfg3.N) : wout3 V c t = a3_arg9 V c := by
  obtain ⟨-, -, -, -, -, -, -, -, e0, e1, -⟩ := idx_facts3 t
  funext j
  obtain ⟨k, f, rfl⟩ : ∃ (k : Fin 128) (f : Fin 10), j = ix2 k f := ⟨j 0, j 1, eq_ix2 j⟩
  show (iblk3 V c 4 t : Vec Ideal S128x10 .f32) (ix2 k f) = _
  unfold iblk3
  rw [View.read_apply]
  show (V c main_arg9 : Vec Ideal S128x10 .f32) _ = (V c main_arg9 : Vec Ideal S128x10 .f32) _
  congr 1
  funext a
  apply Fin.ext
  match a with
  | ⟨0, _⟩ => show win3_4.index t (0 : Fin 2) * 128 + 1 * k.val = k.val; rw [e0]; omega
  | ⟨1, _⟩ => show win3_4.index t (1 : Fin 2) * 10 + 1 * f.val = f.val; rw [e1]; omega

/-- Window 5's block at every point is the whole bias row of the classifier. -/
theorem bout3_eq (c : Dev nD) (t : Fin cfg3.N) : bout3 V c t = a3_v55 V c := by
  obtain ⟨-, -, -, -, -, -, -, -, -, -, e0, e1, -⟩ := idx_facts3 t
  funext j
  obtain ⟨k, f, rfl⟩ : ∃ (k : Fin 1) (f : Fin 10), j = ix2 k f := ⟨j 0, j 1, eq_ix2 j⟩
  show (iblk3 V c 5 t : Vec Ideal S1x10 .f32) (ix2 k f) = _
  unfold iblk3
  rw [View.read_apply]
  show (V c main_v55 : Vec Ideal S1x10 .f32) _ = (V c main_v55 : Vec Ideal S1x10 .f32) _
  congr 1
  funext a
  apply Fin.ext
  match a with
  | ⟨0, _⟩ => show win3_5.index t (0 : Fin 2) * 1 + 1 * k.val = k.val; rw [e0]; omega
  | ⟨1, _⟩ => show win3_5.index t (1 : Fin 2) * 10 + 1 * f.val = f.val; rw [e1]; omega

/-! ## One point's update, row by row -/

/-- Point t's term for its row r is row (1000 t + r)'s term of the pooled sum. -/
theorem point_sum (c : Dev nD) (t : Fin cfg3.N) (g : Fin 512) (e : Fin 128) (r : Fin 1000) :
    oh (ids3 V c t (ix2 r (0 : Fin 1))) g * (agg3 V c t (ix2 r e) * dis3 V c t (ix2 r (0 : Fin 1)) + bias3 V c t (ix2 (0 : Fin 1) e))
      = sumRow (a3_v52 V c) (a3_v17 V c) (a3_v54 V c) (a3_v53 V c) g e (t.val * 1000 + r.val) := by
  have ht := lt50 t
  have hlt : t.val * 1000 + r.val < 50000 := by have := r.isLt; omega
  unfold sumRow
  rw [dif_pos hlt, ids3_apply V c t r, agg3_apply V c t r e, dis3_apply V c t r, bias3_apply V c t e]

/-- Point t's term for its row r is row (1000 t + r)'s term of the group size. -/
theorem point_cnt (c : Dev nD) (t : Fin cfg3.N) (g : Fin 512) (r : Fin 1000) :
    oh (ids3 V c t (ix2 r (0 : Fin 1))) g = cntRow (a3_v53 V c) g (t.val * 1000 + r.val) := by
  have ht := lt50 t
  have hlt : t.val * 1000 + r.val < 50000 := by have := r.isLt; omega
  unfold cntRow
  rw [dif_pos hlt, ids3_apply V c t r]

/-! ## The scratch buffers after each point -/

/-- THE INVARIANT, sums: after point n the running sums hold the rows of points 0 .. n. -/
theorem sums_inv (c : Dev nD) (g : Fin 512) (e : Fin 128) : ∀ (n : ℕ) (hn : n < cfg3.N),
    (scrAt3 V c n hn).1 (ix2 g e)
      = ∑ t' ∈ Finset.range (n + 1), ∑ r : Fin 1000, sumRow (a3_v52 V c) (a3_v17 V c) (a3_v54 V c) (a3_v53 V c) g e (t' * 1000 + r.val)
  | 0, hn => by
    show k3_pay5 (F := Ideal) (agg3 V c ⟨0, hn⟩) (dis3 V c ⟨0, hn⟩) (bias3 V c ⟨0, hn⟩) (ids3 V c ⟨0, hn⟩) (k3_pay2 (F := Ideal)) (ix2 g e) = _
    rw [k3_pay5_apply, k3_pay2_apply, zero_add, Finset.sum_range_one]
    exact Finset.sum_congr rfl fun r _ => point_sum V c ⟨0, hn⟩ g e r
  | n + 1, hn => by
    show k3_pay5 (F := Ideal) (agg3 V c ⟨n + 1, hn⟩) (dis3 V c ⟨n + 1, hn⟩) (bias3 V c ⟨n + 1, hn⟩) (ids3 V c ⟨n + 1, hn⟩)
      (scrAt3 V c n (Nat.lt_of_succ_lt hn)).1 (ix2 g e) = _
    rw [k3_pay5_apply, sums_inv c g e n (Nat.lt_of_succ_lt hn)]
    refine Eq.trans ?_ (Finset.sum_range_succ (fun t' => ∑ r : Fin 1000, sumRow (a3_v52 V c) (a3_v17 V c) (a3_v54 V c) (a3_v53 V c) g e (t' * 1000 + r.val)) (n + 1)).symm
    exact congrArg (_ + ·) (Finset.sum_congr rfl fun r _ => point_sum V c ⟨n + 1, hn⟩ g e r)

/-- THE INVARIANT, counts: after point n the running counts hold the rows of points 0 .. n. -/
theorem counts_inv (c : Dev nD) (g : Fin 512) : ∀ (n : ℕ) (hn : n < cfg3.N),
    (scrAt3 V c n hn).2 (ix2 (0 : Fin 1) g)
      = ∑ t' ∈ Finset.range (n + 1), ∑ r : Fin 1000, cntRow (a3_v53 V c) g (t' * 1000 + r.val)
  | 0, hn => by
    show k3_pay6 (F := Ideal) (ids3 V c ⟨0, hn⟩) (k3_pay3 (F := Ideal)) (ix2 (0 : Fin 1) g) = _
    rw [k3_pay6_apply, k3_pay3_apply, zero_add, Finset.sum_range_one]
    exact Finset.sum_congr rfl fun r _ => point_cnt V c ⟨0, hn⟩ g r
  | n + 1, hn => by
    show k3_pay6 (F := Ideal) (ids3 V c ⟨n + 1, hn⟩) (scrAt3 V c n (Nat.lt_of_succ_lt hn)).2 (ix2 (0 : Fin 1) g) = _
    rw [k3_pay6_apply, counts_inv c g n (Nat.lt_of_succ_lt hn)]
    refine Eq.trans ?_ (Finset.sum_range_succ (fun t' => ∑ r : Fin 1000, cntRow (a3_v53 V c) g (t' * 1000 + r.val)) (n + 1)).symm
    exact congrArg (_ + ·) (Finset.sum_congr rfl fun r _ => point_cnt V c ⟨n + 1, hn⟩ g r)

/-- A sum over the 50 points of the sums over each point's 1000 rows is the sum over the 50000 rows. -/
theorem sum_points_rows (f : ℕ → EReal) :
    ∑ t' ∈ Finset.range 50, ∑ r : Fin 1000, f (t' * 1000 + r.val) = ∑ n : Fin 50000, f n.val := by
  rw [Finset.sum_range (fun t' => ∑ r : Fin 1000, f (t' * 1000 + r.val))]
  exact (Fin.sum_rowMajor2 50 1000 (fun x : Fin (50 * 1000) => f x.val)).symm

/-- The last point. -/
abbrev t3_49 : Fin cfg3.N := ⟨49, by rw [show cfg3.N = 50 from N_3]; decide⟩

/-- After the last point the running sums are the pooled sums over all rows. -/
theorem sums_last (c : Dev nD) :
    (scrAt3 V c 49 t3_49.isLt).1 = sumAll (V c main_v52) (V c main_v17) (V c main_v54) (V c main_v53) := by
  funext j
  obtain ⟨g, e, rfl⟩ : ∃ (g : Fin 512) (e : Fin 128), j = ix2 g e := ⟨j 0, j 1, eq_ix2 j⟩
  rw [sums_inv V c g e 49 t3_49.isLt, sum_points_rows]
  exact Finset.sum_congr rfl fun n _ => dif_pos n.isLt

/-- After the last point the running counts are the group sizes over all rows. -/
theorem counts_last (c : Dev nD) :
    (scrAt3 V c 49 t3_49.isLt).2 = cntAll (V c main_v53) := by
  funext j
  obtain ⟨z, g, rfl⟩ : ∃ (z : Fin 1) (g : Fin 512), j = ix2 z g := ⟨j 0, j 1, eq_ix2 j⟩
  obtain rfl : z = 0 := Subsingleton.elim _ _
  rw [counts_inv V c g 49 t3_49.isLt, sum_points_rows]
  exact Finset.sum_congr rfl fun n _ => dif_pos n.isLt

/-! ## The output array -/

/-- What the output array ends holding: the classifier's payload of the group sizes, the pooled sums, the weights
    and the bias. -/
abbrev G3 (c : Dev nD) : Vec Ideal S512x10 .f32 :=
  k3_pay1 (F := Ideal) (cntAll (V c main_v53)) (sumAll (V c main_v52) (V c main_v17) (V c main_v54) (V c main_v53)) (V c main_arg9) (V c main_v55)

/-- What the output's staging buffer holds after the last point. -/
theorem after_last3 (c : Dev nD) : (dat3 V c).after 6 t3_49 = G3 V c := by
  rw [after3_6]
  show k3_pay1 (F := Ideal) (scrAt3 V c 49 t3_49.isLt).2 (scrAt3 V c 49 t3_49.isLt).1 (wout3 V c t3_49) (bout3 V c t3_49) = _
  rw [sums_last, counts_last, wout3_eq, bout3_eq]

/-- The output block lies on the whole output array. -/
theorem emb3_6 (t : Fin cfg3.N) (g : Fin 512) (k : Fin 10) :
    ((cfg3.win 6).blk t).view.emb (ix2 g k) = (ix2 g k : S512x10.Idx) := by
  obtain ⟨-, -, -, -, -, -, -, -, -, -, -, -, e0, e1⟩ := idx_facts3 t
  funext a
  apply Fin.ext
  match a with
  | ⟨0, _⟩ => show win3_6.index t (0 : Fin 2) * 512 + 1 * g.val = g.val; rw [e0]; omega
  | ⟨1, _⟩ => show win3_6.index t (1 : Fin 2) * 10 + 1 * k.val = k.val; rw [e1]; omega

/-- The one write-back, at the last point, writes the whole of G3. -/
theorem flushed3_eq (c : Dev nD) (t : Fin cfg3.N) (hf : (cfg3.win 6).flush t = true) :
    (dat3 V c).flushed 6 t = ((cfg3.win 6).blk t).view.read (Elt Ideal) (G3 V c) := by
  have h49 : t.val = 49 := by have := (flush3_6 t).mp hf; have := lt50 t; omega
  obtain rfl : t = t3_49 := Fin.ext h49
  show (cfg3.win 6).cut (grid3.coords t3_49) ((dat3 V c).after 6 t3_49) = _
  rw [after_last3]
  funext j
  obtain ⟨g, k, rfl⟩ : ∃ (g : Fin 512) (k : Fin 10), j = ix2 g k := ⟨j 0, j 1, eq_ix2 j⟩
  rw [View.read_apply]
  show G3 V c (ix2 g k) = G3 V c (((cfg3.win 6).blk t3_49).view.emb (ix2 g k))
  rw [emb3_6 t3_49 g k]

/-- An index of the output array is in point t's block iff each coordinate is in the block's range on its axis. -/
theorem mem_blk3_6 (t : Fin cfg3.N) (i : S512x10.Idx) :
    i ∈ ((cfg3.win 6).blk t).view.set ↔ ∀ a : Fin 2, win3_6.index t a * S512x10.size a ≤ (i a).val ∧ (i a).val < win3_6.index t a * S512x10.size a + S512x10.size a := by
  show i ∈ ((View.whole main_v56).slice (win3_6.rect t)).set ↔ _
  rw [View.set_slice_whole, Rect.mem_set_unit]
  exact Iff.rfl

/-- Every index of the output array is in the last point's block. -/
theorem cover3 (i : S512x10.Idx) :
    ∃ t : Fin cfg3.N, (cfg3.win 6).flush t = true ∧ i ∈ ((cfg3.win 6).blk t).view.set := by
  have hi0 : (i 0).val < 512 := (i 0).isLt
  have hi1 : (i 1).val < 10 := (i 1).isLt
  obtain ⟨-, -, -, -, -, -, -, -, -, -, -, -, e0, e1⟩ := idx_facts3 t3_49
  refine ⟨t3_49, (flush3_6 t3_49).mpr rfl, ?_⟩
  rw [mem_blk3_6]
  intro a
  match a with
  | ⟨0, _⟩ => show win3_6.index t3_49 (0 : Fin 2) * 512 ≤ (i 0).val ∧ (i 0).val < win3_6.index t3_49 (0 : Fin 2) * 512 + 512; rw [e0]; omega
  | ⟨1, _⟩ => show win3_6.index t3_49 (1 : Fin 2) * 10 ≤ (i 1).val ∧ (i 1).val < win3_6.index t3_49 (1 : Fin 2) * 10 + 10; rw [e1]; omega

/-- The output array after the region: the classifier's payload of the group sizes and the pooled sums over all rows
    of the arrays the region is entered from. -/
theorem final3 (c : Dev nD) :
    (dat3 V c).arrAt 6 cfg3.N
      = k3_pay1 (F := Ideal) (cntAll (V c main_v53)) (sumAll (V c main_v52) (V c main_v17) (V c main_v54) (V c main_v53)) (V c main_arg9) (V c main_v55) :=
  (dat3 V c).arrAt_eq_of_cover 6 (G3 V c) (fun t hf => flushed3_eq V c t hf) cover3

end Cert.KernelIdeal.Val

end
-- ==== Proof.SpecDefs.lean ====
import proofs.«400023_j55559696941219_2_alg».proof.KernelIdeal
import proofs.«400023_j55559696941219_2_alg».proof.ReferenceIdeal
import Idealize.ShloMosaic.PureOps.Ideal
import Idealize.ShloMosaic.Lib.ValueIdx
import Idealize.ShloMosaic.Lib.StableHlo.Predicate

/-!
  One graph-convolution layer's aggregation, as the two programs print it, and the degree normalisation both compute.
  The reference scatters, for every edge, the source row times dis[src] * dis[dst]; the kernel scatters the
  pre-scaled source row and multiplies by dis afterwards.
-/

noncomputable section

open Idealize.ShloMosaic Idealize.ShloMosaic.TcCoe Idealize.SL.Sem
open Idealize.ShloMosaic.ValueIdx

namespace Cert.Spec.Layer

open Cert.ReferenceIdeal (S50000x128 S50000 S1650000 S1650000x1 S1650000x128 S_)
open Cert.ReferenceIdeal (scatter_S50000x128_S1650000x1_S1650000x128_1_0_0_1 scatter_S50000_S1650000x1_S1650000_n_0_0_1
  gather_S50000x128_S1650000x1_S1650000x128_1_0_n_n_0_1_1128 gather_S50000_S1650000x1_S1650000_n_0_n_n_0_1_1)
open Cert.ReferenceIdeal.Facts₀

variable [Cert.ReferenceIdeal.Facts₀]

/-- the negative-index wrap as both programs print it: a + 50000 where a < 0, else a -/
def wrap (a : IVec S1650000 32) : IVec S1650000 32 :=
  select (cmpi .slt a (broadcastInDim S1650000 ![] bcast_S_S1650000 (constantI S_ 32 0#32)))
    (addi a (broadcastInDim S1650000 ![] bcast_S_S1650000 (constantI S_ 32 50000#32))) a

/-- an index vector as the one-column array of start indices -/
def col (a : IVec S1650000 32) : IVec S1650000x1 32 :=
  broadcastInDim S1650000x1 ![0] bcast_S1650000_S1650000x1_0 a

/-- the zero array the scatters accumulate into -/
def zeros2 : FVec Ideal S50000x128 .f32 :=
  broadcastInDim S50000x128 ![] bcast_S_S50000x128 (constant (F := Ideal) S_ .f32 0x00000000#32)

/-- the reference's aggregation of one layer: every edge adds h[src] * (dis[src] * dis[dst]) into row dst -/
def refAgg (h : FVec Ideal S50000x128 .f32) (dis : FVec Ideal S50000 .f32) (src dst : IVec S1650000 32) :
    FVec Ideal S50000x128 .f32 :=
  Host.scatterAdd scatter_S50000x128_S1650000x1_S1650000x128_1_0_0_1 zeros2 (col dst)
    (mulf (Host.gather gather_S50000x128_S1650000x1_S1650000x128_1_0_n_n_0_1_1128 h (col (wrap src)))
      (broadcastInDim S1650000x128 ![0, 1] bcast_S1650000x1_S1650000x128_0_1
        (broadcastInDim S1650000x1 ![0] bcast_S1650000_S1650000x1_0
          (mulf (Host.gather gather_S50000_S1650000x1_S1650000_n_0_n_n_0_1_1 dis (col (wrap src)))
            (Host.gather gather_S50000_S1650000x1_S1650000_n_0_n_n_0_1_1 dis (col (wrap dst)))))))

/-- the kernel's aggregation: every edge adds the pre-scaled row hs[src] into row dst -/
def kerAgg (hs : FVec Ideal S50000x128 .f32) (src dst : IVec S1650000 32) : FVec Ideal S50000x128 .f32 :=
  Host.scatterAdd scatter_S50000x128_S1650000x1_S1650000x128_1_0_0_1 zeros2 (col dst)
    (Host.gather gather_S50000x128_S1650000x1_S1650000x128_1_0_n_n_0_1_1128 hs (col (wrap src)))

/-- the degree normalisation both programs compute: deg counts the edges into each node,
    dis = where(deg > 0, rsqrt(max(deg, 1)), 0) -/
def disOf (dst : IVec S1650000 32) : FVec Ideal S50000 .f32 :=
  let deg : FVec Ideal S50000 .f32 :=
    Host.scatterAdd scatter_S50000_S1650000x1_S1650000_n_0_0_1
      (broadcastInDim S50000 ![] bcast_S_S50000 (constant (F := Ideal) S_ .f32 0x00000000#32)) (col dst)
      (broadcastInDim S1650000 ![] bcast_S_S1650000 (constant (F := Ideal) S_ .f32 0x3F800000#32))
  select (cmpf .ogt deg (broadcastInDim S50000 ![] bcast_S_S50000 (constant (F := Ideal) S_ .f32 0x00000000#32)))
    (Host.rsqrt (maximumf deg (broadcastInDim S50000 ![] bcast_S_S50000 (constant (F := Ideal) S_ .f32 0x3F800000#32))))
    (broadcastInDim S50000 ![] bcast_S_S50000 (id (constant (F := Ideal) S_ .f32 0x00000000#32)))

/-! ### the kernel program's dimension records are the reference program's -/

section KernelRecords
variable [Cert.KernelIdeal.Facts₀]

theorem ker_scatter2_eq :
    Cert.KernelIdeal.scatter_S50000x128_S1650000x1_S1650000x128_1_0_0_1
      = scatter_S50000x128_S1650000x1_S1650000x128_1_0_0_1 := rfl

theorem ker_gather2_eq :
    Cert.KernelIdeal.gather_S50000x128_S1650000x1_S1650000x128_1_0_n_n_0_1_1128
      = gather_S50000x128_S1650000x1_S1650000x128_1_0_n_n_0_1_1128 := rfl

theorem ker_scatter1_eq :
    Cert.KernelIdeal.scatter_S50000_S1650000x1_S1650000_n_0_0_1
      = scatter_S50000_S1650000x1_S1650000_n_0_0_1 := rfl

end KernelRecords

end Cert.Spec.Layer
-- ==== Proof.KI.HostVals.lean ====
/-
  What each kernel region finds in the arrays it reads, as a term of the launch memory and of the previous region's output
  array. Between the regions @main runs plain host operations: the first stretch builds the source and destination index
  vectors (the edge index's rows, then one self loop per node) and the degree normalisation; each later stretch gathers
  the previous region's output rows at the wrapped sources, scatter-adds them at the destinations, and reshapes a bias.
  No later stretch and no region writes the index vectors or the normalisation column again, and no segment writes an
  argument array.
-/
import proofs.«400023_j55559696941219_2_alg».proof.Proof.KI.Run
import proofs.«400023_j55559696941219_2_alg».proof.Proof.SpecDefs
import proofs.«400023_j55559696941219_2_alg».proof.Proof.Gen.KernelIdeal
import proofs.«400023_j55559696941219_2_alg».proof.Proof.Gen.ReferenceIdeal
import Idealize.ShloMosaic.Lib.StableHlo.Run

noncomputable section

open Idealize.ShloMosaic Idealize.ShloMosaic.TcCoe Idealize.SL.Sem
open Idealize.ShloMosaic.ValueIdx

namespace Cert.KernelIdeal.HostVal

open Cert.KernelIdeal Cert.KernelIdeal.Gen Cert.KernelIdeal.Fr
open Cert.Spec.Layer

variable (m : (ℓ : Loc nD τ sig) → Buf (Elt Ideal) ℓ) (ρ : Dev nD → PrngReg)

/-- The edge index as launched. -/
abbrev ei (c : Dev nD) : IVec S2x1600000 32 := m ((c : Thread nD τ).loc main_arg1)

/-- The source index vector: the edge index's first row, then one self loop per node. -/
def srcK (c : Dev nD) : IVec S1650000 32 :=
  concatenate S1650000 0 [⟨S1600000, shapeCast _ (extractStridedSlice S1x1600000 ![0, 0] (ei m c) slices_S2x1600000_S1x1600000_0_0) shapeCasts_S1x1600000_S1600000⟩,
    ⟨S50000, iotaInDim S50000 32 0⟩] concatenates_S1600000_S50000_S1650000_d0

/-- The destination index vector: the edge index's second row, then one self loop per node. -/
def dstK (c : Dev nD) : IVec S1650000 32 :=
  concatenate S1650000 0 [⟨S1600000, shapeCast _ (extractStridedSlice S1x1600000 ![1, 0] (ei m c) slices_S2x1600000_S1x1600000_1_0) shapeCasts_S1x1600000_S1600000⟩,
    ⟨S50000, iotaInDim S50000 32 0⟩] concatenates_S1600000_S50000_S1650000_d0

/-! ## The index vectors are written once, by the first host stretch, and never again -/

theorem W1_v3 (c : Dev nD) : (W1 m ρ c (Proc.devRef .tc main_v3) : IVec S1650000 32) = srcK m c := by
  show StableHlo.after hostOps0 _ (Proc.devRef .tc main_v3) = _
  after_results
  rfl

theorem W1_v6 (c : Dev nD) : (W1 m ρ c (Proc.devRef .tc main_v6) : IVec S1650000 32) = dstK m c := by
  show StableHlo.after hostOps0 _ (Proc.devRef .tc main_v6) = _
  after_results
  rfl

theorem W3_v3 (c : Dev nD) : (W3 m ρ c (Proc.devRef .tc main_v3) : IVec S1650000 32) = srcK m c :=
  calc W3 m ρ c (Proc.devRef .tc main_v3)
    _ = W2 m ρ c (Proc.devRef .tc main_v3) := StableHlo.after_of_writes_sub hostOps0_2 _ hostOps0_2_writes (by decide)
    _ = W1 m ρ c (Proc.devRef .tc main_v3) := StableHlo.after_of_writes_sub hostOps0_1 _ hostOps0_1_writes (by decide)
    _ = srcK m c := W1_v3 m ρ c

theorem W3_v6 (c : Dev nD) : (W3 m ρ c (Proc.devRef .tc main_v6) : IVec S1650000 32) = dstK m c :=
  calc W3 m ρ c (Proc.devRef .tc main_v6)
    _ = W2 m ρ c (Proc.devRef .tc main_v6) := StableHlo.after_of_writes_sub hostOps0_2 _ hostOps0_2_writes (by decide)
    _ = W1 m ρ c (Proc.devRef .tc main_v6) := StableHlo.after_of_writes_sub hostOps0_1 _ hostOps0_1_writes (by decide)
    _ = dstK m c := W1_v6 m ρ c

theorem W4_v3 (c : Dev nD) : (W4 m ρ c (Proc.devRef .tc main_v3) : IVec S1650000 32) = srcK m c :=
  (W4_keep m ρ c main_v3 (by decide)).trans (W3_v3 m ρ c)
theorem W4_v6 (c : Dev nD) : (W4 m ρ c (Proc.devRef .tc main_v6) : IVec S1650000 32) = dstK m c :=
  (W4_keep m ρ c main_v6 (by decide)).trans (W3_v6 m ρ c)

theorem W6_v3 (c : Dev nD) : (W6 m ρ c (Proc.devRef .tc main_v3) : IVec S1650000 32) = srcK m c :=
  calc W6 m ρ c (Proc.devRef .tc main_v3)
    _ = W5 m ρ c (Proc.devRef .tc main_v3) := W6_keep m ρ c main_v3 (by decide)
    _ = W4 m ρ c (Proc.devRef .tc main_v3) := StableHlo.after_of_writes_sub hostOps1 _ hostOps1_writes (by decide)
    _ = srcK m c := W4_v3 m ρ c
theorem W6_v6 (c : Dev nD) : (W6 m ρ c (Proc.devRef .tc main_v6) : IVec S1650000 32) = dstK m c :=
  calc W6 m ρ c (Proc.devRef .tc main_v6)
    _ = W5 m ρ c (Proc.devRef .tc main_v6) := W6_keep m ρ c main_v6 (by decide)
    _ = W4 m ρ c (Proc.devRef .tc main_v6) := StableHlo.after_of_writes_sub hostOps1 _ hostOps1_writes (by decide)
    _ = dstK m c := W4_v6 m ρ c

theorem W8_v3 (c : Dev nD) : (W8 m ρ c (Proc.devRef .tc main_v3) : IVec S1650000 32) = srcK m c :=
  calc W8 m ρ c (Proc.devRef .tc main_v3)
    _ = W7 m ρ c (Proc.devRef .tc main_v3) := W8_keep m ρ c main_v3 (by decide)
    _ = W6 m ρ c (Proc.devRef .tc main_v3) := StableHlo.after_of_writes_sub hostOps2 _ hostOps2_writes (by decide)
    _ = srcK m c := W6_v3 m ρ c
theorem W8_v6 (c : Dev nD) : (W8 m ρ c (Proc.devRef .tc main_v6) : IVec S1650000 32) = dstK m c :=
  calc W8 m ρ c (Proc.devRef .tc main_v6)
    _ = W7 m ρ c (Proc.devRef .tc main_v6) := W8_keep m ρ c main_v6 (by decide)
    _ = W6 m ρ c (Proc.devRef .tc main_v6) := StableHlo.after_of_writes_sub hostOps2 _ hostOps2_writes (by decide)
    _ = dstK m c := W6_v6 m ρ c

/-! ## An argument array is as launched at every boundary -/

theorem W3_arg (c : Dev nD) (b : Ref sig .tc) (h0 : b ∉ hostOps0_W) (h01 : b ∉ hostOps0_1_W) (h02 : b ∉ hostOps0_2_W) :
    W3 m ρ c (Proc.devRef .tc b) = m ((c : Thread nD τ).loc b) :=
  calc W3 m ρ c (Proc.devRef .tc b)
    _ = W2 m ρ c (Proc.devRef .tc b) := StableHlo.after_of_writes_sub hostOps0_2 _ hostOps0_2_writes h02
    _ = W1 m ρ c (Proc.devRef .tc b) := StableHlo.after_of_writes_sub hostOps0_1 _ hostOps0_1_writes h01
    _ = W0 m ρ c (Proc.devRef .tc b) := StableHlo.after_of_writes_sub hostOps0 _ hostOps0_writes h0
    _ = m ((c : Thread nD τ).loc b) := rfl

theorem W4_arg (c : Dev nD) (b : Ref sig .tc) (h0 : b ∉ hostOps0_W) (h01 : b ∉ hostOps0_1_W) (h02 : b ∉ hostOps0_2_W)
    (hb : b ≠ main_v18) : W4 m ρ c (Proc.devRef .tc b) = m ((c : Thread nD τ).loc b) :=
  (W4_keep m ρ c b hb).trans (W3_arg m ρ c b h0 h01 h02)

theorem W5_arg (c : Dev nD) (b : Ref sig .tc) (h0 : b ∉ hostOps0_W) (h01 : b ∉ hostOps0_1_W) (h02 : b ∉ hostOps0_2_W)
    (hb : b ≠ main_v18) (h1 : b ∉ hostOps1_W) : W5 m ρ c (Proc.devRef .tc b) = m ((c : Thread nD τ).loc b) :=
  (StableHlo.after_of_writes_sub hostOps1 _ hostOps1_writes h1).trans (W4_arg m ρ c b h0 h01 h02 hb)

theorem W6_arg (c : Dev nD) (b : Ref sig .tc) (h0 : b ∉ hostOps0_W) (h01 : b ∉ hostOps0_1_W) (h02 : b ∉ hostOps0_2_W)
    (hb : b ≠ main_v18) (h1 : b ∉ hostOps1_W) (hb' : b ≠ main_v30) :
    W6 m ρ c (Proc.devRef .tc b) = m ((c : Thread nD τ).loc b) :=
  (W6_keep m ρ c b hb').trans (W5_arg m ρ c b h0 h01 h02 hb h1)

theorem W7_arg (c : Dev nD) (b : Ref sig .tc) (h0 : b ∉ hostOps0_W) (h01 : b ∉ hostOps0_1_W) (h02 : b ∉ hostOps0_2_W)
    (hb : b ≠ main_v18) (h1 : b ∉ hostOps1_W) (hb' : b ≠ main_v30) (h2 : b ∉ hostOps2_W) :
    W7 m ρ c (Proc.devRef .tc b) = m ((c : Thread nD τ).loc b) :=
  (StableHlo.after_of_writes_sub hostOps2 _ hostOps2_writes h2).trans (W6_arg m ρ c b h0 h01 h02 hb h1 hb')

theorem W8_arg (c : Dev nD) (b : Ref sig .tc) (h0 : b ∉ hostOps0_W) (h01 : b ∉ hostOps0_1_W) (h02 : b ∉ hostOps0_2_W)
    (hb : b ≠ main_v18) (h1 : b ∉ hostOps1_W) (hb' : b ≠ main_v30) (h2 : b ∉ hostOps2_W) (hb'' : b ≠ main_v42) :
    W8 m ρ c (Proc.devRef .tc b) = m ((c : Thread nD τ).loc b) :=
  (W8_keep m ρ c b hb'').trans (W7_arg m ρ c b h0 h01 h02 hb h1 hb' h2)

theorem W9_arg (c : Dev nD) (b : Ref sig .tc) (h0 : b ∉ hostOps0_W) (h01 : b ∉ hostOps0_1_W) (h02 : b ∉ hostOps0_2_W)
    (hb : b ≠ main_v18) (h1 : b ∉ hostOps1_W) (hb' : b ≠ main_v30) (h2 : b ∉ hostOps2_W) (hb'' : b ≠ main_v42)
    (h3 : b ∉ hostOps3_W) : W9 m ρ c (Proc.devRef .tc b) = m ((c : Thread nD τ).loc b) :=
  (StableHlo.after_of_writes_sub hostOps3 _ hostOps3_writes h3).trans (W8_arg m ρ c b h0 h01 h02 hb h1 hb' h2 hb'')

/-! ## (1) The degree normalisation column -/

theorem W1_v12 (c : Dev nD) : (W1 m ρ c (Proc.devRef .tc main_v12) : IVec S50000 1)
    = cmpf .ogt (Host.scatterAdd scatter_S50000_S1650000x1_S1650000_n_0_0_1
        (broadcastInDim S50000 ![] bcast_S_S50000 (constant (F := Ideal) S_ .f32 0x00000000#32)) (col (dstK m c))
        (broadcastInDim S1650000 ![] bcast_S_S1650000 (constant (F := Ideal) S_ .f32 0x3F800000#32)))
      (broadcastInDim S50000 ![] bcast_S_S50000 (constant (F := Ideal) S_ .f32 0x00000000#32)) := by
  show StableHlo.after hostOps0 _ (Proc.devRef .tc main_v12) = _
  after_results
  rfl

theorem W1_v15 (c : Dev nD) : (W1 m ρ c (Proc.devRef .tc main_v15) : FVec Ideal S50000 .f32)
    = Host.rsqrt (maximumf (Host.scatterAdd scatter_S50000_S1650000x1_S1650000_n_0_0_1
        (broadcastInDim S50000 ![] bcast_S_S50000 (constant (F := Ideal) S_ .f32 0x00000000#32)) (col (dstK m c))
        (broadcastInDim S1650000 ![] bcast_S_S1650000 (constant (F := Ideal) S_ .f32 0x3F800000#32)))
      (broadcastInDim S50000 ![] bcast_S_S50000 (constant (F := Ideal) S_ .f32 0x3F800000#32))) := by
  show StableHlo.after hostOps0 _ (Proc.devRef .tc main_v15) = _
  after_results
  rfl

theorem W1_cst3 (c : Dev nD) : (W1 m ρ c (Proc.devRef .tc main_cst_3) : FVec Ideal S_ .f32)
    = constant (F := Ideal) S_ .f32 0x00000000#32 := by
  show StableHlo.after hostOps0 _ (Proc.devRef .tc main_cst_3) = _
  after_results

/-- The module-local select of the normalisation, over any contents. -/
theorem after01_v16 (V : Valuation τ sig (Elt Ideal)) :
    (StableHlo.after hostOps0_1 V (Proc.devRef .tc main_v16) : FVec Ideal S50000 .f32)
      = select (V (Proc.devRef .tc main_v12) : IVec S50000 1) (V (Proc.devRef .tc main_v15) : FVec Ideal S50000 .f32)
          (broadcastInDim S50000 ![] bcast_S_S50000 (id (V (Proc.devRef .tc main_cst_3) : FVec Ideal S_ .f32))) := by
  after_results
  rfl

theorem after02_v17 (V : Valuation τ sig (Elt Ideal)) :
    (StableHlo.after hostOps0_2 V (Proc.devRef .tc main_v17) : FVec Ideal S50000x1 .f32)
      = shapeCast S50000x1 (V (Proc.devRef .tc main_v16) : FVec Ideal S50000 .f32) shapeCasts_S50000_S50000x1 := by
  after_results
  rfl

/-- The normalisation before its reshape to a column. -/
theorem W2_v16 (c : Dev nD) : (W2 m ρ c (Proc.devRef .tc main_v16) : FVec Ideal S50000 .f32) = disOf (dstK m c) := by
  refine (after01_v16 (W1 m ρ c)).trans ?_
  rw [W1_v12, W1_v15, W1_cst3]
  rfl

/-- The degree normalisation column every region reads. -/
theorem W3_v17 (c : Dev nD) : (W3 m ρ c (Proc.devRef .tc main_v17) : FVec Ideal S50000x1 .f32)
    = shapeCast S50000x1 (disOf (dstK m c)) shapeCasts_S50000_S50000x1 :=
  (after02_v17 (W2 m ρ c)).trans
    (congrArg (fun v : FVec Ideal S50000 .f32 => shapeCast S50000x1 v shapeCasts_S50000_S50000x1) (W2_v16 m ρ c))

/-- The column is never written again: regions 1, 2 and 3 find it as region 0 did. -/
theorem W5_v17 (c : Dev nD) : W5 m ρ c (Proc.devRef .tc main_v17) = W3 m ρ c (Proc.devRef .tc main_v17) :=
  (StableHlo.after_of_writes_sub hostOps1 _ hostOps1_writes (by decide)).trans (W4_keep m ρ c main_v17 (by decide))
theorem W7_v17 (c : Dev nD) : W7 m ρ c (Proc.devRef .tc main_v17) = W3 m ρ c (Proc.devRef .tc main_v17) :=
  (StableHlo.after_of_writes_sub hostOps2 _ hostOps2_writes (by decide)).trans
    ((W6_keep m ρ c main_v17 (by decide)).trans (W5_v17 m ρ c))
theorem W9_v17 (c : Dev nD) : W9 m ρ c (Proc.devRef .tc main_v17) = W3 m ρ c (Proc.devRef .tc main_v17) :=
  (StableHlo.after_of_writes_sub hostOps3 _ hostOps3_writes (by decide)).trans
    ((W8_keep m ρ c main_v17 (by decide)).trans (W7_v17 m ρ c))

/-! ## (2) Region 0's inputs -/

theorem W3_arg0 (c : Dev nD) : W3 m ρ c (Proc.devRef .tc main_arg0) = m ((c : Thread nD τ).loc main_arg0) :=
  W3_arg m ρ c main_arg0 (by decide) (by decide) (by decide)
theorem W3_arg3 (c : Dev nD) : W3 m ρ c (Proc.devRef .tc main_arg3) = m ((c : Thread nD τ).loc main_arg3) :=
  W3_arg m ρ c main_arg3 (by decide) (by decide) (by decide)

/-! ## (3) Region 1's inputs -/

/-- Region 0's output array as the next host stretch finds it. -/
abbrev h18 (c : Dev nD) : FVec Ideal S50000x128 .f32 := W4 m ρ c (Proc.devRef .tc main_v18)
/-- Region 1's output array as the next host stretch finds it. -/
abbrev h30 (c : Dev nD) : FVec Ideal S50000x128 .f32 := W6 m ρ c (Proc.devRef .tc main_v30)
/-- Region 2's output array as the next host stretch finds it. -/
abbrev h42 (c : Dev nD) : FVec Ideal S50000x128 .f32 := W8 m ρ c (Proc.devRef .tc main_v42)

theorem after1_v28 (V : Valuation τ sig (Elt Ideal)) :
    (StableHlo.after hostOps1 V (Proc.devRef .tc main_v28) : FVec Ideal S50000x128 .f32)
      = kerAgg (V (Proc.devRef .tc main_v18) : FVec Ideal S50000x128 .f32) (V (Proc.devRef .tc main_v3) : IVec S1650000 32)
          (V (Proc.devRef .tc main_v6) : IVec S1650000 32) := by
  after_results
  rfl
theorem after1_v29 (V : Valuation τ sig (Elt Ideal)) :
    (StableHlo.after hostOps1 V (Proc.devRef .tc main_v29) : FVec Ideal S1x128 .f32)
      = shapeCast S1x128 (V (Proc.devRef .tc main_arg4) : FVec Ideal S128 .f32) shapeCasts_S128_S1x128 := by
  after_results
  rfl

theorem W5_v28 (c : Dev nD) : (W5 m ρ c (Proc.devRef .tc main_v28) : FVec Ideal S50000x128 .f32)
    = kerAgg (h18 m ρ c) (srcK m c) (dstK m c) :=
  (after1_v28 (W4 m ρ c)).trans (congrArg₂ (kerAgg (h18 m ρ c)) (W4_v3 m ρ c) (W4_v6 m ρ c))
theorem W5_v29 (c : Dev nD) : (W5 m ρ c (Proc.devRef .tc main_v29) : FVec Ideal S1x128 .f32)
    = shapeCast S1x128 (m ((c : Thread nD τ).loc main_arg4) : FVec Ideal S128 .f32) shapeCasts_S128_S1x128 :=
  (after1_v29 (W4 m ρ c)).trans
    (congrArg (fun v : FVec Ideal S128 .f32 => shapeCast S1x128 v shapeCasts_S128_S1x128)
      (W4_arg m ρ c main_arg4 (by decide) (by decide) (by decide) (by decide)))
theorem W5_arg5 (c : Dev nD) : W5 m ρ c (Proc.devRef .tc main_arg5) = m ((c : Thread nD τ).loc main_arg5) :=
  W5_arg m ρ c main_arg5 (by decide) (by decide) (by decide) (by decide) (by decide)

/-! ## (4) Region 2's inputs -/

theorem after2_v40 (V : Valuation τ sig (Elt Ideal)) :
    (StableHlo.after hostOps2 V (Proc.devRef .tc main_v40) : FVec Ideal S50000x128 .f32)
      = kerAgg (V (Proc.devRef .tc main_v30) : FVec Ideal S50000x128 .f32) (V (Proc.devRef .tc main_v3) : IVec S1650000 32)
          (V (Proc.devRef .tc main_v6) : IVec S1650000 32) := by
  after_results
  rfl
theorem after2_v41 (V : Valuation τ sig (Elt Ideal)) :
    (StableHlo.after hostOps2 V (Proc.devRef .tc main_v41) : FVec Ideal S1x128 .f32)
      = shapeCast S1x128 (V (Proc.devRef .tc main_arg6) : FVec Ideal S128 .f32) shapeCasts_S128_S1x128 := by
  after_results
  rfl

theorem W7_v40 (c : Dev nD) : (W7 m ρ c (Proc.devRef .tc main_v40) : FVec Ideal S50000x128 .f32)
    = kerAgg (h30 m ρ c) (srcK m c) (dstK m c) :=
  (after2_v40 (W6 m ρ c)).trans (congrArg₂ (kerAgg (h30 m ρ c)) (W6_v3 m ρ c) (W6_v6 m ρ c))
theorem W7_v41 (c : Dev nD) : (W7 m ρ c (Proc.devRef .tc main_v41) : FVec Ideal S1x128 .f32)
    = shapeCast S1x128 (m ((c : Thread nD τ).loc main_arg6) : FVec Ideal S128 .f32) shapeCasts_S128_S1x128 :=
  (after2_v41 (W6 m ρ c)).trans
    (congrArg (fun v : FVec Ideal S128 .f32 => shapeCast S1x128 v shapeCasts_S128_S1x128)
      (W6_arg m ρ c main_arg6 (by decide) (by decide) (by decide) (by decide) (by decide) (by decide)))
theorem W7_arg7 (c : Dev nD) : W7 m ρ c (Proc.devRef .tc main_arg7) = m ((c : Thread nD τ).loc main_arg7) :=
  W7_arg m ρ c main_arg7 (by decide) (by decide) (by decide) (by decide) (by decide) (by decide) (by decide)

/-! ## (5) Region 3's inputs -/

theorem after3_v52 (V : Valuation τ sig (Elt Ideal)) :
    (StableHlo.after hostOps3 V (Proc.devRef .tc main_v52) : FVec Ideal S50000x128 .f32)
      = kerAgg (V (Proc.devRef .tc main_v42) : FVec Ideal S50000x128 .f32) (V (Proc.devRef .tc main_v3) : IVec S1650000 32)
          (V (Proc.devRef .tc main_v6) : IVec S1650000 32) := by
  after_results
  rfl
theorem after3_v53 (V : Valuation τ sig (Elt Ideal)) :
    (StableHlo.after hostOps3 V (Proc.devRef .tc main_v53) : IVec S50000x1 32)
      = shapeCast S50000x1 (V (Proc.devRef .tc main_arg2) : IVec S50000 32) shapeCasts_S50000_S50000x1 := by
  after_results
  rfl
theorem after3_v54 (V : Valuation τ sig (Elt Ideal)) :
    (StableHlo.after hostOps3 V (Proc.devRef .tc main_v54) : FVec Ideal S1x128 .f32)
      = shapeCast S1x128 (V (Proc.devRef .tc main_arg8) : FVec Ideal S128 .f32) shapeCasts_S128_S1x128 := by
  after_results
  rfl
theorem after3_v55 (V : Valuation τ sig (Elt Ideal)) :
    (StableHlo.after hostOps3 V (Proc.devRef .tc main_v55) : FVec Ideal S1x10 .f32)
      = shapeCast S1x10 (V (Proc.devRef .tc main_arg10) : FVec Ideal S10 .f32) shapeCasts_S10_S1x10 := by
  after_results
  rfl

theorem W9_v52 (c : Dev nD) : (W9 m ρ c (Proc.devRef .tc main_v52) : FVec Ideal S50000x128 .f32)
    = kerAgg (h42 m ρ c) (srcK m c) (dstK m c) :=
  (after3_v52 (W8 m ρ c)).trans (congrArg₂ (kerAgg (h42 m ρ c)) (W8_v3 m ρ c) (W8_v6 m ρ c))
theorem W9_v53 (c : Dev nD) : (W9 m ρ c (Proc.devRef .tc main_v53) : IVec S50000x1 32)
    = shapeCast S50000x1 (m ((c : Thread nD τ).loc main_arg2) : IVec S50000 32) shapeCasts_S50000_S50000x1 :=
  (after3_v53 (W8 m ρ c)).trans
    (congrArg (fun v : IVec S50000 32 => shapeCast S50000x1 v shapeCasts_S50000_S50000x1)
      (W8_arg m ρ c main_arg2 (by decide) (by decide) (by decide) (by decide) (by decide) (by decide) (by decide) (by decide)))
theorem W9_v54 (c : Dev nD) : (W9 m ρ c (Proc.devRef .tc main_v54) : FVec Ideal S1x128 .f32)
    = shapeCast S1x128 (m ((c : Thread nD τ).loc main_arg8) : FVec Ideal S128 .f32) shapeCasts_S128_S1x128 :=
  (after3_v54 (W8 m ρ c)).trans
    (congrArg (fun v : FVec Ideal S128 .f32 => shapeCast S1x128 v shapeCasts_S128_S1x128)
      (W8_arg m ρ c main_arg8 (by decide) (by decide) (by decide) (by decide) (by decide) (by decide) (by decide) (by decide)))
theorem W9_v55 (c : Dev nD) : (W9 m ρ c (Proc.devRef .tc main_v55) : FVec Ideal S1x10 .f32)
    = shapeCast S1x10 (m ((c : Thread nD τ).loc main_arg10) : FVec Ideal S10 .f32) shapeCasts_S10_S1x10 :=
  (after3_v55 (W8 m ρ c)).trans
    (congrArg (fun v : FVec Ideal S10 .f32 => shapeCast S1x10 v shapeCasts_S10_S1x10)
      (W8_arg m ρ c main_arg10 (by decide) (by decide) (by decide) (by decide) (by decide) (by decide) (by decide) (by decide)))
theorem W9_arg9 (c : Dev nD) : W9 m ρ c (Proc.devRef .tc main_arg9) = m ((c : Thread nD τ).loc main_arg9) :=
  W9_arg m ρ c main_arg9 (by decide) (by decide) (by decide) (by decide) (by decide) (by decide) (by decide) (by decide) (by decide)

end Cert.KernelIdeal.HostVal

end
-- ==== Proof.KI.Casts.lean ====
/-
  The kernel's host reshapes read at an index: a vector of n entries seen as an n×1 column, or as a 1×n row,
  has at (i, 0), respectively (0, i), the vector's entry i (row-major order: i·1 + 0 = i and 0·n + i = i).
-/
import proofs.«400023_j55559696941219_2_alg».proof.KernelIdeal
import Idealize.ShloMosaic.Lib.ValueIdx
import Idealize.ShloMosaic.Lib.ValueLayout
import Idealize.ShloMosaic.Lib.Pipeline.Value

noncomputable section

open Idealize.ShloMosaic Idealize.ShloMosaic.TcCoe Idealize.SL.Sem
open Idealize.ShloMosaic.ValueIdx

namespace Cert.KernelIdeal.Casts

/-- [50000] → [50000, 1]: entry (n, 0) of the column is entry n of the vector. -/
theorem col_apply {α : Type} (v : S50000.Idx → α) (h : S50000.ShapeCasts S50000x1) (n : Fin 50000) :
    shapeCast S50000x1 v h (ix2 n (0 : Fin 1)) = v (ix1 n) :=
  shapeCast_apply v h _ _ (by
    rw [Shape.rowMajor_val_one, Shape.rowMajor_val_two]
    show n.val = n.val * 1 + 0
    rw [Nat.mul_one, Nat.add_zero])

/-- [128] → [1, 128]: entry (0, k) of the row is entry k of the vector. -/
theorem row128_apply {α : Type} (v : S128.Idx → α) (h : S128.ShapeCasts S1x128) (k : Fin 128) :
    shapeCast S1x128 v h (ix2 (0 : Fin 1) k) = v (ix1 k) :=
  shapeCast_apply v h _ _ (by
    rw [Shape.rowMajor_val_one, Shape.rowMajor_val_two]
    show k.val = 0 * 128 + k.val
    rw [Nat.zero_mul, Nat.zero_add])

/-- [10] → [1, 10]: entry (0, c) of the row is entry c of the vector. -/
theorem row10_apply {α : Type} (v : S10.Idx → α) (h : S10.ShapeCasts S1x10) (c : Fin 10) :
    shapeCast S1x10 v h (ix2 (0 : Fin 1) c) = v (ix1 c) :=
  shapeCast_apply v h _ _ (by
    rw [Shape.rowMajor_val_one, Shape.rowMajor_val_two]
    show c.val = 0 * 10 + c.val
    rw [Nat.zero_mul, Nat.zero_add])

end Cert.KernelIdeal.Casts

end
-- ==== Proof.KI.KChain.lean ====
import proofs.«400023_j55559696941219_2_alg».proof.Proof.KI.Run
import proofs.«400023_j55559696941219_2_alg».proof.Proof.KI.Val012
import proofs.«400023_j55559696941219_2_alg».proof.Proof.KI.Val2
import proofs.«400023_j55559696941219_2_alg».proof.Proof.KI.Val3
import proofs.«400023_j55559696941219_2_alg».proof.Proof.KI.HostVals
import proofs.«400023_j55559696941219_2_alg».proof.Proof.KI.Casts
import proofs.«400023_j55559696941219_2_alg».proof.Proof.SpecDefs
import proofs.«400023_j55559696941219_2_alg».proof.Proof.KPay

noncomputable section

open Idealize.ShloMosaic Idealize.ShloMosaic.TcCoe Idealize.SL.Sem
open Idealize.ShloMosaic.ValueIdx

/-!
The kernel side of the final comparison: the arrays the four regions leave, read at an index as functions of the launch
memory, the edge list's index vectors, the degree normalisation and the earlier regions' arrays.
-/

namespace Cert.KernelIdeal.Chain

open Cert.KernelIdeal Cert.KernelIdeal.Gen Cert.KernelIdeal.Fr Cert.KernelIdeal.Pay Cert.KernelIdeal.Val
open Cert.KernelIdeal.HostVal
open Cert.Spec.Layer (disOf kerAgg)
open scoped BigOperators

variable (m : (ℓ : Loc nD τ sig) → Buf (Elt Ideal) ℓ) (ρ : Dev nD → PrngReg)

/-! ## The buffers, at their literal types -/

/-- The degree normalisation column as region 0 finds it. -/
abbrev d1 (c : Dev nD) : Vec Ideal S50000x1 .f32 := W3 m ρ c (Proc.devRef .tc main_v17)
/-- The three dense regions' output arrays. -/
abbrev hs0 (c : Dev nD) : Vec Ideal S50000x128 .f32 := W4 m ρ c (Proc.devRef .tc main_v18)
abbrev hs1 (c : Dev nD) : Vec Ideal S50000x128 .f32 := W6 m ρ c (Proc.devRef .tc main_v30)
abbrev hs2 (c : Dev nD) : Vec Ideal S50000x128 .f32 := W8 m ρ c (Proc.devRef .tc main_v42)
/-- The arguments as launched. -/
abbrev xA (c : Dev nD) : Vec Ideal S50000x128 .f32 := m ((c : Thread nD τ).loc main_arg0)
abbrev idsA (c : Dev nD) : IVec S50000 32 := m ((c : Thread nD τ).loc main_arg2)
abbrev W0A (c : Dev nD) : Vec Ideal S128x128 .f32 := m ((c : Thread nD τ).loc main_arg3)
abbrev b0A (c : Dev nD) : Vec Ideal S128 .f32 := m ((c : Thread nD τ).loc main_arg4)
abbrev W1A (c : Dev nD) : Vec Ideal S128x128 .f32 := m ((c : Thread nD τ).loc main_arg5)
abbrev b1A (c : Dev nD) : Vec Ideal S128 .f32 := m ((c : Thread nD τ).loc main_arg6)
abbrev W2A (c : Dev nD) : Vec Ideal S128x128 .f32 := m ((c : Thread nD τ).loc main_arg7)
abbrev b2A (c : Dev nD) : Vec Ideal S128 .f32 := m ((c : Thread nD τ).loc main_arg8)
abbrev WoutA (c : Dev nD) : Vec Ideal S128x10 .f32 := m ((c : Thread nD τ).loc main_arg9)
abbrev boutA (c : Dev nD) : Vec Ideal S10 .f32 := m ((c : Thread nD τ).loc main_arg10)
/-- The biases as rows. -/
abbrev b0r (c : Dev nD) : Vec Ideal S1x128 .f32 := shapeCast S1x128 (b0A m c) shapeCasts_S128_S1x128
abbrev b1r (c : Dev nD) : Vec Ideal S1x128 .f32 := shapeCast S1x128 (b1A m c) shapeCasts_S128_S1x128
abbrev b2r (c : Dev nD) : Vec Ideal S1x128 .f32 := shapeCast S1x128 (b2A m c) shapeCasts_S128_S1x128
abbrev boutr (c : Dev nD) : Vec Ideal S1x10 .f32 := shapeCast S1x10 (boutA m c) shapeCasts_S10_S1x10
/-- The graph ids as a column. -/
abbrev idsc (c : Dev nD) : Vec Ideal S50000x1 .i32 := shapeCast S50000x1 (idsA m c) shapeCasts_S50000_S50000x1

/-- The group sizes and the pooled sums the last region computes. -/
def cntK (c : Dev nD) : Vec Ideal S1x512 .f32 := cntAll (idsc m c)
def sumsK (c : Dev nD) : Vec Ideal S512x128 .f32 :=
  sumAll (kerAgg (hs2 m ρ c) (srcK m c) (dstK m c)) (d1 m ρ c) (b2r m c) (idsc m c)

/-! ## The normalisation and the biases at an index -/

theorem kc_d1 (c : Dev nD) (n : Fin 50000) : d1 m ρ c (ix2 n (0 : Fin 1)) = disOf (dstK m c) (ix1 n) :=
  (congrFun (W3_v17 m ρ c) (ix2 n (0 : Fin 1))).trans (Casts.col_apply _ _ n)

theorem kc_b0 (c : Dev nD) (k : Fin 128) : b0r m c (ix2 (0 : Fin 1) k) = b0A m c (ix1 k) := Casts.row128_apply _ _ k
theorem kc_b1 (c : Dev nD) (k : Fin 128) : b1r m c (ix2 (0 : Fin 1) k) = b1A m c (ix1 k) := Casts.row128_apply _ _ k
theorem kc_b2 (c : Dev nD) (k : Fin 128) : b2r m c (ix2 (0 : Fin 1) k) = b2A m c (ix1 k) := Casts.row128_apply _ _ k
theorem kc_bout (c : Dev nD) (k : Fin 10) : boutr m c (ix2 (0 : Fin 1) k) = boutA m c (ix1 k) := Casts.row10_apply _ _ k
theorem kc_ids (c : Dev nD) (n : Fin 50000) : idsc m c (ix2 n (0 : Fin 1)) = idsA m c (ix1 n) := Casts.col_apply _ _ n

/-- The normalisation column is the same array at every region's entry. -/
theorem d1_5 (c : Dev nD) : (W5 m ρ c (Proc.devRef .tc main_v17) : Vec Ideal S50000x1 .f32) = d1 m ρ c := W5_v17 m ρ c
theorem d1_7 (c : Dev nD) : (W7 m ρ c (Proc.devRef .tc main_v17) : Vec Ideal S50000x1 .f32) = d1 m ρ c := W7_v17 m ρ c
theorem d1_9 (c : Dev nD) : (W9 m ρ c (Proc.devRef .tc main_v17) : Vec Ideal S50000x1 .f32) = d1 m ρ c := W9_v17 m ρ c

/-! ## The three dense layers -/

theorem kc_h0 (c : Dev nD) (n : Fin 50000) (f : Fin 128) :
    hs0 m ρ c (ix2 n f) = (∑ k : Fin 128, xA m c (ix2 n k) * W0A m c (ix2 k f)) * d1 m ρ c (ix2 n (0 : Fin 1)) := by
  refine (congrFun (W4_arr m ρ c 3) (ix2 n f)).trans ?_
  refine (arr0 (V3 m ρ) c n f).trans ?_
  have ex : a_arg0 (V3 m ρ) c = xA m c := W3_arg0 m ρ c
  have ew : a_arg3 (V3 m ρ) c = W0A m c := W3_arg3 m ρ c
  rw [ex, ew]

theorem kc_h1 (c : Dev nD) (n : Fin 50000) (f : Fin 128) :
    hs1 m ρ c (ix2 n f)
      = (∑ k : Fin 128, Ideal.tanh (kerAgg (hs0 m ρ c) (srcK m c) (dstK m c) (ix2 n k) * d1 m ρ c (ix2 n (0 : Fin 1))
            + b0r m c (ix2 (0 : Fin 1) k)) * W1A m c (ix2 k f))
          * d1 m ρ c (ix2 n (0 : Fin 1)) := by
  refine (congrFun (W6_arr m ρ c 4) (ix2 n f)).trans ?_
  refine (arr1 (V5 m ρ) c n f).trans ?_
  have e28 : a_v28 (V5 m ρ) c = kerAgg (hs0 m ρ c) (srcK m c) (dstK m c) := W5_v28 m ρ c
  have e29 : a_v29 (V5 m ρ) c = b0r m c := W5_v29 m ρ c
  have e5 : a_arg5 (V5 m ρ) c = W1A m c := W5_arg5 m ρ c
  have e17 : a_v17 (V5 m ρ) c = d1 m ρ c := d1_5 m ρ c
  rw [e28, e29, e5, e17]

theorem kc_h2 (c : Dev nD) (n : Fin 50000) (f : Fin 128) :
    hs2 m ρ c (ix2 n f)
      = (∑ k : Fin 128, Ideal.tanh (kerAgg (hs1 m ρ c) (srcK m c) (dstK m c) (ix2 n k) * d1 m ρ c (ix2 n (0 : Fin 1))
            + b1r m c (ix2 (0 : Fin 1) k)) * W2A m c (ix2 k f))
          * d1 m ρ c (ix2 n (0 : Fin 1)) := by
  refine (congrFun (W8_arr m ρ c 4) (ix2 n f)).trans ?_
  refine (arr2 (V7 m ρ) c n f).trans ?_
  have e40 : a_v40 (V7 m ρ) c = kerAgg (hs1 m ρ c) (srcK m c) (dstK m c) := W7_v40 m ρ c
  have e41 : a_v41 (V7 m ρ) c = b1r m c := W7_v41 m ρ c
  have e7 : a_arg7 (V7 m ρ) c = W2A m c := W7_arg7 m ρ c
  have e17 : a_v17 (V7 m ρ) c = d1 m ρ c := d1_7 m ρ c
  rw [e40, e41, e7, e17]

/-! ## The pooling region -/

theorem kc_sums (c : Dev nD) (g : Fin 512) (e : Fin 128) :
    sumsK m ρ c (ix2 g e)
      = ∑ n : Fin 50000, oh (idsA m c (ix1 n)) g
          * (kerAgg (hs2 m ρ c) (srcK m c) (dstK m c) (ix2 n e) * d1 m ρ c (ix2 n (0 : Fin 1)) + b2r m c (ix2 (0 : Fin 1) e)) := by
  unfold sumsK sumAll
  refine Finset.sum_congr rfl fun n _ => ?_
  show oh (idsc m c (ix2 n (0 : Fin 1))) g
      * (kerAgg (hs2 m ρ c) (srcK m c) (dstK m c) (ix2 n e) * d1 m ρ c (ix2 n (0 : Fin 1)) + b2r m c (ix2 (0 : Fin 1) e)) = _
  rw [kc_ids]

theorem kc_cnt (c : Dev nD) (g : Fin 512) :
    cntK m c (ix2 (0 : Fin 1) g) = ∑ n : Fin 50000, oh (idsA m c (ix1 n)) g := by
  unfold cntK cntAll
  refine Finset.sum_congr rfl fun n _ => ?_
  show oh (idsc m c (ix2 n (0 : Fin 1))) g = _
  rw [kc_ids]

/-- The result array: the log-softmax tail of the classifier's logits of the group sizes and the pooled sums. -/
theorem kc_out (c : Dev nD) :
    (W10 m ρ c (Proc.devRef .tc main_v56) : Vec Ideal S512x10 .f32)
      = kerLsm (kerLogits (cntK m c) (sumsK m ρ c) (WoutA m c) (boutr m c)) := by
  refine (W10_out m ρ c).trans ?_
  refine (final3 (V9 m ρ) c).trans ?_
  have e53 : (V9 m ρ c main_v53 : Vec Ideal S50000x1 .i32) = idsc m c := W9_v53 m ρ c
  have e52 : (V9 m ρ c main_v52 : Vec Ideal S50000x128 .f32) = kerAgg (hs2 m ρ c) (srcK m c) (dstK m c) := W9_v52 m ρ c
  have e17 : (V9 m ρ c main_v17 : Vec Ideal S50000x1 .f32) = d1 m ρ c := d1_9 m ρ c
  have e54 : (V9 m ρ c main_v54 : Vec Ideal S1x128 .f32) = b2r m c := W9_v54 m ρ c
  have e55 : (V9 m ρ c main_v55 : Vec Ideal S1x10 .f32) = boutr m c := W9_v55 m ρ c
  have e9 : (V9 m ρ c main_arg9 : Vec Ideal S128x10 .f32) = WoutA m c := W9_arg9 m ρ c
  rw [e53, e52, e17, e54, e55, e9]
  exact k3_pay1_eq _ _ _ _

end Cert.KernelIdeal.Chain

end
-- ==== Proof.SpecLayer.lean ====
import proofs.«400023_j55559696941219_2_alg».proof.KernelIdeal
import proofs.«400023_j55559696941219_2_alg».proof.ReferenceIdeal
import proofs.«400023_j55559696941219_2_alg».proof.Proof.SpecDefs
import Idealize.ShloMosaic.PureOps.Ideal
import Idealize.ShloMosaic.PureOps.Ideal.Laws
import Idealize.ShloMosaic.PureOps.IdealRules
import Idealize.ShloMosaic.Lib.ValueIdx
import Idealize.ShloMosaic.Lib.StableHlo.Predicate
import Mathlib.Data.EReal.Basic
import Mathlib.Algebra.BigOperators.Ring.Finset

/-!
  One graph-convolution layer: the reference's aggregation is the kernel's aggregation of the pre-scaled rows,
  multiplied afterwards by the destination's normalisation. An update that lands on row n has its destination
  index equal to n, non-negative and in range, so the wrap and the clamp leave it alone and the gathered
  normalisation is dis[n]; all entries being real, that factor comes out of the finite sum.
-/

noncomputable section

open Idealize.ShloMosaic Idealize.ShloMosaic.TcCoe Idealize.SL.Sem
open Idealize.ShloMosaic.ValueIdx
open scoped BigOperators

namespace Cert.Spec.Layer

open Cert.ReferenceIdeal (S50000x128 S50000 S1650000 S1650000x1 S1650000x128 S_)
open Cert.ReferenceIdeal (scatter_S50000x128_S1650000x1_S1650000x128_1_0_0_1 scatter_S50000_S1650000x1_S1650000_n_0_0_1
  gather_S50000x128_S1650000x1_S1650000x128_1_0_n_n_0_1_1128 gather_S50000_S1650000x1_S1650000_n_0_n_n_0_1_1)
open Cert.ReferenceIdeal.Facts₀

variable [Cert.ReferenceIdeal.Facts₀]

/-! ### indices -/

theorem ofFin_eq_ix1 {n : Nat} (e : Fin n) : Shape.Idx.ofFin e = ix1 e := by
  funext a; match a with | ⟨0, _⟩ => rfl

theorem ixP_eq_ix2 {n : Nat} (e : Fin n) : StableHlo.Predicate.ixP e = ix2 e (0 : Fin 1) := by
  funext a; match a with | ⟨0, _⟩ => rfl | ⟨1, _⟩ => rfl

theorem ij_eq_ix2 {n m : Nat} (e : Fin n) (f : Fin m) : StableHlo.Predicate.ij e f = ix2 e f := by
  funext a; match a with | ⟨0, _⟩ => rfl | ⟨1, _⟩ => rfl

theorem col_apply (a : IVec S1650000 32) (e : Fin 1650000) : col a (ix2 e (0 : Fin 1)) = a (ix1 e) := by
  have := StableHlo.Predicate.bcast_col1 bcast_S1650000_S1650000x1_0 a e
  rw [ixP_eq_ix2, ofFin_eq_ix1] at this
  exact this

/-- a start index read signed and clamped into the 50000 rows -/
def clampRow (w : BitVec 32) : Fin 50000 := ⟨min w.toInt.toNat 49999, by omega⟩

theorem clampRow_of_eq (w : BitVec 32) (n : Fin 50000) (h : w.toInt = (n.val : ℤ)) : clampRow w = n := by
  refine Fin.ext ?_
  show min w.toInt.toNat 49999 = n.val
  have := n.isLt
  omega

/-- the 2-D gather reads row (clamped start index), column unchanged -/
theorem gather2_apply (x : S50000x128.Idx → EReal) (idx : IVec S1650000x1 32) (e : Fin 1650000) (f : Fin 128) :
    Host.gather gather_S50000x128_S1650000x1_S1650000x128_1_0_n_n_0_1_1128 x idx (ix2 e f)
      = x (ix2 (clampRow (idx (ix2 e (0 : Fin 1)))) f) := by
  unfold Host.gather
  congr 1
  funext a
  refine Fin.ext ?_
  have hb : ∀ a : Fin 2, a ∉ (gather_S50000x128_S1650000x1_S1650000x128_1_0_n_n_0_1_1128).operandBatchingDims :=
    fun a => List.not_mem_nil
  match a with
  | ⟨0, _⟩ =>
    show (gather_S50000x128_S1650000x1_S1650000x128_1_0_n_n_0_1_1128).start (ix2 e f) idx 0
      + (gather_S50000x128_S1650000x1_S1650000x128_1_0_n_n_0_1_1128).batchCoord (ix2 e f) 0
      + (gather_S50000x128_S1650000x1_S1650000x128_1_0_n_n_0_1_1128).offCoord (ix2 e f) 0 = _
    rw [GatherDims.batchCoord_eq_zero _ _ _ (hb 0),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S50000x128_S1650000x1_S1650000x128_1_0_n_n_0_1_1128).startIndexMap from
      List.mem_singleton.mpr rfl)]
    have hsi : (gather_S50000x128_S1650000x1_S1650000x128_1_0_n_n_0_1_1128).siIdx (ix2 e f)
        ⟨List.idxOf (0 : Fin 2) (gather_S50000x128_S1650000x1_S1650000x128_1_0_n_n_0_1_1128).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gather_S50000x128_S1650000x1_S1650000x128_1_0_n_n_0_1_1128).start (ix2 e f) idx 1
      + (gather_S50000x128_S1650000x1_S1650000x128_1_0_n_n_0_1_1128).batchCoord (ix2 e f) 1
      + (gather_S50000x128_S1650000x1_S1650000x128_1_0_n_n_0_1_1128).offCoord (ix2 e f) 1 = _
    rw [GatherDims.batchCoord_eq_zero _ _ _ (hb 1)]
    have hs : (gather_S50000x128_S1650000x1_S1650000x128_1_0_n_n_0_1_1128).start (ix2 e f) idx 1 = 0 := by
      unfold GatherDims.start
      rw [dif_neg (show (1 : Fin 2) ∉ (gather_S50000x128_S1650000x1_S1650000x128_1_0_n_n_0_1_1128).startIndexMap from
        fun h => absurd (List.mem_singleton.mp h) (by decide))]
    rw [hs]
    simp only [Nat.add_zero, Nat.zero_add]
    unfold GatherDims.offCoord
    rw [dif_pos (show (1 : Fin 2) ∈ (gather_S50000x128_S1650000x1_S1650000x128_1_0_n_n_0_1_1128).sKept from
      (GatherDims.mem_sKept _ _).mpr ⟨fun h => absurd (List.mem_singleton.mp h) (by decide), List.not_mem_nil⟩)]
    rfl

theorem gather1_apply (x : S50000.Idx → EReal) (idx : IVec S1650000x1 32) (e : Fin 1650000) :
    Host.gather gather_S50000_S1650000x1_S1650000_n_0_n_n_0_1_1 x idx (ix1 e)
      = x (ix1 (clampRow (idx (ix2 e (0 : Fin 1))))) := by
  have := StableHlo.Predicate.gather_take gather_S50000_S1650000x1_S1650000_n_0_n_n_0_1_1 rfl rfl rfl rfl x idx e (by decide)
  simp only [ixP_eq_ix2, ofFin_eq_ix1] at this
  exact this

local notation "SD2" => scatter_S50000x128_S1650000x1_S1650000x128_1_0_0_1

/-- where an update of the 2-D scatter lands: its row is the start index read signed, its column the update's -/
theorem scatter2_lands (idx : IVec S1650000x1 32) (e : Fin 1650000) (f' : Fin 128) (n : Fin 50000) (f : Fin 128)
    (h : (SD2).resultIdx? (ix2 e f') idx = some (ix2 n f)) :
    (idx (ix2 e (0 : Fin 1))).toInt = (n.val : ℤ) ∧ f' = f := by
  have hin : (SD2).insertedWindowDims = [0] := rfl
  have hs0 : (SD2).start (ix2 e f') idx 0 = (idx (ix2 e (0 : Fin 1))).toInt := by
    unfold ScatterDims.start
    rw [dif_pos (show (0 : Fin 2) ∈ (SD2).scatterDimsToOperandDims from List.mem_singleton.mpr rfl)]
    congr 2
    funext b; refine Fin.ext ?_
    match b with
    | ⟨0, _⟩ => rfl
    | ⟨1, _⟩ => rfl
  have hs1 : (SD2).start (ix2 e f') idx 1 = 0 := by
    unfold ScatterDims.start
    rw [dif_neg (show (1 : Fin 2) ∉ (SD2).scatterDimsToOperandDims from
      fun h => absurd (List.mem_singleton.mp h) (by decide))]
  have hw0 : (SD2).window (ix2 e f') 0 = 0 := by
    unfold ScatterDims.window
    rw [dif_neg (show (0 : Fin 2) ∉ (SD2).sKept from by
      simp [ScatterDims.sKept, Shape.kept, hin])]
  have hw1 : (SD2).window (ix2 e f') 1 = f'.val := by
    unfold ScatterDims.window
    rw [dif_pos (show (1 : Fin 2) ∈ (SD2).sKept from by
      simp [ScatterDims.sKept, Shape.kept, hin])]
    rfl
  unfold ScatterDims.resultIdx? at h
  split at h
  · rename_i hc
    have h' := Option.some.inj h
    have h0 : (((SD2).start (ix2 e f') idx 0 + ((SD2).window (ix2 e f') 0 : ℤ)).toNat) = n.val :=
      congrArg (fun g => (g 0).val) h'
    have h1 : (((SD2).start (ix2 e f') idx 1 + ((SD2).window (ix2 e f') 1 : ℤ)).toNat) = f.val :=
      congrArg (fun g => (g 1).val) h'
    have hc0 := (hc 0).1
    rw [hs0, hw0] at h0 hc0
    rw [hs1, hw1] at h1
    refine ⟨by omega, Fin.ext (by omega)⟩
  · exact absurd h (by simp)

/-! ### the wrap leaves a non-negative index alone -/

theorem wrap_of_nonneg (a : IVec S1650000 32) (e : Fin 1650000) (h : 0 ≤ (a (ix1 e)).toInt) :
    wrap a (ix1 e) = a (ix1 e) := by
  show Scalar.select (IntOp.cmpi .slt (a (ix1 e)) 0#32) (IntOp.addi (a (ix1 e)) 50000#32) (a (ix1 e)) = _
  have h0 : (0#32 : BitVec 32).toInt = 0 := by decide
  have hc : IntOp.cmpi .slt (a (ix1 e)) 0#32 = 0#1 := by
    unfold IntOp.cmpi
    simp only [BitVec.slt, h0]
    rw [decide_eq_false (by omega)]
    rfl
  rw [hc, select_zero]

/-! ### a real factor comes out of a finite sum of real terms -/

theorem coe_sum {ι : Type} (S : Finset ι) (r : ι → ℝ) : ((∑ i ∈ S, r i : ℝ) : EReal) = ∑ i ∈ S, (r i : EReal) := by
  classical
  induction S using Finset.induction_on with
  | empty => simp
  | insert a S ha ih => rw [Finset.sum_insert ha, Finset.sum_insert ha, EReal.coe_add, ih]

theorem sum_real {ι : Type} (S : Finset ι) (a : ι → EReal) (ha : ∀ i ∈ S, ∃ r : ℝ, a i = (r : EReal)) :
    ∃ r : ℝ, ∑ i ∈ S, a i = (r : EReal) := by
  refine ⟨∑ i ∈ S, (a i).toReal, ?_⟩
  rw [coe_sum]
  refine Finset.sum_congr rfl fun i hi => ?_
  obtain ⟨r, hr⟩ := ha i hi
  rw [hr, EReal.toReal_coe]

theorem sum_mul_real {ι : Type} (S : Finset ι) (a : ι → EReal) (c : EReal)
    (ha : ∀ i ∈ S, ∃ r : ℝ, a i = (r : EReal)) (hc : ∃ r : ℝ, c = (r : EReal)) :
    ∑ i ∈ S, a i * c = (∑ i ∈ S, a i) * c := by
  obtain ⟨rc, rfl⟩ := hc
  have e1 : ∑ i ∈ S, a i * (rc : EReal) = ∑ i ∈ S, (((a i).toReal * rc : ℝ) : EReal) := by
    refine Finset.sum_congr rfl fun i hi => ?_
    obtain ⟨r, hr⟩ := ha i hi
    rw [hr, EReal.toReal_coe, EReal.coe_mul]
  have e2 : ∑ i ∈ S, a i = ∑ i ∈ S, (((a i).toReal : ℝ) : EReal) := by
    refine Finset.sum_congr rfl fun i hi => ?_
    obtain ⟨r, hr⟩ := ha i hi
    rw [hr, EReal.toReal_coe]
  rw [e1, e2, ← coe_sum, ← coe_sum, ← EReal.coe_mul, Finset.sum_mul]

theorem zeros2_apply (i : S50000x128.Idx) : zeros2 i = 0 := by
  show Ideal.ofBits .f32 0x00000000#32 = 0
  exact Ideal.ofBits_zero_f32

local notation "G2" => gather_S50000x128_S1650000x1_S1650000x128_1_0_n_n_0_1_1128
local notation "G1" => gather_S50000_S1650000x1_S1650000_n_0_n_n_0_1_1

/-- the accumulating scatter read at an index: the operand there plus the updates that land there -/
theorem scatterAdd_apply {s si su : Shape} {w : Nat} (d : ScatterDims s si su) (x : FVec Ideal s .f32) (idx : IVec si w)
    (upd : FVec Ideal su .f32) (i : s.Idx) :
    Host.scatterAdd d x idx upd i = x i + ∑ j ∈ Finset.univ.filter (fun j => d.resultIdx? j idx = some i), upd j := rfl

theorem refAgg_eq (h hs : FVec Ideal S50000x128 .f32) (dis : FVec Ideal S50000 .f32) (src dst : IVec S1650000 32)
    (hh : ∀ i, ∃ r : ℝ, h i = (r : EReal)) (hd : ∀ n, ∃ r : ℝ, dis n = (r : EReal))
    (hhs : ∀ (n : Fin 50000) (f : Fin 128), hs (ix2 n f) = h (ix2 n f) * dis (ix1 n)) (n : Fin 50000) (f : Fin 128) :
    refAgg h dis src dst (ix2 n f) = kerAgg hs src dst (ix2 n f) * dis (ix1 n) := by
  rw [refAgg, kerAgg, scatterAdd_apply, scatterAdd_apply, zeros2_apply, zero_add, zero_add]
  have hreal : ∀ j, ∃ r : ℝ, Host.gather G2 hs (col (wrap src)) j = (r : EReal) := by
    intro j
    obtain ⟨e, f', rfl⟩ : ∃ e f', j = ix2 e f' := ⟨j 0, j 1, eq_ix2 j⟩
    rw [gather2_apply, hhs]
    obtain ⟨r1, hr1⟩ := hh (ix2 (clampRow (col (wrap src) (ix2 e (0 : Fin 1)))) f')
    obtain ⟨r2, hr2⟩ := hd (ix1 (clampRow (col (wrap src) (ix2 e (0 : Fin 1)))))
    exact ⟨r1 * r2, by rw [hr1, hr2, EReal.coe_mul]⟩
  rw [← sum_mul_real _ _ _ (fun j _ => hreal j) (hd _)]
  refine Finset.sum_congr rfl fun j hj => ?_
  obtain ⟨e, f', rfl⟩ : ∃ e f', j = ix2 e f' := ⟨j 0, j 1, eq_ix2 j⟩
  obtain ⟨hdst, rfl⟩ := scatter2_lands (col dst) e f' n f (Finset.mem_filter.mp hj).2
  rw [col_apply] at hdst
  have hn : clampRow (col (wrap dst) (ix2 e (0 : Fin 1))) = n := by
    rw [col_apply, wrap_of_nonneg dst e (by omega)]
    exact clampRow_of_eq _ _ hdst
  rw [mulf_apply, gather2_apply, gather2_apply, hhs, ← ij_eq_ix2 e f', StableHlo.Predicate.bcast_rows, mulf_apply,
    ofFin_eq_ix1, gather1_apply, gather1_apply, hn, mul_assoc]

/-! ### the kernel's aggregation of real rows is real -/

theorem kerAgg_real (hs : FVec Ideal S50000x128 .f32) (src dst : IVec S1650000 32)
    (h : ∀ i, ∃ r : ℝ, hs i = (r : EReal)) : ∀ i, ∃ r : ℝ, kerAgg hs src dst i = (r : EReal) := by
  intro i
  rw [kerAgg, scatterAdd_apply, zeros2_apply, zero_add]
  exact sum_real _ _ (fun j _ => h _)

/-! ### the degree normalisation is real -/

theorem ofBits_one_f32 : Ideal.ofBits .f32 0x3F800000#32 = 1 := IdealRules.sign_bit.ideal_onePat .f32

local notation "SD1" => scatter_S50000_S1650000x1_S1650000_n_0_0_1

theorem dis_real_aux (deg : FVec Ideal S50000 .f32) (c : IVec S50000 1) (hdeg : ∀ n, ∃ r : ℝ, deg n = (r : EReal))
    (n : S50000.Idx) :
    ∃ r : ℝ, select c
      (Host.rsqrt (maximumf deg (broadcastInDim S50000 ![] bcast_S_S50000 (constant (F := Ideal) S_ .f32 0x3F800000#32))))
      (broadcastInDim S50000 ![] bcast_S_S50000 (id (constant (F := Ideal) S_ .f32 0x00000000#32))) n = (r : EReal) := by
  rw [select_apply, Scalar.select]
  split
  · obtain ⟨d, hd⟩ := hdeg n
    have e1 : Host.rsqrt (maximumf deg (broadcastInDim S50000 ![] bcast_S_S50000 (constant (F := Ideal) S_ .f32 0x3F800000#32))) n
        = Ideal.rsqrt (max (deg n) (Ideal.ofBits .f32 0x3F800000#32)) := rfl
    have hmax : max (d : EReal) ((1 : ℝ) : EReal) = ((max d 1 : ℝ) : EReal) :=
      (EReal.coe_strictMono.monotone.map_max).symm
    rw [e1, ofBits_one_f32, hd, ← EReal.coe_one, hmax, Ideal.rsqrt_coe]
    have h1 : (1 : ℝ) ≤ max d 1 := le_max_right _ _
    rw [if_neg (by linarith), if_neg (by linarith)]
    exact ⟨_, rfl⟩
  · have e2 : broadcastInDim S50000 ![] bcast_S_S50000 (id (constant (F := Ideal) S_ .f32 0x00000000#32)) n
        = Ideal.ofBits .f32 0x00000000#32 := rfl
    rw [e2, Ideal.ofBits_zero_f32]
    exact ⟨0, EReal.coe_zero.symm⟩

theorem disOf_real (dst : IVec S1650000 32) : ∀ n, ∃ r : ℝ, disOf dst n = (r : EReal) := by
  intro n
  refine dis_real_aux _ _ (fun m => ?_) n
  rw [scatterAdd_apply]
  have e0 : broadcastInDim S50000 ![] bcast_S_S50000 (constant (F := Ideal) S_ .f32 0x00000000#32) m
      = Ideal.ofBits .f32 0x00000000#32 := rfl
  rw [e0, Ideal.ofBits_zero_f32, zero_add]
  refine sum_real _ _ (fun j _ => ⟨1, ?_⟩)
  have e1 : broadcastInDim S1650000 ![] bcast_S_S1650000 (constant (F := Ideal) S_ .f32 0x3F800000#32) j
      = Ideal.ofBits .f32 0x3F800000#32 := rfl
  rw [e1, ofBits_one_f32, EReal.coe_one]

end Cert.Spec.Layer
-- ==== Proof.SpecNet.lean ====
import proofs.«400023_j55559696941219_2_alg».proof.KernelIdeal
import proofs.«400023_j55559696941219_2_alg».proof.ReferenceIdeal
import proofs.«400023_j55559696941219_2_alg».proof.Proof.SpecDefs
import proofs.«400023_j55559696941219_2_alg».proof.Proof.SpecLayer
import proofs.«400023_j55559696941219_2_alg».proof.Proof.KPay
import Idealize.ShloMosaic.PureOps.Ideal
import Idealize.ShloMosaic.PureOps.Ideal.Laws
import Idealize.ShloMosaic.Lib.ValueIdx
import Idealize.ShloMosaic.Lib.StableHlo.Predicate
import Mathlib.Data.EReal.Basic
import Mathlib.Algebra.BigOperators.Ring.Finset

/-!
  The three graph-convolution layers composed. Each layer of the reference is: a dense product, the aggregation over
  the edges with the symmetric normalisation, the bias. Each layer of the kernel side aggregates the product already
  scaled by the source's normalisation and scales by the destination's afterwards. Layer by layer the two agree,
  every entry being a real number, so the three-layer outputs agree.
-/

noncomputable section

open Idealize.ShloMosaic Idealize.ShloMosaic.TcCoe Idealize.SL.Sem
open Idealize.ShloMosaic.ValueIdx
open scoped BigOperators

namespace Cert.Spec.Layer

open Cert.ReferenceIdeal (S50000x128 S50000 S1650000 S1650000x1 S1650000x128 S_ S128 S128x128 S1x128 S50000x1)
open Cert.ReferenceIdeal (dot_S50000x128_S128x128_S50000x128_1_0_0_1_n_n)
open Cert.ReferenceIdeal.Facts₀

variable [Cert.ReferenceIdeal.Facts₀]

/-- the bias row laid under every node -/
def bB (b : FVec Ideal S128 .f32) : FVec Ideal S50000x128 .f32 :=
  broadcastInDim S50000x128 ![0, 1] bcast_S1x128_S50000x128_0_1 (broadcastInDim S1x128 ![1] bcast_S128_S1x128_1 b)

/-- the dense product of the node features with a weight matrix -/
def dense (p : FVec Ideal S50000x128 .f32) (W : FVec Ideal S128x128 .f32) : FVec Ideal S50000x128 .f32 :=
  Host.dotGeneral dot_S50000x128_S128x128_S50000x128_1_0_0_1_n_n none p W

/-- one convolution of the reference: aggregate the dense product, add the bias -/
def refLayer (p : FVec Ideal S50000x128 .f32) (W : FVec Ideal S128x128 .f32) (b : FVec Ideal S128 .f32)
    (dis : FVec Ideal S50000 .f32) (src dst : IVec S1650000 32) : FVec Ideal S50000x128 .f32 :=
  addf (refAgg (dense p W) dis src dst) (bB b)

/-- the reference's three layers, a hyperbolic tangent between them -/
def refO3 (x : FVec Ideal S50000x128 .f32) (W0 : FVec Ideal S128x128 .f32) (b0 : FVec Ideal S128 .f32)
    (W1 : FVec Ideal S128x128 .f32) (b1 : FVec Ideal S128 .f32) (W2 : FVec Ideal S128x128 .f32) (b2 : FVec Ideal S128 .f32)
    (src dst : IVec S1650000 32) : FVec Ideal S50000x128 .f32 :=
  refLayer (Host.tanh (refLayer (Host.tanh (refLayer x W0 b0 (disOf dst) src dst)) W1 b1 (disOf dst) src dst)) W2 b2
    (disOf dst) src dst

/-! ### the dense product and the bias at an index -/

local notation "DD" => dot_S50000x128_S128x128_S50000x128_1_0_0_1_n_n

theorem dd_rank : 0 < (DD).contr.rank := by rw [DotDims.rank_contr]; exact Nat.one_pos

theorem dd_lhs_0 (i : S50000x128.Idx) (q : (DD).contr.Idx) : ((DD).lhsIdx i q 0).val = (i 0).val := by
  unfold DotDims.lhsIdx
  rw [dif_neg (show ¬(0 : Fin S50000x128.rank) ∈ (DD).lhsBatch from List.not_mem_nil),
    dif_pos (show (0 : Fin S50000x128.rank) ∈ (DD).lhsNonContracting from List.mem_singleton.mpr rfl)]
  rfl
theorem dd_lhs_1 (i : S50000x128.Idx) (q : (DD).contr.Idx) : ((DD).lhsIdx i q 1).val = (q ⟨0, dd_rank⟩).val :=
  (DD).lhsIdx_val_of_single rfl i q
theorem dd_rhs_0 (i : S50000x128.Idx) (q : (DD).contr.Idx) : ((DD).rhsIdx i q 0).val = (q ⟨0, dd_rank⟩).val :=
  (DD).rhsIdx_val_of_single rfl i q
theorem dd_rhs_1 (i : S50000x128.Idx) (q : (DD).contr.Idx) : ((DD).rhsIdx i q 1).val = (i 1).val := by
  unfold DotDims.rhsIdx
  rw [dif_neg (show ¬(1 : Fin S128x128.rank) ∈ (DD).rhsBatch from List.not_mem_nil),
    dif_pos (show (1 : Fin S128x128.rank) ∈ (DD).rhsNonContracting from List.mem_singleton.mpr rfl)]
  rfl

/-- the dense product at (n, f): the sum over k of row n of the features times column f of the weights -/
theorem dense_apply (p : FVec Ideal S50000x128 .f32) (W : FVec Ideal S128x128 .f32) (n : Fin 50000) (f : Fin 128) :
    dense p W (ix2 n f) = ∑ k : Fin 128, p (ix2 n k) * W (ix2 k f) := by
  rw [dense, Host.dotGeneral, Ideal.dotGeneral_apply, ← Equiv.sum_comp (ValueIdx.contrEquiv1 DD 128 rfl rfl).symm]
  refine Finset.sum_congr rfl fun k _ => ?_
  have hk := ValueIdx.contrEquiv1_symm_val DD 128 rfl rfl k
  have el : (DD).lhsIdx (ix2 n f) ((ValueIdx.contrEquiv1 DD 128 rfl rfl).symm k) = ix2 n k := funext fun a => Fin.ext (by
    match a with
    | ⟨0, _⟩ => exact dd_lhs_0 _ _
    | ⟨1, _⟩ => exact (dd_lhs_1 _ _).trans hk)
  have er : (DD).rhsIdx (ix2 n f) ((ValueIdx.contrEquiv1 DD 128 rfl rfl).symm k) = ix2 k f := funext fun a => Fin.ext (by
    match a with
    | ⟨0, _⟩ => exact (dd_rhs_0 _ _).trans hk
    | ⟨1, _⟩ => exact dd_rhs_1 _ _)
  rw [el, er]

/-- the bias at (n, k) is the bias at k -/
theorem bB_apply (b : FVec Ideal S128 .f32) (n : Fin 50000) (k : Fin 128) : bB b (ix2 n k) = b (ix1 k) := by
  have := StableHlo.Predicate.bcast_cols bcast_S128_S1x128_1 bcast_S1x128_S50000x128_0_1 b n k
  rw [ij_eq_ix2, ofFin_eq_ix1] at this
  exact this

/-! ### one layer -/

theorem tanh_real (a : EReal) (h : ∃ r : ℝ, a = (r : EReal)) : ∃ r : ℝ, Ideal.tanh a = (r : EReal) := by
  obtain ⟨r, rfl⟩ := h
  exact ⟨Real.tanh r, rfl⟩

theorem dense_real (p : FVec Ideal S50000x128 .f32) (W : FVec Ideal S128x128 .f32)
    (rp : ∀ i, ∃ r : ℝ, p i = (r : EReal)) (rW : ∀ i, ∃ r : ℝ, W i = (r : EReal)) :
    ∀ i, ∃ r : ℝ, dense p W i = (r : EReal) := by
  intro i
  obtain ⟨n, f, rfl⟩ : ∃ n f, i = ix2 n f := ⟨i 0, i 1, eq_ix2 i⟩
  rw [dense_apply]
  refine sum_real _ _ (fun k _ => ?_)
  obtain ⟨r1, h1⟩ := rp (ix2 n k)
  obtain ⟨r2, h2⟩ := rW (ix2 k f)
  exact ⟨r1 * r2, by rw [h1, h2, EReal.coe_mul]⟩

/-- one layer of the reference is the aggregation of the pre-scaled product, scaled by the destination's
    normalisation, plus the bias -/
theorem refLayer_eq (p : FVec Ideal S50000x128 .f32) (W : FVec Ideal S128x128 .f32) (b : FVec Ideal S128 .f32)
    (dis : FVec Ideal S50000 .f32) (src dst : IVec S1650000 32) (hs : FVec Ideal S50000x128 .f32)
    (rp : ∀ i, ∃ r : ℝ, p i = (r : EReal)) (rW : ∀ i, ∃ r : ℝ, W i = (r : EReal)) (rd : ∀ n, ∃ r : ℝ, dis n = (r : EReal))
    (hhs : ∀ (n : Fin 50000) (f : Fin 128), hs (ix2 n f) = dense p W (ix2 n f) * dis (ix1 n)) (n : Fin 50000) (k : Fin 128) :
    refLayer p W b dis src dst (ix2 n k) = kerAgg hs src dst (ix2 n k) * dis (ix1 n) + b (ix1 k) := by
  rw [refLayer, addf_apply, refAgg_eq (dense p W) hs dis src dst (dense_real p W rp rW) rd hhs n k, bB_apply]

theorem refLayer_real (p : FVec Ideal S50000x128 .f32) (W : FVec Ideal S128x128 .f32) (b : FVec Ideal S128 .f32)
    (dis : FVec Ideal S50000 .f32) (src dst : IVec S1650000 32)
    (rp : ∀ i, ∃ r : ℝ, p i = (r : EReal)) (rW : ∀ i, ∃ r : ℝ, W i = (r : EReal)) (rb : ∀ i, ∃ r : ℝ, b i = (r : EReal))
    (rd : ∀ n, ∃ r : ℝ, dis n = (r : EReal)) : ∀ i, ∃ r : ℝ, refLayer p W b dis src dst i = (r : EReal) := by
  intro i
  obtain ⟨n, k, rfl⟩ : ∃ n k, i = ix2 n k := ⟨i 0, i 1, eq_ix2 i⟩
  have rhs : ∀ j, ∃ r : ℝ, (fun j : S50000x128.Idx => dense p W j * dis (ix1 (j 0))) j = (r : EReal) := fun j => by
    obtain ⟨r1, h1⟩ := dense_real p W rp rW j
    obtain ⟨r2, h2⟩ := rd (ix1 (j 0))
    exact ⟨r1 * r2, by rw [EReal.coe_mul, ← h1, ← h2]⟩
  rw [refLayer_eq p W b dis src dst (fun j => dense p W j * dis (ix1 (j 0))) rp rW rd (fun _ _ => rfl) n k]
  obtain ⟨r1, h1⟩ := kerAgg_real _ src dst rhs (ix2 n k)
  obtain ⟨r2, h2⟩ := rd (ix1 n)
  obtain ⟨r3, h3⟩ := rb (ix1 k)
  exact ⟨r1 * r2 + r3, by rw [h1, h2, h3, EReal.coe_add, EReal.coe_mul]⟩

theorem tanh_layer_real (L : FVec Ideal S50000x128 .f32) (rL : ∀ i, ∃ r : ℝ, L i = (r : EReal)) :
    ∀ i, ∃ r : ℝ, Host.tanh (F := Ideal) L i = (r : EReal) := fun i => by
  rw [Cert.KernelIdeal.Pay.hostTanh_apply]
  exact tanh_real _ (rL i)

/-! ### the three layers -/

theorem net_eq (x : FVec Ideal S50000x128 .f32) (W0 W1 W2 : FVec Ideal S128x128 .f32) (b0 b1 b2 : FVec Ideal S128 .f32)
    (src dst : IVec S1650000 32)
    (rx : ∀ i, ∃ r : ℝ, x i = (r : EReal))
    (rW0 : ∀ i, ∃ r : ℝ, W0 i = (r : EReal)) (rW1 : ∀ i, ∃ r : ℝ, W1 i = (r : EReal)) (rW2 : ∀ i, ∃ r : ℝ, W2 i = (r : EReal))
    (rb0 : ∀ i, ∃ r : ℝ, b0 i = (r : EReal)) (rb1 : ∀ i, ∃ r : ℝ, b1 i = (r : EReal)) (rb2 : ∀ i, ∃ r : ℝ, b2 i = (r : EReal))
    (d1 : Vec Ideal S50000x1 .f32) (hd1 : ∀ n : Fin 50000, d1 (ix2 n (0 : Fin 1)) = disOf dst (ix1 n))
    (b0r b1r b2r : Vec Ideal S1x128 .f32)
    (hb0 : ∀ k : Fin 128, b0r (ix2 (0 : Fin 1) k) = b0 (ix1 k))
    (hb1 : ∀ k : Fin 128, b1r (ix2 (0 : Fin 1) k) = b1 (ix1 k))
    (hb2 : ∀ k : Fin 128, b2r (ix2 (0 : Fin 1) k) = b2 (ix1 k))
    (hs0 hs1 hs2 : Vec Ideal S50000x128 .f32)
    (h0 : ∀ (n : Fin 50000) (f : Fin 128), hs0 (ix2 n f)
      = (∑ k : Fin 128, x (ix2 n k) * W0 (ix2 k f)) * d1 (ix2 n (0 : Fin 1)))
    (h1 : ∀ (n : Fin 50000) (f : Fin 128), hs1 (ix2 n f)
      = (∑ k : Fin 128, Ideal.tanh (kerAgg hs0 src dst (ix2 n k) * d1 (ix2 n (0 : Fin 1)) + b0r (ix2 (0 : Fin 1) k)) * W1 (ix2 k f))
          * d1 (ix2 n (0 : Fin 1)))
    (h2 : ∀ (n : Fin 50000) (f : Fin 128), hs2 (ix2 n f)
      = (∑ k : Fin 128, Ideal.tanh (kerAgg hs1 src dst (ix2 n k) * d1 (ix2 n (0 : Fin 1)) + b1r (ix2 (0 : Fin 1) k)) * W2 (ix2 k f))
          * d1 (ix2 n (0 : Fin 1)))
    (n : Fin 50000) (e : Fin 128) :
    kerAgg hs2 src dst (ix2 n e) * d1 (ix2 n (0 : Fin 1)) + b2r (ix2 (0 : Fin 1) e)
      = refO3 x W0 b0 W1 b1 W2 b2 src dst (ix2 n e) := by
  have rd := disOf_real dst
  -- the first layer
  have hh0 : ∀ (n : Fin 50000) (f : Fin 128), hs0 (ix2 n f) = dense x W0 (ix2 n f) * disOf dst (ix1 n) := fun n f => by
    rw [h0, dense_apply, hd1]
  have L1 : ∀ (n : Fin 50000) (k : Fin 128), refLayer x W0 b0 (disOf dst) src dst (ix2 n k)
      = kerAgg hs0 src dst (ix2 n k) * d1 (ix2 n (0 : Fin 1)) + b0r (ix2 (0 : Fin 1) k) := fun n k => by
    rw [refLayer_eq x W0 b0 (disOf dst) src dst hs0 rx rW0 rd hh0 n k, hd1, hb0]
  have r1 := tanh_layer_real _ (refLayer_real x W0 b0 (disOf dst) src dst rx rW0 rb0 rd)
  -- the second layer
  have hh1 : ∀ (n : Fin 50000) (f : Fin 128), hs1 (ix2 n f)
      = dense (Host.tanh (refLayer x W0 b0 (disOf dst) src dst)) W1 (ix2 n f) * disOf dst (ix1 n) := fun n f => by
    rw [h1, dense_apply, ← hd1]
    refine congrArg (fun t => t * d1 (ix2 n (0 : Fin 1))) (Finset.sum_congr rfl fun k _ => ?_)
    rw [Cert.KernelIdeal.Pay.hostTanh_apply, L1]
  have L2 : ∀ (n : Fin 50000) (k : Fin 128),
      refLayer (Host.tanh (refLayer x W0 b0 (disOf dst) src dst)) W1 b1 (disOf dst) src dst (ix2 n k)
      = kerAgg hs1 src dst (ix2 n k) * d1 (ix2 n (0 : Fin 1)) + b1r (ix2 (0 : Fin 1) k) := fun n k => by
    rw [refLayer_eq _ W1 b1 (disOf dst) src dst hs1 r1 rW1 rd hh1 n k, hd1, hb1]
  have r2 := tanh_layer_real _ (refLayer_real _ W1 b1 (disOf dst) src dst r1 rW1 rb1 rd)
  -- the third layer
  have hh2 : ∀ (n : Fin 50000) (f : Fin 128), hs2 (ix2 n f)
      = dense (Host.tanh (refLayer (Host.tanh (refLayer x W0 b0 (disOf dst) src dst)) W1 b1 (disOf dst) src dst)) W2 (ix2 n f)
          * disOf dst (ix1 n) := fun n f => by
    rw [h2, dense_apply, ← hd1]
    refine congrArg (fun t => t * d1 (ix2 n (0 : Fin 1))) (Finset.sum_congr rfl fun k _ => ?_)
    rw [Cert.KernelIdeal.Pay.hostTanh_apply, L2]
  rw [refO3, refLayer_eq _ W2 b2 (disOf dst) src dst hs2 r2 rW2 rd hh2 n e, hd1, hb2]

/-- the three-layer output is real -/
theorem refO3_real (x : FVec Ideal S50000x128 .f32) (W0 W1 W2 : FVec Ideal S128x128 .f32) (b0 b1 b2 : FVec Ideal S128 .f32)
    (src dst : IVec S1650000 32)
    (rx : ∀ i, ∃ r : ℝ, x i = (r : EReal))
    (rW0 : ∀ i, ∃ r : ℝ, W0 i = (r : EReal)) (rW1 : ∀ i, ∃ r : ℝ, W1 i = (r : EReal)) (rW2 : ∀ i, ∃ r : ℝ, W2 i = (r : EReal))
    (rb0 : ∀ i, ∃ r : ℝ, b0 i = (r : EReal)) (rb1 : ∀ i, ∃ r : ℝ, b1 i = (r : EReal)) (rb2 : ∀ i, ∃ r : ℝ, b2 i = (r : EReal)) :
    ∀ i, ∃ r : ℝ, refO3 x W0 b0 W1 b1 W2 b2 src dst i = (r : EReal) := by
  intro i
  have rd := disOf_real dst
  have r1 := tanh_layer_real _ (refLayer_real x W0 b0 (disOf dst) src dst rx rW0 rb0 rd)
  have r2 := tanh_layer_real _ (refLayer_real _ W1 b1 (disOf dst) src dst r1 rW1 rb1 rd)
  rw [refO3]
  exact refLayer_real _ W2 b2 (disOf dst) src dst r2 rW2 rb2 rd i

end Cert.Spec.Layer
-- ==== Proof.SpecPoolDefs.lean ====
import proofs.«400023_j55559696941219_2_alg».proof.KernelIdeal
import proofs.«400023_j55559696941219_2_alg».proof.ReferenceIdeal
import proofs.«400023_j55559696941219_2_alg».proof.Proof.Gen.ReferenceIdeal
import proofs.«400023_j55559696941219_2_alg».proof.Proof.KPay
import Idealize.ShloMosaic.PureOps.Ideal
import Idealize.ShloMosaic.PureOps.Ideal.Laws
import Idealize.ShloMosaic.Lib.ValueIdx
import Idealize.ShloMosaic.Lib.ValueLayout
import Idealize.ShloMosaic.Lib.StableHlo.Predicate

/-! The vocabulary of the pooling and log-softmax statements: the one-hot entry, the graph ids as a
one-column array, and the two spellings of the row-wise log-softmax. -/

noncomputable section
open Idealize.ShloMosaic Idealize.ShloMosaic.TcCoe Idealize.SL.Sem
open Idealize.ShloMosaic.ValueIdx

namespace Cert.Spec.Pool
open Cert.ReferenceIdeal Cert.ReferenceIdeal.Gen

/-- The one-hot entry: `1` when the word `b` is the word of `g`, else `0`. -/
abbrev oh (b : BitVec 32) (g : Fin 512) : EReal := Cert.KernelIdeal.Pay.oh b g

theorem oh_def (b : BitVec 32) (g : Fin 512) : oh b g = if b = BitVec.ofNat 32 g.val then 1 else 0 := rfl

/-- The graph ids as a one-column array: entry `(n, 0)` is the id of node `n`. -/
def colB (batch : IVec S50000 32) : IVec S50000x1 32 :=
  broadcastInDim S50000x1 ![0] bcast_S50000_S50000x1_0 batch

/-- Row-wise log-softmax, first spelling: with `M` the row maximum (the maximum of `-∞` and the
max-reduction from `-∞`) kept as a column and broadcast back, `(z - M) - log (∑ exp (z - M))`, the
row sum taken from `0`, kept as a column and broadcast back. -/
def refLsm (z : FVec Ideal S512x10 .f32) : FVec Ideal S512x10 .f32 :=
  subf (subf z (broadcastInDim S512x10 ![0, 1] bcast_S512x1_S512x10_0_1 (broadcastInDim S512x1 ![0] bcast_S512_S512x1_0 (maximumf (broadcastInDim S512 ![] bcast_S_S512 (constant S_ .f32 0xFF800000#32)) (Host.reduce FloatOps.maximumf z (constant S_ .f32 0xFF800000#32) reducesTo_S512x10_S512_d1 h_S_))))) (broadcastInDim S512x10 ![0, 1] bcast_S512x1_S512x10_0_1 (Host.log (broadcastInDim S512x1 ![0] bcast_S512_S512x1_0 (Host.reduceAdd (Host.exp (subf z (broadcastInDim S512x10 ![0, 1] bcast_S512x1_S512x10_0_1 (broadcastInDim S512x1 ![0] bcast_S512_S512x1_0 (maximumf (broadcastInDim S512 ![] bcast_S_S512 (constant S_ .f32 0xFF800000#32)) (Host.reduce FloatOps.maximumf z (constant S_ .f32 0xFF800000#32) reducesTo_S512x10_S512_d1 h_S_)))))) (constant S_ .f32 0x00000000#32) reducesTo_S512x10_S512_d1 h_S_))))

/-- Row-wise log-softmax, second spelling: lane reductions for the maximum and the sum, each
recast as a column and broadcast over the row. -/
abbrev kerLsm (z : FVec Ideal S512x10 .f32) : FVec Ideal S512x10 .f32 := Cert.KernelIdeal.Pay.kerLsm z

end Cert.Spec.Pool
-- ==== Proof.SpecPool.lean ====
import proofs.«400023_j55559696941219_2_alg».proof.KernelIdeal
import proofs.«400023_j55559696941219_2_alg».proof.ReferenceIdeal
import proofs.«400023_j55559696941219_2_alg».proof.Proof.Gen.ReferenceIdeal
import proofs.«400023_j55559696941219_2_alg».proof.Proof.KPay
import proofs.«400023_j55559696941219_2_alg».proof.Proof.SpecPoolDefs
import Idealize.ShloMosaic.PureOps.Ideal
import Idealize.ShloMosaic.PureOps.Ideal.Laws
import Idealize.ShloMosaic.Lib.ValueIdx
import Idealize.ShloMosaic.Lib.ValueIdxRank1
import Idealize.ShloMosaic.Lib.ValueLayout
import Idealize.ShloMosaic.Lib.IdealHost
import Idealize.ShloMosaic.Lib.StableHlo.Predicate
import Mathlib.Algebra.BigOperators.Group.Finset.Basic

/-! Mean pooling by graph id, and the log-softmax tail.

Part 1. An accumulating scatter of node rows into 512 bins at signed, unclamped graph ids equals the
product with the one-hot matrix `oh b g = [b = g]`: a row whose id, read as a signed integer, is
outside `[0, 512)` lands nowhere, and for `g < 512` "the signed value of the word `b` is `g`" says
`b` is the word of `g`.

Part 2. The two spellings of `z - max z - log (∑ exp (z - max z))` along the rows of a 512 x 10
array agree at every index. -/

noncomputable section
open Idealize.ShloMosaic Idealize.ShloMosaic.TcCoe Idealize.SL.Sem
open Idealize.ShloMosaic.ValueIdx

namespace Cert.Spec.Pool
open Cert.ReferenceIdeal Cert.ReferenceIdeal.Gen

section Pooling

/-- The scatter of the 128-wide node rows into the 512 graph bins. -/
abbrev dS := scatter_S512x128_S50000x1_S50000x128_1_0_0_1

/-- On the bin axis the window of update `(n, e')` starts at the signed value of the id of node `n`. -/
theorem start0 (j : S50000x128.Idx) (idx : IVec S50000x1 32) :
    dS.start j idx 0 = (idx (ix2 (j 0) 0)).toInt := by
  unfold ScatterDims.start
  simp [scatter_S512x128_S50000x1_S50000x128_1_0_0_1]
  congr 2
  funext b
  unfold ScatterDims.siIdx
  match b with
  | ⟨0, _⟩ =>
    apply Fin.ext
    simp only [ScatterDims.siCoord, Fin.coe_cast]
    rfl
  | ⟨1, _⟩ =>
    apply Fin.ext
    simp [scatter_S512x128_S50000x1_S50000x128_1_0_0_1]

/-- On the feature axis the window starts at `0`. -/
theorem start1 (j : S50000x128.Idx) (idx : IVec S50000x1 32) :
    dS.start j idx 1 = 0 := by
  unfold ScatterDims.start
  simp [scatter_S512x128_S50000x1_S50000x128_1_0_0_1]

/-- The bin axis is inserted: its window coordinate is `0`. -/
theorem window0 (j : S50000x128.Idx) : dS.window j 0 = 0 := by
  unfold ScatterDims.window
  simp [scatter_S512x128_S50000x1_S50000x128_1_0_0_1, ScatterDims.sKept, Shape.kept]

/-- The feature axis carries the update's column. -/
theorem window1 (j : S50000x128.Idx) : dS.window j 1 = (j 1).val := by
  unfold ScatterDims.window
  simp [scatter_S512x128_S50000x1_S50000x128_1_0_0_1, ScatterDims.sKept, Shape.kept]
  congr 2

/-- Update `(n, e')` lands on `(g, e)` exactly when the signed id of node `n` is `g` and `e' = e`. -/
theorem resultIdx_iff (j : S50000x128.Idx) (idx : IVec S50000x1 32) (g : Fin 512) (e : Fin 128) :
    dS.resultIdx? j idx = some (ix2 g e) ↔ (idx (ix2 (j 0) 0)).toInt = (g.val : Int) ∧ j 1 = e := by
  have h0 := start0 j idx
  have h1 := start1 j idx
  have w0 := window0 j
  have w1 := window1 j
  unfold ScatterDims.resultIdx?
  split
  · rename_i hb
    rw [Option.some.injEq]
    constructor
    · intro h
      have e0 := congrArg Fin.val (congrFun h 0)
      have e1 := congrArg Fin.val (congrFun h 1)
      have hb0 := hb 0
      simp only [h0, w0, h1, w1] at e0 e1 hb0
      have e0' : ((idx (ix2 (j 0) 0)).toInt + ((0 : Nat) : Int)).toNat = g.val := e0
      have e1' : ((0 : Int) + ((j 1).val : Int)).toNat = e.val := e1
      refine ⟨by omega, Fin.ext (by omega)⟩
    · rintro ⟨ht, he⟩
      funext a
      match a with
      | ⟨0, _⟩ =>
        apply Fin.ext
        show (dS.start j idx 0 + dS.window j 0).toNat = g.val
        rw [h0, w0]; omega
      | ⟨1, _⟩ =>
        apply Fin.ext
        show (dS.start j idx 1 + dS.window j 1).toNat = e.val
        rw [h1, w1, he]; omega
  · rename_i hb
    simp only [reduceCtorEq, false_iff]
    rintro ⟨ht, he⟩
    apply hb
    intro a
    match a with
    | ⟨0, _⟩ =>
      show 0 ≤ dS.start j idx 0 + dS.window j 0 ∧ dS.start j idx 0 + dS.window j 0 < 512
      rw [h0, w0]
      have := g.isLt
      omega
    | ⟨1, _⟩ =>
      show 0 ≤ dS.start j idx 1 + dS.window j 1 ∧ dS.start j idx 1 + dS.window j 1 < 128
      rw [h1, w1]
      have := (j 1).isLt
      have : (j 1).val < 128 := this
      omega

/-- For `g < 512` a 32-bit word has signed value `g` exactly when it is the word of `g`. -/
theorem toInt_eq_iff (b : BitVec 32) (g : Fin 512) : b.toInt = (g.val : Int) ↔ b = BitVec.ofNat 32 g.val := by
  have hg := g.isLt
  have hb := b.isLt
  rw [BitVec.toInt_eq_toNat_cond, ← BitVec.toNat_inj, BitVec.toNat_ofNat]
  split <;> omega

/-- The one-column array of ids reads, at `(n, 0)`, the id of node `n`. -/
theorem colB_apply (batch : IVec S50000 32) (n : Fin 50000) (c : Fin 1) :
    colB batch (ix2 n c) = batch (ix1 n) := by
  unfold colB broadcastInDim
  congr 1
  funext a
  match a with
  | ⟨0, _⟩ => rfl

/-- Scatter-add of the rows of `u` from zero, at bin `g` and column `e`: the one-hot weighted column sum. -/
theorem pool_sum (u : FVec Ideal S50000x128 .f32) (batch : IVec S50000 32) (g : Fin 512) (e : Fin 128) :
    Host.scatterAdd scatter_S512x128_S50000x1_S50000x128_1_0_0_1
        (broadcastInDim S512x128 ![] bcast_S_S512x128 (constant (F := Ideal) S_ .f32 0x00000000#32))
        (colB batch) u (ix2 g e)
      = ∑ n : Fin 50000, oh (batch (ix1 n)) g * u (ix2 n e) := by
  classical
  show Ideal.hostScatterAdd dS _ (colB batch) u (ix2 g e) = _
  unfold Ideal.hostScatterAdd
  rw [broadcastInDim_scalar_apply, constant_apply, Ideal.ofBits_zero_f32, zero_add, Finset.sum_filter]
  refine (Finset.sum_congr rfl fun a _ => if_congr (resultIdx_iff a (colB batch) g e) rfl rfl).trans ?_
  rw [sum_idx2]
  refine Finset.sum_congr rfl fun n _ => ?_
  have h0 : ∀ b : Fin 128, (ix2 n b : S50000x128.Idx) 0 = n := fun _ => rfl
  have h1 : ∀ b : Fin 128, (ix2 n b : S50000x128.Idx) 1 = b := fun _ => rfl
  simp only [h0, h1, colB_apply, toInt_eq_iff]
  simp only [oh_def]
  by_cases hb : batch (ix1 n) = BitVec.ofNat 32 g.val
  · simp only [hb, true_and, if_true, one_mul]
    rw [Finset.sum_eq_single e]
    · exact if_pos rfl
    · intro b _ hne; exact if_neg hne
    · intro h; exact absurd (Finset.mem_univ e) h
  · simp [hb]

/-- The scatter of one scalar per node into the 512 graph bins. -/
abbrev dC := scatter_S512_S50000x1_S50000_n_0_0_1

/-- The window of update `n` starts at the signed value of the id of node `n`. -/
theorem cstart0 (j : S50000.Idx) (idx : IVec S50000x1 32) :
    dC.start j idx 0 = (idx (ix2 (j 0) 0)).toInt := by
  unfold ScatterDims.start
  simp [scatter_S512_S50000x1_S50000_n_0_0_1]
  congr 2
  funext b
  unfold ScatterDims.siIdx
  match b with
  | ⟨0, _⟩ =>
    apply Fin.ext
    simp only [ScatterDims.siCoord, Fin.coe_cast]
    rfl
  | ⟨1, _⟩ =>
    apply Fin.ext
    simp [scatter_S512_S50000x1_S50000_n_0_0_1]

/-- The only axis is inserted: its window coordinate is `0`. -/
theorem cwindow0 (j : S50000.Idx) : dC.window j 0 = 0 := by
  unfold ScatterDims.window
  simp [scatter_S512_S50000x1_S50000_n_0_0_1, ScatterDims.sKept, Shape.kept]

/-- Update `n` lands on bin `g` exactly when the signed id of node `n` is `g`. -/
theorem cresultIdx_iff (j : S50000.Idx) (idx : IVec S50000x1 32) (g : Fin 512) :
    dC.resultIdx? j idx = some (ix1 g) ↔ (idx (ix2 (j 0) 0)).toInt = (g.val : Int) := by
  have h0 := cstart0 j idx
  have w0 := cwindow0 j
  unfold ScatterDims.resultIdx?
  split
  · rename_i hb
    rw [Option.some.injEq]
    constructor
    · intro h
      have e0 := congrArg Fin.val (congrFun h 0)
      have hb0 := hb 0
      simp only [h0, w0] at e0 hb0
      have e0' : ((idx (ix2 (j 0) 0)).toInt + ((0 : Nat) : Int)).toNat = g.val := e0
      omega
    · intro ht
      funext a
      match a with
      | ⟨0, _⟩ =>
        apply Fin.ext
        show (dC.start j idx 0 + dC.window j 0).toNat = g.val
        rw [h0, w0]; omega
  · rename_i hb
    simp only [reduceCtorEq, false_iff]
    intro ht
    apply hb
    intro a
    match a with
    | ⟨0, _⟩ =>
      show 0 ≤ dC.start j idx 0 + dC.window j 0 ∧ dC.start j idx 0 + dC.window j 0 < 512
      rw [h0, w0]
      have := g.isLt
      omega

/-- Scatter-add of ones from zero, at bin `g`: the number of nodes of graph `g`, as a one-hot sum. -/
theorem pool_cnt (batch : IVec S50000 32) (g : Fin 512) :
    Host.scatterAdd scatter_S512_S50000x1_S50000_n_0_0_1
        (broadcastInDim S512 ![] bcast_S_S512 (constant (F := Ideal) S_ .f32 0x00000000#32))
        (colB batch)
        (broadcastInDim S50000 ![] bcast_S_S50000 (constant (F := Ideal) S_ .f32 0x3F800000#32)) (ix1 g)
      = ∑ n : Fin 50000, oh (batch (ix1 n)) g := by
  classical
  show Ideal.hostScatterAdd dC _ (colB batch) _ (ix1 g) = _
  unfold Ideal.hostScatterAdd
  rw [broadcastInDim_scalar_apply, constant_apply, Ideal.ofBits_zero_f32, zero_add, Finset.sum_filter]
  have hone : ∀ a, broadcastInDim S50000 ![] bcast_S_S50000 (constant (F := Ideal) S_ .f32 0x3F800000#32) a = 1 :=
    fun a => by rw [broadcastInDim_scalar_apply, constant_apply, Ideal.ofBits_one_f32]
  refine (Finset.sum_congr rfl fun a _ => if_congr (cresultIdx_iff a (colB batch) g) (hone a) rfl).trans ?_
  rw [← Equiv.sum_comp (idxEquiv1 (n := 50000)).symm]
  refine Finset.sum_congr rfl fun n _ => ?_
  have hn : (idxEquiv1 (n := 50000)).symm n 0 = n := rfl
  simp only [oh_def]
  exact if_congr (by rw [hn, colB_apply, toInt_eq_iff]) rfl rfl

end Pooling

section LogSoftmax
open Cert.KernelIdeal.Pay (rowMax lift_cols ofBits_neginf_f32 kerLsm_apply)

/-- A column `[512, 1]` broadcast over ten columns reads, at `(g, c)`, the column at `g`. -/
theorem bcast_col_apply {α : Type} (v : S512x1.Idx → α) (g : Fin 512) (c : Fin 10) :
    broadcastInDim S512x10 ![0, 1] bcast_S512x1_S512x10_0_1 v (ix2 g c) = v (ix2 g 0) := by
  unfold broadcastInDim
  congr 1
  funext a
  match a with
  | ⟨0, _⟩ => rfl
  | ⟨1, _⟩ => rfl

/-- A vector `[512]` kept as a column `[512, 1]` reads, at `(g, 0)`, the vector at `g`. -/
theorem bcast_row_apply {α : Type} (w : S512.Idx → α) (g : Fin 512) (c : Fin 1) :
    broadcastInDim S512x1 ![0] bcast_S512_S512x1_0 w (ix2 g c) = w (ix1 g) := by
  unfold broadcastInDim
  congr 1
  funext a
  match a with
  | ⟨0, _⟩ => rfl

/-- The exponential and the logarithm at an index, at the ideal values. -/
theorem hostExp_apply {s : Shape} {φ : FTy} (x : FVec Ideal s φ) (i : s.Idx) : Host.exp x i = Ideal.exp (x i) := rfl
theorem hostLog_apply {s : Shape} {φ : FTy} (x : FVec Ideal s φ) (i : s.Idx) : Host.log x i = Ideal.log (x i) := rfl

/-- The max-reduction of row `g` from `-∞` is the row maximum. -/
theorem hostMax_apply (z : FVec Ideal S512x10 .f32) (g : Fin 512) :
    Host.reduce FloatOps.maximumf z (constant S_ .f32 0xFF800000#32) reducesTo_S512x10_S512_d1 h_S_ (ix1 g)
      = rowMax z g := by
  rw [Host.reduce_eq_fold_single FloatOps.maximumf z _ reducesTo_S512x10_S512_d1
    Cert.KernelIdeal.Gen.reduces_S512x10_S512 h_S_]
  unfold rowMax
  have e : (z ∘ Cert.KernelIdeal.Gen.reduces_S512x10_S512.lift (ix1 g)) = fun c : Fin 10 => z (ix2 g c) :=
    funext fun k => congrArg z (lift_cols g k)
  rw [e]
  show Finset.fold max (Ideal.ofBits .f32 0xFF800000#32) _ _ = _
  rw [ofBits_neginf_f32]
  rfl

/-- The row maximum as the first spelling carries it: the maximum of `-∞` and the max-reduction. -/
theorem refMax_apply (z : FVec Ideal S512x10 .f32) (g : Fin 512) (c : Fin 10) :
    broadcastInDim S512x10 ![0, 1] bcast_S512x1_S512x10_0_1 (broadcastInDim S512x1 ![0] bcast_S512_S512x1_0
      (maximumf (broadcastInDim S512 ![] bcast_S_S512 (constant S_ .f32 0xFF800000#32))
        (Host.reduce FloatOps.maximumf z (constant S_ .f32 0xFF800000#32) reducesTo_S512x10_S512_d1 h_S_))) (ix2 g c)
      = rowMax z g := by
  rw [bcast_col_apply, bcast_row_apply, maximumf_apply, hostMax_apply, broadcastInDim_scalar_apply, constant_apply,
    ofBits_neginf_f32]
  exact max_eq_right bot_le

/-- The first spelling at `(g, c)`. -/
theorem refLsm_apply (z : FVec Ideal S512x10 .f32) (g : Fin 512) (c : Fin 10) :
    refLsm z (ix2 g c)
      = (z (ix2 g c) - rowMax z g) - Ideal.log (∑ c' : Fin 10, Ideal.exp (z (ix2 g c') - rowMax z g)) := by
  unfold refLsm
  rw [subf_apply, subf_apply, refMax_apply, bcast_col_apply, hostLog_apply, bcast_row_apply, hostReduceAdd_apply,
    Ideal.hostReduceAdd_single reducesTo_S512x10_S512_d1 Cert.KernelIdeal.Gen.reduces_S512x10_S512, constant_apply,
    Ideal.ofBits_zero_f32, zero_add]
  refine congrArg (fun t => (z (ix2 g c) - rowMax z g) - Ideal.log t) (Finset.sum_congr rfl fun (c' : Fin 10) _ => ?_)
  refine (congrArg (Host.exp _) (lift_cols g c')).trans ?_
  rw [hostExp_apply, subf_apply, refMax_apply]

/-- The two spellings of the row-wise log-softmax agree. -/
theorem kerLsm_eq_refLsm (z : FVec Ideal S512x10 .f32) : kerLsm z = refLsm z := by
  funext j
  rw [eq_ix2 j]
  exact (kerLsm_apply z (j 0) (j 1)).trans (refLsm_apply z (j 0) (j 1)).symm

end LogSoftmax

end Cert.Spec.Pool
-- ==== Proof.PoolBridge.lean ====
import proofs.«400023_j55559696941219_2_alg».proof.KernelIdeal
import proofs.«400023_j55559696941219_2_alg».proof.ReferenceIdeal
import proofs.«400023_j55559696941219_2_alg».proof.Proof.Gen.ReferenceIdeal
import proofs.«400023_j55559696941219_2_alg».proof.Proof.KPay
import proofs.«400023_j55559696941219_2_alg».proof.Proof.SpecPoolDefs
import proofs.«400023_j55559696941219_2_alg».proof.Proof.SpecPool
import Idealize.ShloMosaic.PureOps.Ideal
import Idealize.ShloMosaic.PureOps.Ideal.Laws
import Idealize.ShloMosaic.Lib.ValueIdx
import Idealize.ShloMosaic.Lib.ValueIdxRank1
import Idealize.ShloMosaic.Lib.ValueLayout
import Idealize.ShloMosaic.Lib.IdealHost
import Idealize.ShloMosaic.Lib.StableHlo.Predicate
import Mathlib.Algebra.BigOperators.Group.Finset.Basic

/-! The pooled classifier, two spellings. Mean pooling as "one-hot sums divided by the count, at least
one", followed by the product with the weights, the bias and the row-wise log-softmax, equals the
scatter-add spelling of the same: per graph, the sum of its node rows divided by the maximum of its
node count and one, times the weights, plus the bias, then the log-softmax. -/

noncomputable section
open Idealize.ShloMosaic Idealize.ShloMosaic.TcCoe Idealize.SL.Sem
open Idealize.ShloMosaic.ValueIdx

namespace Cert.Spec.Pool
open Cert.ReferenceIdeal Cert.ReferenceIdeal.Gen

/-- The contraction of `[512, 128]` with `[128, 10]` over the shared axis. -/
abbrev dD := dot_S512x128_S128x10_S512x10_1_0_0_1_n_n

theorem lhs_dD_0 (i : S512x10.Idx) (q : dD.contr.Idx) : (dD.lhsIdx i q 0).val = (i 0).val := by
  unfold DotDims.lhsIdx
  rw [dif_neg (show ¬(0 : Fin S512x128.rank) ∈ dD.lhsBatch by decide),
    dif_pos (show (0 : Fin S512x128.rank) ∈ dD.lhsNonContracting by decide)]
  rfl
theorem lhs_dD_1 (i : S512x10.Idx) (q : dD.contr.Idx) : (dD.lhsIdx i q 1).val = (q ⟨0, by decide⟩).val :=
  dD.lhsIdx_val_of_single rfl i q
theorem rhs_dD_0 (i : S512x10.Idx) (q : dD.contr.Idx) : (dD.rhsIdx i q 0).val = (q ⟨0, by decide⟩).val :=
  dD.rhsIdx_val_of_single rfl i q
theorem rhs_dD_1 (i : S512x10.Idx) (q : dD.contr.Idx) : (dD.rhsIdx i q 1).val = (i 1).val := by
  unfold DotDims.rhsIdx
  rw [dif_neg (show ¬(1 : Fin S128x10.rank) ∈ dD.rhsBatch by decide),
    dif_pos (show (1 : Fin S128x10.rank) ∈ dD.rhsNonContracting by decide)]
  rfl

/-- The product at `(g, c)`: the sum over `e` of row `g` of the left operand times column `c` of the right. -/
theorem hostDot_apply {φ₁ φ₂ : FTy} (x : FVec Ideal S512x128 φ₁) (y : FVec Ideal S128x10 φ₂) (g : Fin 512) (c : Fin 10) :
    Host.dotGeneral dot_S512x128_S128x10_S512x10_1_0_0_1_n_n none x y (ix2 g c)
      = ∑ e : Fin 128, x (ix2 g e) * y (ix2 e c) := by
  simp only [Host.dotGeneral]
  rw [Ideal.dotGeneral_apply, ← Equiv.sum_comp (ValueIdx.contrEquiv1 dD 128 rfl rfl).symm]
  refine Finset.sum_congr rfl fun k _ => ?_
  have hk := ValueIdx.contrEquiv1_symm_val dD 128 rfl rfl k
  have el : dD.lhsIdx (ix2 g c) ((ValueIdx.contrEquiv1 dD 128 rfl rfl).symm k) = ix2 g k := funext fun a => Fin.ext (by
    match a with
    | ⟨0, _⟩ => exact lhs_dD_0 _ _
    | ⟨1, _⟩ => exact (lhs_dD_1 _ _).trans hk)
  have er : dD.rhsIdx (ix2 g c) ((ValueIdx.contrEquiv1 dD 128 rfl rfl).symm k) = ix2 k c := funext fun a => Fin.ext (by
    match a with
    | ⟨0, _⟩ => exact (rhs_dD_0 _ _).trans hk
    | ⟨1, _⟩ => exact rhs_dD_1 _ _)
  rw [el, er]

/-- A column `[512, 1]` broadcast over 128 columns reads, at `(g, e)`, the column at `g`. -/
theorem bcast_col128_apply {α : Type} (v : S512x1.Idx → α) (g : Fin 512) (e : Fin 128) :
    broadcastInDim S512x128 ![0, 1] bcast_S512x1_S512x128_0_1 v (ix2 g e) = v (ix2 g 0) := by
  unfold broadcastInDim
  congr 1
  funext a
  match a with
  | ⟨0, _⟩ => rfl
  | ⟨1, _⟩ => rfl

/-- The bias as a row broadcast over the 512 rows reads, at `(g, c)`, the bias at `c`. -/
theorem bias_apply {α : Type} (b : S10.Idx → α) (g : Fin 512) (c : Fin 10) :
    broadcastInDim S512x10 ![0, 1] bcast_S1x10_S512x10_0_1 (broadcastInDim S1x10 ![1] bcast_S10_S1x10_1 b) (ix2 g c)
      = b (ix1 c) := by
  unfold broadcastInDim
  congr 1
  funext a
  match a with
  | ⟨0, _⟩ => rfl

/-- The scatter-add spelling of the logits. -/
def refLogits (o3 : FVec Ideal S50000x128 .f32) (batch : IVec S50000 32) (Wout : FVec Ideal S128x10 .f32)
    (bout : FVec Ideal S10 .f32) : FVec Ideal S512x10 .f32 :=
  addf (Host.dotGeneral dot_S512x128_S128x10_S512x10_1_0_0_1_n_n none
      (Host.divf (Host.scatterAdd scatter_S512x128_S50000x1_S50000x128_1_0_0_1 (broadcastInDim S512x128 ![] bcast_S_S512x128 (constant (F := Ideal) S_ .f32 0x00000000#32)) (colB batch) o3)
        (broadcastInDim S512x128 ![0, 1] bcast_S512x1_S512x128_0_1 (broadcastInDim S512x1 ![0] bcast_S512_S512x1_0 (maximumf (Host.scatterAdd scatter_S512_S50000x1_S50000_n_0_0_1 (broadcastInDim S512 ![] bcast_S_S512 (constant (F := Ideal) S_ .f32 0x00000000#32)) (colB batch) (broadcastInDim S50000 ![] bcast_S_S50000 (constant (F := Ideal) S_ .f32 0x3F800000#32))) (broadcastInDim S512 ![] bcast_S_S512 (constant (F := Ideal) S_ .f32 0x3F800000#32))))))
      Wout) (broadcastInDim S512x10 ![0, 1] bcast_S1x10_S512x10_0_1 (broadcastInDim S1x10 ![1] bcast_S10_S1x10_1 bout))

/-- The scatter-add spelling of the logits at `(g, c)`: per graph, the one-hot sums over the nodes divided by the
    maximum of the node count and one, times the weights, plus the bias. -/
theorem refLogits_apply (o3 : FVec Ideal S50000x128 .f32) (batch : IVec S50000 32) (Wout : FVec Ideal S128x10 .f32)
    (bout : FVec Ideal S10 .f32) (g : Fin 512) (c : Fin 10) :
    refLogits o3 batch Wout bout (ix2 g c)
      = (∑ e : Fin 128, Ideal.div (∑ n : Fin 50000, oh (batch (ix1 n)) g * o3 (ix2 n e))
            (max (∑ n : Fin 50000, oh (batch (ix1 n)) g) 1) * Wout (ix2 e c)) + bout (ix1 c) := by
  unfold refLogits
  rw [addf_apply, hostDot_apply, bias_apply]
  refine congrArg (· + bout (ix1 c)) (Finset.sum_congr rfl fun e _ => ?_)
  rw [Cert.KernelIdeal.Pay.hostDivf_apply, pool_sum, bcast_col128_apply, bcast_row_apply, maximumf_apply, pool_cnt,
    broadcastInDim_scalar_apply, constant_apply, Ideal.ofBits_one_f32]

/-- The two spellings of the pooled classifier agree, given that the first one's pooled sums, counts and bias row
    are the one-hot sums, the one-hot counts and the bias. -/
theorem poolBridge (o3 : FVec Ideal S50000x128 .f32) (batch : IVec S50000 32) (Wout : FVec Ideal S128x10 .f32) (bout : FVec Ideal S10 .f32)
    (sumsK : Vec Ideal Cert.KernelIdeal.S512x128 .f32) (cntK : Vec Ideal Cert.KernelIdeal.S1x512 .f32) (boutRow : Vec Ideal Cert.KernelIdeal.S1x10 .f32)
    (hs : ∀ (g : Fin 512) (e : Fin 128), sumsK (ix2 g e) = ∑ n : Fin 50000, oh (batch (ix1 n)) g * o3 (ix2 n e))
    (hc : ∀ g : Fin 512, cntK (ix2 (0 : Fin 1) g) = ∑ n : Fin 50000, oh (batch (ix1 n)) g)
    (hb : ∀ c : Fin 10, boutRow (ix2 (0 : Fin 1) c) = bout (ix1 c)) :
    Cert.KernelIdeal.Pay.kerLsm (Cert.KernelIdeal.Pay.kerLogits cntK sumsK Wout boutRow)
      = refLsm (addf (Host.dotGeneral dot_S512x128_S128x10_S512x10_1_0_0_1_n_n none
          (Host.divf (Host.scatterAdd scatter_S512x128_S50000x1_S50000x128_1_0_0_1 (broadcastInDim S512x128 ![] bcast_S_S512x128 (constant (F := Ideal) S_ .f32 0x00000000#32)) (colB batch) o3)
            (broadcastInDim S512x128 ![0, 1] bcast_S512x1_S512x128_0_1 (broadcastInDim S512x1 ![0] bcast_S512_S512x1_0 (maximumf (Host.scatterAdd scatter_S512_S50000x1_S50000_n_0_0_1 (broadcastInDim S512 ![] bcast_S_S512 (constant (F := Ideal) S_ .f32 0x00000000#32)) (colB batch) (broadcastInDim S50000 ![] bcast_S_S50000 (constant (F := Ideal) S_ .f32 0x3F800000#32))) (broadcastInDim S512 ![] bcast_S_S512 (constant (F := Ideal) S_ .f32 0x3F800000#32))))))
          Wout) (broadcastInDim S512x10 ![0, 1] bcast_S1x10_S512x10_0_1 (broadcastInDim S1x10 ![1] bcast_S10_S1x10_1 bout))) := by
  refine (kerLsm_eq_refLsm _).trans (congrArg refLsm ?_)
  show Cert.KernelIdeal.Pay.kerLogits cntK sumsK Wout boutRow = refLogits o3 batch Wout bout
  funext j
  obtain ⟨g, c, rfl⟩ : ∃ (g : Fin 512) (c : Fin 10), j = ix2 g c := ⟨j 0, j 1, eq_ix2 j⟩
  rw [Cert.KernelIdeal.Pay.kerLogits_apply, refLogits_apply]
  simp only [hs, hc, hb]

end Cert.Spec.Pool
-- ==== Proof.RefNet.lean ====
import proofs.«400023_j55559696941219_2_alg».proof.Proof.RefRunP
import proofs.«400023_j55559696941219_2_alg».proof.Proof.RefReadP
import proofs.«400023_j55559696941219_2_alg».proof.Proof.SpecDefs
import proofs.«400023_j55559696941219_2_alg».proof.Proof.SpecPoolDefs
import Idealize.ShloMosaic.PureOps.Ideal
import Idealize.ShloMosaic.PureOps.Ideal.Laws
import Idealize.ShloMosaic.Lib.ValueIdx
import Idealize.ShloMosaic.Lib.ValueLayout
import Idealize.ShloMosaic.Lib.StableHlo.Predicate

/-! The reference network as nested definitions over its eleven arguments: three graph-convolution layers
(a dense map, the degree-normalised aggregation over the edges with self loops, a bias and a tanh; the third
layer without the tanh), the per-graph mean pool, the classifier and the row-wise log-softmax. The run's
composed term is this network of the launch memory, and each dense stage is read at an index. -/

noncomputable section
open Idealize.ShloMosaic Idealize.ShloMosaic.TcCoe Idealize.SL.Sem
open Idealize.ShloMosaic.ValueIdx

namespace Cert.RefNet
open Cert.ReferenceIdeal Cert.ReferenceIdeal.Gen

/-- the edge sources followed by one self loop per node -/
def src (ei : IVec S2x1600000 32) : IVec S1650000 32 :=
  concatenate S1650000 0 [⟨S1600000, shapeCast _ (extractStridedSlice S1x1600000 ![0, 0] ei slices_S2x1600000_S1x1600000_0_0) shapeCasts_S1x1600000_S1600000⟩, ⟨S50000, iotaInDim S50000 32 0⟩] concatenates_S1600000_S50000_S1650000_d0

/-- the edge destinations followed by one self loop per node -/
def dst (ei : IVec S2x1600000 32) : IVec S1650000 32 :=
  concatenate S1650000 0 [⟨S1600000, shapeCast _ (extractStridedSlice S1x1600000 ![1, 0] ei slices_S2x1600000_S1x1600000_1_0) shapeCasts_S1x1600000_S1600000⟩, ⟨S50000, iotaInDim S50000 32 0⟩] concatenates_S1600000_S50000_S1650000_d0

/-- the degree normalisation of the graph with self loops -/
def dis (ei : IVec S2x1600000 32) : FVec Ideal S50000 .f32 := Cert.Spec.Layer.disOf (dst ei)

/-- a bias row broadcast over the nodes -/
def bB (b : FVec Ideal S128 .f32) : FVec Ideal S50000x128 .f32 :=
  broadcastInDim S50000x128 ![0, 1] bcast_S1x128_S50000x128_0_1 (broadcastInDim S1x128 ![1] bcast_S128_S1x128_1 b)

/-! ### the three layers -/

def h0 (x : FVec Ideal S50000x128 .f32) (W0 : FVec Ideal S128x128 .f32) : FVec Ideal S50000x128 .f32 :=
  Host.dotGeneral dot_S50000x128_S128x128_S50000x128_1_0_0_1_n_n none x W0
def a0 (x : FVec Ideal S50000x128 .f32) (ei : IVec S2x1600000 32) (W0 : FVec Ideal S128x128 .f32) : FVec Ideal S50000x128 .f32 :=
  Cert.Spec.Layer.refAgg (h0 x W0) (dis ei) (src ei) (dst ei)
def p1 (x : FVec Ideal S50000x128 .f32) (ei : IVec S2x1600000 32) (W0 : FVec Ideal S128x128 .f32) (b0 : FVec Ideal S128 .f32) : FVec Ideal S50000x128 .f32 :=
  Host.tanh (addf (a0 x ei W0) (bB b0))
def h1 (x : FVec Ideal S50000x128 .f32) (ei : IVec S2x1600000 32) (W0 : FVec Ideal S128x128 .f32) (b0 : FVec Ideal S128 .f32)
    (W1 : FVec Ideal S128x128 .f32) : FVec Ideal S50000x128 .f32 :=
  Host.dotGeneral dot_S50000x128_S128x128_S50000x128_1_0_0_1_n_n none (p1 x ei W0 b0) W1
def a1 (x : FVec Ideal S50000x128 .f32) (ei : IVec S2x1600000 32) (W0 : FVec Ideal S128x128 .f32) (b0 : FVec Ideal S128 .f32)
    (W1 : FVec Ideal S128x128 .f32) : FVec Ideal S50000x128 .f32 :=
  Cert.Spec.Layer.refAgg (h1 x ei W0 b0 W1) (dis ei) (src ei) (dst ei)
def p2 (x : FVec Ideal S50000x128 .f32) (ei : IVec S2x1600000 32) (W0 : FVec Ideal S128x128 .f32) (b0 : FVec Ideal S128 .f32)
    (W1 : FVec Ideal S128x128 .f32) (b1 : FVec Ideal S128 .f32) : FVec Ideal S50000x128 .f32 :=
  Host.tanh (addf (a1 x ei W0 b0 W1) (bB b1))
def h2 (x : FVec Ideal S50000x128 .f32) (ei : IVec S2x1600000 32) (W0 : FVec Ideal S128x128 .f32) (b0 : FVec Ideal S128 .f32)
    (W1 : FVec Ideal S128x128 .f32) (b1 : FVec Ideal S128 .f32) (W2 : FVec Ideal S128x128 .f32) : FVec Ideal S50000x128 .f32 :=
  Host.dotGeneral dot_S50000x128_S128x128_S50000x128_1_0_0_1_n_n none (p2 x ei W0 b0 W1 b1) W2
def a2 (x : FVec Ideal S50000x128 .f32) (ei : IVec S2x1600000 32) (W0 : FVec Ideal S128x128 .f32) (b0 : FVec Ideal S128 .f32)
    (W1 : FVec Ideal S128x128 .f32) (b1 : FVec Ideal S128 .f32) (W2 : FVec Ideal S128x128 .f32) : FVec Ideal S50000x128 .f32 :=
  Cert.Spec.Layer.refAgg (h2 x ei W0 b0 W1 b1 W2) (dis ei) (src ei) (dst ei)
def o3 (x : FVec Ideal S50000x128 .f32) (ei : IVec S2x1600000 32) (W0 : FVec Ideal S128x128 .f32) (b0 : FVec Ideal S128 .f32)
    (W1 : FVec Ideal S128x128 .f32) (b1 : FVec Ideal S128 .f32) (W2 : FVec Ideal S128x128 .f32) (b2 : FVec Ideal S128 .f32) :
    FVec Ideal S50000x128 .f32 :=
  addf (a2 x ei W0 b0 W1 b1 W2) (bB b2)

/-! ### the mean pool, the classifier and the log-softmax -/

/-- the per-graph sums of the node rows -/
def sums (batch : IVec S50000 32) (o : FVec Ideal S50000x128 .f32) : FVec Ideal S512x128 .f32 :=
  Host.scatterAdd scatter_S512x128_S50000x1_S50000x128_1_0_0_1 (broadcastInDim S512x128 ![] bcast_S_S512x128 (constant S_ .f32 0x00000000#32)) (Cert.Spec.Pool.colB batch) o

/-- the per-graph node counts -/
def cnt (batch : IVec S50000 32) : FVec Ideal S512 .f32 :=
  Host.scatterAdd scatter_S512_S50000x1_S50000_n_0_0_1 (broadcastInDim S512 ![] bcast_S_S512 (constant S_ .f32 0x00000000#32)) (Cert.Spec.Pool.colB batch) (broadcastInDim S50000 ![] bcast_S_S50000 (constant S_ .f32 0x3F800000#32))

/-- the per-graph mean: the sums over the counts clamped below at one -/
def pooled (s : FVec Ideal S512x128 .f32) (n : FVec Ideal S512 .f32) : FVec Ideal S512x128 .f32 :=
  Host.divf s (broadcastInDim S512x128 ![0, 1] bcast_S512x1_S512x128_0_1 (broadcastInDim S512x1 ![0] bcast_S512_S512x1_0 (maximumf n (broadcastInDim S512 ![] bcast_S_S512 (constant S_ .f32 0x3F800000#32)))))

/-- the classifier: a dense map and a bias row -/
def logits (p : FVec Ideal S512x128 .f32) (Wout : FVec Ideal S128x10 .f32) (bout : FVec Ideal S10 .f32) : FVec Ideal S512x10 .f32 :=
  addf (Host.dotGeneral dot_S512x128_S128x10_S512x10_1_0_0_1_n_n none p Wout) (broadcastInDim S512x10 ![0, 1] bcast_S1x10_S512x10_0_1 (broadcastInDim S1x10 ![1] bcast_S10_S1x10_1 bout))

/-- the reference network -/
def out (x : FVec Ideal S50000x128 .f32) (ei : IVec S2x1600000 32) (batch : IVec S50000 32)
    (W0 : FVec Ideal S128x128 .f32) (b0 : FVec Ideal S128 .f32) (W1 : FVec Ideal S128x128 .f32) (b1 : FVec Ideal S128 .f32)
    (W2 : FVec Ideal S128x128 .f32) (b2 : FVec Ideal S128 .f32) (Wout : FVec Ideal S128x10 .f32) (bout : FVec Ideal S10 .f32) :
    FVec Ideal S512x10 .f32 :=
  Cert.Spec.Pool.refLsm (logits (pooled (sums batch (o3 x ei W0 b0 W1 b1 W2 b2)) (cnt batch)) Wout bout)

/-! ### the dense stages read at an index -/

/-- a dense map at (n, f): the row n of the left factor against the column f of the right one -/
theorem h_apply (x : FVec Ideal S50000x128 .f32) (W : FVec Ideal S128x128 .f32) (n : Fin 50000) (f : Fin 128) :
    Host.dotGeneral dot_S50000x128_S128x128_S50000x128_1_0_0_1_n_n none x W (ix2 n f)
      = ∑ k : Fin 128, x (ix2 n k) * W (ix2 k f) := by
  refine (Cert.ReferenceIdeal.ReadP.val_main_v32_apply x W (ix2 n f)).trans ?_
  refine Finset.sum_congr rfl fun k _ => ?_
  have el : Cert.ReferenceIdeal.ReadP.lidx_main_v32 (ix2 n f) k = ix2 n k :=
    funext fun a => match a with | ⟨0, _⟩ => rfl | ⟨1, _⟩ => rfl
  have er : Cert.ReferenceIdeal.ReadP.ridx_main_v32 (ix2 n f) k = ix2 k f :=
    funext fun a => match a with | ⟨0, _⟩ => rfl | ⟨1, _⟩ => rfl
  rw [el, er]

/-- the bias row broadcast over the nodes reads, at (n, k), the bias at k -/
theorem bB_apply (b : FVec Ideal S128 .f32) (n : Fin 50000) (k : Fin 128) : bB b (ix2 n k) = b (ix1 k) := by
  unfold bB
  refine (broadcastInDim_apply _ bcast_S1x128_S50000x128_0_1 _ (ix2 n k) (ix2 (0 : Fin 1) k) (fun a => match a with
    | ⟨0, _⟩ => by show (0 : Nat) = if (1 : Nat) = 1 then 0 else n.val; rw [if_pos rfl]
    | ⟨1, _⟩ => by show k.val = if (128 : Nat) = 1 then 0 else k.val; rw [if_neg (by decide)])).trans ?_
  exact broadcastInDim_apply _ bcast_S128_S1x128_1 b (ix2 (0 : Fin 1) k) (ix1 k) (fun a => match a with
    | ⟨0, _⟩ => by show k.val = if (128 : Nat) = 1 then 0 else k.val; rw [if_neg (by decide)])

/-- a hidden layer's output at (n, k): the tanh of the aggregate plus the bias -/
theorem p_apply (a : FVec Ideal S50000x128 .f32) (b : FVec Ideal S128 .f32) (n : Fin 50000) (k : Fin 128) :
    Host.tanh (addf a (bB b)) (ix2 n k) = Ideal.tanh (a (ix2 n k) + b (ix1 k)) := by
  show Ideal.tanh (a (ix2 n k) + bB b (ix2 n k)) = _
  rw [bB_apply]

/-- the last layer's output at (n, e): the aggregate plus the bias -/
theorem o3_apply (a : FVec Ideal S50000x128 .f32) (b : FVec Ideal S128 .f32) (n : Fin 50000) (e : Fin 128) :
    addf a (bB b) (ix2 n e) = a (ix2 n e) + b (ix1 e) := by
  show a (ix2 n e) + bB b (ix2 n e) = _
  rw [bB_apply]

/-- the mean pool at (g, e): the sum over the count clamped below at one -/
theorem pooled_apply (s : FVec Ideal S512x128 .f32) (n : FVec Ideal S512 .f32) (g : Fin 512) (e : Fin 128) :
    pooled s n (ix2 g e) = Ideal.div (s (ix2 g e)) (max (n (ix1 g)) 1) := by
  unfold pooled
  show Ideal.div (s (ix2 g e)) (broadcastInDim S512x128 ![0, 1] bcast_S512x1_S512x128_0_1 (broadcastInDim S512x1 ![0] bcast_S512_S512x1_0 (maximumf n (broadcastInDim S512 ![] bcast_S_S512 (constant (F := Ideal) S_ .f32 0x3F800000#32)))) (ix2 g e)) = _
  rw [broadcastInDim_apply _ bcast_S512x1_S512x128_0_1 _ (ix2 g e) (ix2 g (0 : Fin 1)) (fun a => match a with
      | ⟨0, _⟩ => by show g.val = if (512 : Nat) = 1 then 0 else g.val; rw [if_neg (by decide)]
      | ⟨1, _⟩ => by show (0 : Nat) = if (1 : Nat) = 1 then 0 else e.val; rw [if_pos rfl]),
    broadcastInDim_apply _ bcast_S512_S512x1_0 _ (ix2 g (0 : Fin 1)) (ix1 g) (fun a => match a with
      | ⟨0, _⟩ => by show g.val = if (512 : Nat) = 1 then 0 else g.val; rw [if_neg (by decide)])]
  show Ideal.div (s (ix2 g e)) (max (n (ix1 g)) (broadcastInDim S512 ![] bcast_S_S512 (constant (F := Ideal) S_ .f32 0x3F800000#32) (ix1 g))) = _
  rw [broadcastInDim_apply _ bcast_S_S512 _ (ix1 g) ix0 (fun a => a.elim0)]
  show Ideal.div (s (ix2 g e)) (max (n (ix1 g)) (Ideal.ofBits .f32 0x3F800000#32)) = _
  rw [Cert.KernelIdeal.Pay.ofBits_one_f32]

/-- the classifier at (g, c): the pooled row g against the column c of the weights, plus the bias at c -/
theorem logits_apply (p : FVec Ideal S512x128 .f32) (Wout : FVec Ideal S128x10 .f32) (bout : FVec Ideal S10 .f32)
    (g : Fin 512) (c : Fin 10) :
    logits p Wout bout (ix2 g c) = (∑ e : Fin 128, p (ix2 g e) * Wout (ix2 e c)) + bout (ix1 c) := by
  unfold logits
  show Host.dotGeneral dot_S512x128_S128x10_S512x10_1_0_0_1_n_n none p Wout (ix2 g c)
      + broadcastInDim S512x10 ![0, 1] bcast_S1x10_S512x10_0_1 (broadcastInDim S1x10 ![1] bcast_S10_S1x10_1 bout) (ix2 g c) = _
  congr 1
  · simp only [Host.dotGeneral]
    rw [Ideal.dotGeneral_apply, ← Equiv.sum_comp (ValueIdx.contrEquiv1 dot_S512x128_S128x10_S512x10_1_0_0_1_n_n 128 rfl rfl).symm]
    refine Finset.sum_congr rfl fun k _ => ?_
    have hk := ValueIdx.contrEquiv1_symm_val dot_S512x128_S128x10_S512x10_1_0_0_1_n_n 128 rfl rfl k
    have el : dot_S512x128_S128x10_S512x10_1_0_0_1_n_n.lhsIdx (ix2 g c) ((ValueIdx.contrEquiv1 dot_S512x128_S128x10_S512x10_1_0_0_1_n_n 128 rfl rfl).symm k) = ix2 g k :=
      funext fun a => Fin.ext (by
        match a with
        | ⟨0, _⟩ => exact Cert.ReferenceIdeal.ReadP.lhs_main_v97_0 _ _
        | ⟨1, _⟩ => exact (Cert.ReferenceIdeal.ReadP.lhs_main_v97_1 _ _).trans hk)
    have er : dot_S512x128_S128x10_S512x10_1_0_0_1_n_n.rhsIdx (ix2 g c) ((ValueIdx.contrEquiv1 dot_S512x128_S128x10_S512x10_1_0_0_1_n_n 128 rfl rfl).symm k) = ix2 k c :=
      funext fun a => Fin.ext (by
        match a with
        | ⟨0, _⟩ => exact (Cert.ReferenceIdeal.ReadP.rhs_main_v97_0 _ _).trans hk
        | ⟨1, _⟩ => exact Cert.ReferenceIdeal.ReadP.rhs_main_v97_1 _ _)
    rw [el, er]
  · refine (broadcastInDim_apply _ bcast_S1x10_S512x10_0_1 _ (ix2 g c) (ix2 (0 : Fin 1) c) (fun a => match a with
      | ⟨0, _⟩ => by show (0 : Nat) = if (1 : Nat) = 1 then 0 else g.val; rw [if_pos rfl]
      | ⟨1, _⟩ => by show c.val = if (10 : Nat) = 1 then 0 else c.val; rw [if_neg (by decide)])).trans ?_
    exact broadcastInDim_apply _ bcast_S10_S1x10_1 bout (ix2 (0 : Fin 1) c) (ix1 c) (fun a => match a with
      | ⟨0, _⟩ => by show c.val = if (10 : Nat) = 1 then 0 else c.val; rw [if_neg (by decide)])

/-! ### the run's composed term is the network of the launch memory -/

set_option maxRecDepth 8192 in
set_option maxHeartbeats 4000000 in
/-- The reference's result, as the run composes it from the launch memory, is the network of the eleven arguments. -/
theorem res_eq (m : (ℓ : Loc nD τ sig) → Buf (Elt Ideal) ℓ) (c : Dev nD) :
    Cert.ReferenceIdeal.ValueP.res_main_v101 (F := Ideal) m c
      = out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  unfold Cert.ReferenceIdeal.ValueP.res_main_v101
  rfl

end Cert.RefNet
-- ==== Proof.RefJoin.lean ====
import proofs.«400023_j55559696941219_2_alg».proof.Proof.RefNet
import proofs.«400023_j55559696941219_2_alg».proof.Proof.SpecNet
import proofs.«400023_j55559696941219_2_alg».proof.Proof.SpecPoolDefs

/-! The reference network written over the layer and pool vocabulary: its three layers are the composed
three-layer output of the edge lists with self loops, and what follows them is the scatter-add mean pool,
the classifier and the row-wise log-softmax. The two spellings are the same term. -/

noncomputable section
open Idealize.ShloMosaic Idealize.ShloMosaic.TcCoe Idealize.SL.Sem
open Idealize.ShloMosaic.ValueIdx

namespace Cert.RefNet
open Cert.ReferenceIdeal Cert.ReferenceIdeal.Gen

/-- The network over the layer and pool vocabulary: the three-layer output, pooled by scatter-add sums over the
    clamped counts, through the classifier and the row-wise log-softmax. -/
theorem out_eq (x : FVec Ideal S50000x128 .f32) (ei : IVec S2x1600000 32) (batch : IVec S50000 32)
    (W0 : FVec Ideal S128x128 .f32) (b0 : FVec Ideal S128 .f32) (W1 : FVec Ideal S128x128 .f32) (b1 : FVec Ideal S128 .f32)
    (W2 : FVec Ideal S128x128 .f32) (b2 : FVec Ideal S128 .f32) (Wout : FVec Ideal S128x10 .f32) (bout : FVec Ideal S10 .f32) :
    out x ei batch W0 b0 W1 b1 W2 b2 Wout bout
      = Cert.Spec.Pool.refLsm (addf (Host.dotGeneral dot_S512x128_S128x10_S512x10_1_0_0_1_n_n none
          (Host.divf (Host.scatterAdd scatter_S512x128_S50000x1_S50000x128_1_0_0_1 (broadcastInDim S512x128 ![] bcast_S_S512x128 (constant (F := Ideal) S_ .f32 0x00000000#32)) (Cert.Spec.Pool.colB batch) (Cert.Spec.Layer.refO3 x W0 b0 W1 b1 W2 b2 (src ei) (dst ei)))
            (broadcastInDim S512x128 ![0, 1] bcast_S512x1_S512x128_0_1 (broadcastInDim S512x1 ![0] bcast_S512_S512x1_0 (maximumf (Host.scatterAdd scatter_S512_S50000x1_S50000_n_0_0_1 (broadcastInDim S512 ![] bcast_S_S512 (constant (F := Ideal) S_ .f32 0x00000000#32)) (Cert.Spec.Pool.colB batch) (broadcastInDim S50000 ![] bcast_S_S50000 (constant (F := Ideal) S_ .f32 0x3F800000#32))) (broadcastInDim S512 ![] bcast_S_S512 (constant (F := Ideal) S_ .f32 0x3F800000#32))))))
          Wout) (broadcastInDim S512x10 ![0, 1] bcast_S1x10_S512x10_0_1 (broadcastInDim S1x10 ![1] bcast_S10_S1x10_1 bout))) := rfl

end Cert.RefNet
-- ==== Proof.PreReal.lean ====
/-
  The precondition "every float input is finite", decoded: each entry of each of the nine float
  arguments is a real number (neither +∞ nor −∞).
-/
import proofs.«400023_j55559696941219_2_alg».proof.Defs
import proofs.«400023_j55559696941219_2_alg».proof.Proof.Gen.Pre_finite_inputs
import Idealize.ShloMosaic.PureOps.Ideal
import Idealize.ShloMosaic.Lib.ReduceAll
import Idealize.ShloMosaic.Lib.ValueIdx
import Mathlib.Data.EReal.Basic

noncomputable section

open Idealize.ShloMosaic Idealize.ShloMosaic.TcCoe Idealize.SL.Sem
open Idealize.ShloMosaic.ValueIdx

namespace Cert.PreReal

open Cert.Pre_finite_inputs

/-- The rank-0 shape has one index. -/
instance subsingleton_S_ : Subsingleton S_.Idx := ⟨fun a b => funext fun d => d.elim0⟩

/-- An extended real whose absolute value max x (−x) lies strictly below the word 0x7F800000 (which is +∞)
    is a real number. -/
theorem real_of_elem (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- One array: if the conjunction over all entries of |x i| < +∞ is 1, every entry is a real number. -/
theorem real_of_all {s : Shape} {axes : List (Fin s.rank)}
    (hb : S_.BroadcastsInDim s (![] : Fin 0 → Fin s.rank)) (hr : s.ReducesTo axes S_) (hu : 0 < S_.numel)
    (x : FVec Ideal s .f32)
    (h : Host.reduce IntOp.andi
          (cmpf .olt (Host.absf x) (broadcastInDim s ![] hb (constant (F := Ideal) S_ .f32 0x7F800000#32)))
          (constantI S_ 1 1#1) hr hu ix0 = 1#1) (i : s.Idx) : ∃ r : ℝ, x i = (r : EReal) := by
  have e := Host.reduce_andi_all _ _ hr hu _ h i
  exact real_of_elem (x i) e

/-- A conjunction of two rank-0 bits is 1 exactly when both are. -/
theorem andi_ix0 (a b : IVec S_ 1) : andi a b ix0 = 1#1 ↔ a ix0 = 1#1 ∧ b ix0 = 1#1 := IntOp.andi_eq_one

/-- The printed predicate: if it evaluates to 1, every entry of each of the nine float arguments is a real number. -/
theorem real_of_fn [Facts]
    (x0 : FVec Ideal S50000x128 .f32) (x1 : IVec S2x1600000 32) (x2 : IVec S50000 32)
    (x3 : FVec Ideal S128x128 .f32) (x4 : FVec Ideal S128 .f32) (x5 : FVec Ideal S128x128 .f32)
    (x6 : FVec Ideal S128 .f32) (x7 : FVec Ideal S128x128 .f32) (x8 : FVec Ideal S128 .f32)
    (x9 : FVec Ideal S128x10 .f32) (x10 : FVec Ideal S10 .f32)
    (h : fn (F := Ideal) x0 x1 x2 x3 x4 x5 x6 x7 x8 x9 x10 = fun _ => 1#1) :
    (∀ i, ∃ r : ℝ, x0 i = (r : EReal)) ∧ (∀ i, ∃ r : ℝ, x3 i = (r : EReal))
    ∧ (∀ i, ∃ r : ℝ, x4 i = (r : EReal)) ∧ (∀ i, ∃ r : ℝ, x5 i = (r : EReal))
    ∧ (∀ i, ∃ r : ℝ, x6 i = (r : EReal)) ∧ (∀ i, ∃ r : ℝ, x7 i = (r : EReal))
    ∧ (∀ i, ∃ r : ℝ, x8 i = (r : EReal)) ∧ (∀ i, ∃ r : ℝ, x9 i = (r : EReal))
    ∧ (∀ i, ∃ r : ℝ, x10 i = (r : EReal)) := by
  have h0 := congrFun h ix0
  dsimp only [fn, fn_part1, fn_part2] at h0
  rw [andi_ix0, andi_ix0, andi_ix0, andi_ix0, andi_ix0, andi_ix0, andi_ix0, andi_ix0] at h0
  obtain ⟨⟨⟨⟨⟨⟨⟨⟨a0, a3⟩, a4⟩, a5⟩, a6⟩, a7⟩, a8⟩, a9⟩, a10⟩ := h0
  exact ⟨real_of_all _ _ _ x0 a0, real_of_all _ _ _ x3 a3, real_of_all _ _ _ x4 a4, real_of_all _ _ _ x5 a5,
    real_of_all _ _ _ x6 a6, real_of_all _ _ _ x7 a7, real_of_all _ _ _ x8 a8, real_of_all _ _ _ x9 a9,
    real_of_all _ _ _ x10 a10⟩

/-- The precondition of the idealized kernel, decoded: on every device, each entry of each of the nine float
    argument arrays is a real number. -/
theorem real_of_pre
    (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m)
    (c : Dev Cert.KernelIdeal.nD) :
    (∀ i : S50000x128.Idx, ∃ r : ℝ, (m ((c.tc : Thread Cert.KernelIdeal.nD Cert.KernelIdeal.τ).loc Cert.KernelIdeal.main_arg0)) i = (r : EReal))
    ∧ (∀ i : S128x128.Idx, ∃ r : ℝ, (m ((c.tc : Thread Cert.KernelIdeal.nD Cert.KernelIdeal.τ).loc Cert.KernelIdeal.main_arg3)) i = (r : EReal))
    ∧ (∀ i : S128.Idx, ∃ r : ℝ, (m ((c.tc : Thread Cert.KernelIdeal.nD Cert.KernelIdeal.τ).loc Cert.KernelIdeal.main_arg4)) i = (r : EReal))
    ∧ (∀ i : S128x128.Idx, ∃ r : ℝ, (m ((c.tc : Thread Cert.KernelIdeal.nD Cert.KernelIdeal.τ).loc Cert.KernelIdeal.main_arg5)) i = (r : EReal))
    ∧ (∀ i : S128.Idx, ∃ r : ℝ, (m ((c.tc : Thread Cert.KernelIdeal.nD Cert.KernelIdeal.τ).loc Cert.KernelIdeal.main_arg6)) i = (r : EReal))
    ∧ (∀ i : S128x128.Idx, ∃ r : ℝ, (m ((c.tc : Thread Cert.KernelIdeal.nD Cert.KernelIdeal.τ).loc Cert.KernelIdeal.main_arg7)) i = (r : EReal))
    ∧ (∀ i : S128.Idx, ∃ r : ℝ, (m ((c.tc : Thread Cert.KernelIdeal.nD Cert.KernelIdeal.τ).loc Cert.KernelIdeal.main_arg8)) i = (r : EReal))
    ∧ (∀ i : S128x10.Idx, ∃ r : ℝ, (m ((c.tc : Thread Cert.KernelIdeal.nD Cert.KernelIdeal.τ).loc Cert.KernelIdeal.main_arg9)) i = (r : EReal))
    ∧ (∀ i : S10.Idx, ∃ r : ℝ, (m ((c.tc : Thread Cert.KernelIdeal.nD Cert.KernelIdeal.τ).loc Cert.KernelIdeal.main_arg10)) i = (r : EReal)) :=
  real_of_fn (h := h c)

end Cert.PreReal

end
-- ==== Proof.Bridge.lean ====
/-
  The comparison of the two results, at Ideal.

  The kernel's result array is what its last region writes back: the log-softmax of the classifier applied to the pooled
  sums divided by the group sizes. Its pooled sums are the one-hot sums over the nodes of agg2 * dis + b2, where agg2 is the
  aggregate of the third dense layer's pre-scaled output. By the three-layer law that entry is the reference's third
  convolution at the same node, so the pooled sums, the group sizes and hence the logits agree with the reference's,
  and the two log-softmax tails are one function. The law needs every entry of the float inputs to be a real number,
  which is what the precondition says.
-/
import proofs.«400023_j55559696941219_2_alg».proof.Proof.KI.KChain
import proofs.«400023_j55559696941219_2_alg».proof.Proof.SpecNet
import proofs.«400023_j55559696941219_2_alg».proof.Proof.PoolBridge
import proofs.«400023_j55559696941219_2_alg».proof.Proof.RefJoin
import proofs.«400023_j55559696941219_2_alg».proof.Proof.PreReal
import proofs.«400023_j55559696941219_2_alg».proof.Proof.RefRunP

noncomputable section

namespace Cert.Bridge

open Idealize.ShloMosaic Idealize.ShloMosaic.TcCoe Idealize.SL.Sem
open Idealize.ShloMosaic.ValueIdx
open Cert.KernelIdeal Cert.KernelIdeal.Gen Cert.KernelIdeal.Fr Cert.KernelIdeal.Chain Cert.KernelIdeal.HostVal

variable (m : (ℓ : Loc nD τ sig) → Buf (Elt Ideal) ℓ) (ρ : Dev nD → PrngReg)

/-- The kernel's result array is the reference's network applied to the kernel's own argument arrays. -/
theorem result_eq (hpre : Cert.Pre_KernelIdeal (hPre_finite_inputs := Cert.Pre_finite_inputs.Gen.facts) m) (c : Dev nD) :
    (W10 m ρ c (Proc.devRef .tc main_v56) : FVec Ideal S512x10 .f32)
      = Cert.RefNet.out (xA m c) (ei m c) (idsA m c) (W0A m c) (b0A m c) (W1A m c) (b1A m c) (W2A m c) (b2A m c) (WoutA m c) (boutA m c) := by
  obtain ⟨r0, r3, r4, r5, r6, r7, r8, r9, r10⟩ := Cert.PreReal.real_of_pre m hpre c
  rw [kc_out m ρ c, Cert.RefNet.out_eq]
  refine Cert.Spec.Pool.poolBridge _ (idsA m c) (WoutA m c) (boutA m c) (sumsK m ρ c) (cntK m c) (boutr m c) ?_ (kc_cnt m c) (kc_bout m c)
  intro g e
  rw [kc_sums m ρ c g e]
  refine Finset.sum_congr rfl fun n _ => congrArg _ ?_
  exact Cert.Spec.Layer.net_eq (xA m c) (W0A m c) (W1A m c) (W2A m c) (b0A m c) (b1A m c) (b2A m c) (srcK m c) (dstK m c)
    r0 r3 r5 r7 r4 r6 r8 (d1 m ρ c) (kc_d1 m ρ c) (b0r m c) (b1r m c) (b2r m c) (kc_b0 m c) (kc_b1 m c) (kc_b2 m c)
    (hs0 m ρ c) (hs1 m ρ c) (hs2 m ρ c) (kc_h0 m ρ c) (kc_h1 m ρ c) (kc_h2 m ρ c) n e

/-- Both programs run; the kernel's result array and the reference's are equal entry by entry, and the arguments end as
    launched. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => W10 m ρ c (Proc.devRef .tc main_v56), ?_, ?_⟩
  · exact (θ_run Cert.KernelIdeal.defs _ _).mono (fun r h c =>
      ⟨h c _ (mem_uc main_v56 (by decide)),
       run_keep m ρ h c main_arg0 (by decide) (by decide) (by decide) (by decide) (by decide) (by decide) (by decide) (by decide),
       run_keep m ρ h c main_arg1 (by decide) (by decide) (by decide) (by decide) (by decide) (by decide) (by decide) (by decide),
       run_keep m ρ h c main_arg2 (by decide) (by decide) (by decide) (by decide) (by decide) (by decide) (by decide) (by decide),
       run_keep m ρ h c main_arg3 (by decide) (by decide) (by decide) (by decide) (by decide) (by decide) (by decide) (by decide),
       run_keep m ρ h c main_arg4 (by decide) (by decide) (by decide) (by decide) (by decide) (by decide) (by decide) (by decide),
       run_keep m ρ h c main_arg5 (by decide) (by decide) (by decide) (by decide) (by decide) (by decide) (by decide) (by decide),
       run_keep m ρ h c main_arg6 (by decide) (by decide) (by decide) (by decide) (by decide) (by decide) (by decide) (by decide),
       run_keep m ρ h c main_arg7 (by decide) (by decide) (by decide) (by decide) (by decide) (by decide) (by decide) (by decide),
       run_keep m ρ h c main_arg8 (by decide) (by decide) (by decide) (by decide) (by decide) (by decide) (by decide) (by decide),
       run_keep m ρ h c main_arg9 (by decide) (by decide) (by decide) (by decide) (by decide) (by decide) (by decide) (by decide),
       run_keep m ρ h c main_arg10 (by decide) (by decide) (by decide) (by decide) (by decide) (by decide) (by decide) (by decide)⟩)
      (run_all m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9, e10⟩ := hagree c
    rw [Cert.RefNet.res_eq m' c, e0, e1, e2, e3, e4, e5, e6, e7, e8, e9, e10]
    exact (result_eq m ρ hpre c).symm

end Cert.Bridge

end
-- ==== Proof.lean ====
/-
  The certificate of the three-layer graph convolution with mean pooling and a classifier.

  Frames. The kernel's @main is ten segments: host operations, then four kernel regions with host operations between them.
  Each region's body is run on its staging buffers at every grid point (three dense layers, class A; the pooling kernel
  with its two accumulators carried between points and its output stored at the last point only), the launch joins the
  segments, and no host operation and no region writes an argument array. The same text serves the word-level program and
  its idealization. The reference is host operations only: its run is read back operation by operation.

  The idealization rewrote one site: the one-hot matrix is rounded to bf16 and widened back before the counts are summed;
  at Ideal a change of format is the identity.

  Values, at Ideal. With dis the inverse square root of the degree, the reference aggregates h[src] * (dis[src] * dis[dst])
  into row dst, the kernel aggregates the pre-scaled rows (h * dis)[src] and multiplies the sum by dis[dst] afterwards: the
  factor comes out of the finite sum because every entry is a real number (finite inputs; sums, products and tanh of
  reals are real). Layer by layer the kernel's region output is the reference's dense product scaled by dis. The pooled sums
  are the same sums over the nodes of each graph (a scatter-add by graph id against a one-hot product), the counts the
  same counts, and the classifier with its log-softmax the same function of them.
-/
import proofs.«400023_j55559696941219_2_alg».proof.Defs
import proofs.«400023_j55559696941219_2_alg».proof.Proof.Gen.Kernel
import proofs.«400023_j55559696941219_2_alg».proof.Proof.Gen.KernelIdeal
import proofs.«400023_j55559696941219_2_alg».proof.Proof.Gen.ReferenceIdeal
import proofs.«400023_j55559696941219_2_alg».proof.Proof.Gen.Pre_finite_inputs
import proofs.«400023_j55559696941219_2_alg».proof.Proof.K.Run
import proofs.«400023_j55559696941219_2_alg».proof.Proof.KI.Run
import proofs.«400023_j55559696941219_2_alg».proof.Proof.RefRunP
import proofs.«400023_j55559696941219_2_alg».proof.Proof.Bridge
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Fr.frame m ρ

theorem frame_ki : Cert.frame_KernelIdeal (hKernelIdeal := Cert.KernelIdeal.Gen.facts) (hPre_finite_inputs := Cert.Pre_finite_inputs.Gen.facts) :=
  fun m ρ _ => Cert.KernelIdeal.Fr.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The one rewrite of the idealization: widening back a value rounded to bf16 is the identity at Ideal. -/
theorem preserves : Cert.preserves_Kernel_KernelIdeal :=
  IdealRules.truncf_extf.statement _ .f32 .bf16

theorem claim : Cert.Claim := ⟨Cert.Kernel.Gen.facts, Cert.KernelIdeal.Gen.facts, Cert.ReferenceIdeal.Gen.facts, Cert.Pre_finite_inputs.Gen.facts,
  frame_k, frame_ki, frame_ri, preserves, Cert.Bridge.algebraic⟩

end Cert.Proof

end
